-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S128x2 : Shape := ⟨2, ![128, 2]⟩
abbrev S1600000 : Shape := ⟨1, ![1600000]⟩
abbrev S100000 : Shape := ⟨1, ![100000]⟩
abbrev S6x128 : Shape := ⟨2, ![6, 128]⟩
abbrev S128 : Shape := ⟨1, ![128]⟩
abbrev S128x512 : Shape := ⟨2, ![128, 512]⟩
abbrev S512 : Shape := ⟨1, ![512]⟩
abbrev S2x2 : Shape := ⟨2, ![2, 2]⟩
abbrev S2 : Shape := ⟨1, ![2]⟩
abbrev S514x1024 : Shape := ⟨2, ![514, 1024]⟩
abbrev S1024 : Shape := ⟨1, ![1024]⟩
abbrev S1024x512 : Shape := ⟨2, ![1024, 512]⟩
abbrev S512x100 : Shape := ⟨2, ![512, 100]⟩
abbrev S100 : Shape := ⟨1, ![100]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S128x2 : S_.BroadcastsInDim S128x2 (![] : Fin 0 → Fin S128x2.rank)
  reducesTo_S128x2_S_d0_1 : S128x2.ReducesTo [0, 1] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S514x1024 : S_.BroadcastsInDim S514x1024 (![] : Fin 0 → Fin S514x1024.rank)
  reducesTo_S514x1024_S_d0_1 : S514x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_

variable [Facts]

def fn_part5 {F : FTy → Type} [FloatOps F] (main_v83 : IVec S_ 1) (main_v84 : FVec F S100 .f32) (main_cst_32 : FVec F S_ .f32) : IVec S_ 1 :=
  let main_v85 : FVec F S100 .f32 := broadcastInDim S100 ![] bcast_S_S100 main_cst_32
  let main_v86 : IVec S100 1 := cmpf .olt main_v84 main_v85
  let main_c_33 : IVec S_ 1 := constantI S_ 1 1#1
  let main_v87 : IVec S_ 1 := (fun x v => Host.reduce IntOp.andi x v reducesTo_S100_S_d0 h_S_) main_v86 main_c_33
  let main_v88 : IVec S_ 1 := andi main_v83 main_v87
  main_v88

def fn_part4 {F : FTy → Type} [FloatOps F] (main_arg17 : FVec F S512 .f32) (main_arg18 : FVec F S512 .f32) (main_arg19 : FVec F S512x100 .f32) (main_arg20 : FVec F S100 .f32) (main_v63 : IVec S_ 1) (main_v67 : IVec S_ 1) : IVec S_ 1 :=
  let main_v68 : IVec S_ 1 := andi main_v63 main_v67
  let main_v69 : FVec F S512 .f32 := Host.absf main_arg17
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg18
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x100 .f32 := Host.absf main_arg19
  let main_cst_30 : FVec F S_ .f32 := constant S_ .f32 0x7F800000#32
  let main_v80 : FVec F S512x100 .f32 := broadcastInDim S512x100 ![] bcast_S_S512x100 main_cst_30
  let main_v81 : IVec S512x100 1 := cmpf .olt main_v79 main_v80
  let main_c_31 : IVec S_ 1 := constantI S_ 1 1#1
  let main_v82 : IVec S_ 1 := (fun x v => Host.reduce IntOp.andi x v reducesTo_S512x100_S_d0_1 h_S_) main_v81 main_c_31
  let main_v83 : IVec S_ 1 := andi main_v78 main_v82
  let main_v84 : FVec F S100 .f32 := Host.absf main_arg20
  let main_cst_32 : FVec F S_ .f32 := constant S_ .f32 0x7F800000#32
  fn_part5 (F := F) main_v83 main_v84 main_cst_32

def fn_part3 {F : FTy → Type} [FloatOps F] (main_arg14 : FVec F S1024 .f32) (main_arg15 : FVec F S1024x512 .f32) (main_arg16 : FVec F S512 .f32) (main_arg17 : FVec F S512 .f32) (main_arg18 : FVec F S512 .f32) (main_arg19 : FVec F S512x100 .f32) (main_arg20 : FVec F S100 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg14
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x512 .f32 := Host.absf main_arg15
  let main_cst_22 : FVec F S_ .f32 := constant S_ .f32 0x7F800000#32
  let main_v60 : FVec F S1024x512 .f32 := broadcastInDim S1024x512 ![] bcast_S_S1024x512 main_cst_22
  let main_v61 : IVec S1024x512 1 := cmpf .olt main_v59 main_v60
  let main_c_23 : IVec S_ 1 := constantI S_ 1 1#1
  let main_v62 : IVec S_ 1 := (fun x v => Host.reduce IntOp.andi x v reducesTo_S1024x512_S_d0_1 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg17 main_arg18 main_arg19 main_arg20 main_v63 main_v67

def fn_part2 {F : FTy → Type} [FloatOps F] (main_arg10 : FVec F S2 .f32) (main_arg11 : FVec F S514x1024 .f32) (main_arg12 : FVec F S1024 .f32) (main_arg13 : FVec F S1024 .f32) (main_arg14 : FVec F S1024 .f32) (main_arg15 : FVec F S1024x512 .f32) (main_arg16 : FVec F S512 .f32) (main_arg17 : FVec F S512 .f32) (main_arg18 : FVec F S512 .f32) (main_arg19 : FVec F S512x100 .f32) (main_arg20 : FVec F S100 .f32) (main_v33 : IVec S_ 1) : IVec S_ 1 :=
  let main_v34 : FVec F S2 .f32 := Host.absf main_arg10
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S514x1024 .f32 := Host.absf main_arg11
  let main_cst_14 : FVec F S_ .f32 := constant S_ .f32 0x7F800000#32
  let main_v40 : FVec F S514x1024 .f32 := broadcastInDim S514x1024 ![] bcast_S_S514x1024 main_cst_14
  let main_v41 : IVec S514x1024 1 := cmpf .olt main_v39 main_v40
  let main_c_15 : IVec S_ 1 := constantI S_ 1 1#1
  let main_v42 : IVec S_ 1 := (fun x v => Host.reduce IntOp.andi x v reducesTo_S514x1024_S_d0_1 h_S_) main_v41 main_c_15
  let main_v43 : IVec S_ 1 := andi main_v38 main_v42
  let main_v44 : FVec F S1024 .f32 := Host.absf main_arg12
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg13
  let main_cst_18 : FVec F S_ .f32 := constant S_ .f32 0x7F800000#32
  let main_v50 : FVec F S1024 .f32 := broadcastInDim S1024 ![] bcast_S_S1024 main_cst_18
  fn_part3 (F := F) main_arg14 main_arg15 main_arg16 main_arg17 main_arg18 main_arg19 main_arg20 main_v48 main_v49 main_v50

def fn_part1 {F : FTy → Type} [FloatOps F] (main_arg7 : FVec F S128x512 .f32) (main_arg8 : FVec F S512 .f32) (main_arg9 : FVec F S2x2 .f32) (main_arg10 : FVec F S2 .f32) (main_arg11 : FVec F S514x1024 .f32) (main_arg12 : FVec F S1024 .f32) (main_arg13 : FVec F S1024 .f32) (main_arg14 : FVec F S1024 .f32) (main_arg15 : FVec F S1024x512 .f32) (main_arg16 : FVec F S512 .f32) (main_arg17 : FVec F S512 .f32) (main_arg18 : FVec F S512 .f32) (main_arg19 : FVec F S512x100 .f32) (main_arg20 : FVec F S100 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg7
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2x2 .f32 := Host.absf main_arg9
  let main_cst_10 : FVec F S_ .f32 := constant S_ .f32 0x7F800000#32
  let main_v30 : FVec F S2x2 .f32 := broadcastInDim S2x2 ![] bcast_S_S2x2 main_cst_10
  let main_v31 : IVec S2x2 1 := cmpf .olt main_v29 main_v30
  let main_c_11 : IVec S_ 1 := constantI S_ 1 1#1
  let main_v32 : IVec S_ 1 := (fun x v => Host.reduce IntOp.andi x v reducesTo_S2x2_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_v33

def fn {F : FTy → Type} [FloatOps F] (main_arg0 : FVec F S100000x6 .f32) (main_arg1 : FVec F S128x2 .f32) (main_arg2 : IVec S1600000 32) (main_arg3 : IVec S1600000 32) (main_arg4 : IVec S100000 32) (main_arg5 : FVec F S6x128 .f32) (main_arg6 : FVec F S128 .f32) (main_arg7 : FVec F S128x512 .f32) (main_arg8 : FVec F S512 .f32) (main_arg9 : FVec F S2x2 .f32) (main_arg10 : FVec F S2 .f32) (main_arg11 : FVec F S514x1024 .f32) (main_arg12 : FVec F S1024 .f32) (main_arg13 : FVec F S1024 .f32) (main_arg14 : FVec F S1024 .f32) (main_arg15 : FVec F S1024x512 .f32) (main_arg16 : FVec F S512 .f32) (main_arg17 : FVec F S512 .f32) (main_arg18 : FVec F S512 .f32) (main_arg19 : FVec F S512x100 .f32) (main_arg20 : FVec F S100 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S128x2 .f32 := Host.absf main_arg1
  let main_cst_0 : FVec F S_ .f32 := constant S_ .f32 0x7F800000#32
  let main_v5 : FVec F S128x2 .f32 := broadcastInDim S128x2 ![] bcast_S_S128x2 main_cst_0
  let main_v6 : IVec S128x2 1 := cmpf .olt main_v4 main_v5
  let main_c_1 : IVec S_ 1 := constantI S_ 1 1#1
  let main_v7 : IVec S_ 1 := (fun x v => Host.reduce IntOp.andi x v reducesTo_S128x2_S_d0_1 h_S_) main_v6 main_c_1
  let main_v8 : IVec S_ 1 := andi main_v3 main_v7
  let main_v9 : FVec F S6x128 .f32 := Host.absf main_arg5
  let main_cst_2 : FVec F S_ .f32 := constant S_ .f32 0x7F800000#32
  let main_v10 : FVec F S6x128 .f32 := broadcastInDim S6x128 ![] bcast_S_S6x128 main_cst_2
  let main_v11 : IVec S6x128 1 := cmpf .olt main_v9 main_v10
  let main_c_3 : IVec S_ 1 := constantI S_ 1 1#1
  let main_v12 : IVec S_ 1 := (fun x v => Host.reduce IntOp.andi x v reducesTo_S6x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_v13 main_v16
-- ==== Kernel.lean ====
abbrev S100000x6 : Shape := ⟨2, ![100000, 6]⟩
abbrev S128x2 : Shape := ⟨2, ![128, 2]⟩
abbrev S1600000 : Shape := ⟨1, ![1600000]⟩
abbrev S100000 : Shape := ⟨1, ![100000]⟩
abbrev S6x128 : Shape := ⟨2, ![6, 128]⟩
abbrev S128 : Shape := ⟨1, ![128]⟩
abbrev S128x512 : Shape := ⟨2, ![128, 512]⟩
abbrev S512 : Shape := ⟨1, ![512]⟩
abbrev S2x2 : Shape := ⟨2, ![2, 2]⟩
abbrev S2 : Shape := ⟨1, ![2]⟩
abbrev S514x1024 : Shape := ⟨2, ![514, 1024]⟩
abbrev S1024 : Shape := ⟨1, ![1024]⟩
abbrev S1024x512 : Shape := ⟨2, ![1024, 512]⟩
abbrev S512x100 : Shape := ⟨2, ![512, 100]⟩
abbrev S100 : Shape := ⟨1, ![100]⟩
abbrev S_ : Shape := ⟨0, ![]⟩
abbrev S1600000x1 : Shape := ⟨2, ![1600000, 1]⟩
abbrev S1600000x6 : Shape := ⟨2, ![1600000, 6]⟩
abbrev S1x128 : Shape := ⟨2, ![1, 128]⟩
abbrev S100000x128 : Shape := ⟨2, ![100000, 128]⟩
abbrev S2000x6 : Shape := ⟨2, ![2000, 6]⟩
abbrev S2000x128 : Shape := ⟨2, ![2000, 128]⟩
abbrev S1600000x128 : Shape := ⟨2, ![1600000, 128]⟩
abbrev S1x512 : Shape := ⟨2, ![1, 512]⟩
abbrev S100000x512 : Shape := ⟨2, ![100000, 512]⟩
abbrev S2000x512 : Shape := ⟨2, ![2000, 512]⟩
abbrev S100000x1 : Shape := ⟨2, ![100000, 1]⟩
abbrev S1x2 : Shape := ⟨2, ![1, 2]⟩
abbrev S1x1024 : Shape := ⟨2, ![1, 1024]⟩
abbrev S1x100 : Shape := ⟨2, ![1, 100]⟩
abbrev S128x100 : Shape := ⟨2, ![128, 100]⟩
abbrev S128x514 : Shape := ⟨2, ![128, 514]⟩
abbrev S128x1024 : Shape := ⟨2, ![128, 1024]⟩

abbrev nBuf : Space → Nat
  | .hbm => 64
  | .vmem => 31
  | .smem => 0
  | _ => 0

abbrev bufTy : (tb : Table) → Fin (tcTables nBuf tb) → BufTy
  | .hbm, ⟨0, _⟩ => ⟨S100000x6, .f32⟩
  | .hbm, ⟨1, _⟩ => ⟨S128x2, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S6x128, .f32⟩
  | .hbm, ⟨6, _⟩ => ⟨S128, .f32⟩
  | .hbm, ⟨7, _⟩ => ⟨S128x512, .f32⟩
  | .hbm, ⟨8, _⟩ => ⟨S512, .f32⟩
  | .hbm, ⟨9, _⟩ => ⟨S2x2, .f32⟩
  | .hbm, ⟨10, _⟩ => ⟨S2, .f32⟩
  | .hbm, ⟨11, _⟩ => ⟨S514x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x100, .f32⟩
  | .hbm, ⟨20, _⟩ => ⟨S100, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x6, .f32⟩
  | .hbm, ⟨30, _⟩ => ⟨S_, .f32⟩
  | .hbm, ⟨31, _⟩ => ⟨S100000x6, .f32⟩
  | .hbm, ⟨32, _⟩ => ⟨S1600000x1, .i32⟩
  | .hbm, ⟨33, _⟩ => ⟨S100000x6, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x512, .f32⟩
  | .hbm, ⟨50, _⟩ => ⟨S100000x512, .f32⟩
  | .hbm, ⟨51, _⟩ => ⟨S_, .f32⟩
  | .hbm, ⟨52, _⟩ => ⟨S128x512, .f32⟩
  | .hbm, ⟨53, _⟩ => ⟨S100000x1, .i32⟩
  | .hbm, ⟨54, _⟩ => ⟨S128x512, .f32⟩
  | .hbm, ⟨55, _⟩ => ⟨S1x2, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x100, .f32⟩
  | .hbm, ⟨63, _⟩ => ⟨S128x100, .f32⟩
  | .local _ .vmem, ⟨0, _⟩ => ⟨S2000x6, .f32⟩
  | .local _ .vmem, ⟨1, _⟩ => ⟨S2000x6, .f32⟩
  | .local _ .vmem, ⟨2, _⟩ => ⟨S2000x6, .f32⟩
  | .local _ .vmem, ⟨3, _⟩ => ⟨S2000x6, .f32⟩
  | .local _ .vmem, ⟨4, _⟩ => ⟨S6x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S128x512, .f32⟩
  | .local _ .vmem, ⟨17, _⟩ => ⟨S128x2, .f32⟩
  | .local _ .vmem, ⟨18, _⟩ => ⟨S2x2, .f32⟩
  | .local _ .vmem, ⟨19, _⟩ => ⟨S1x2, .f32⟩
  | .local _ .vmem, ⟨20, _⟩ => ⟨S514x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x100, .f32⟩
  | .local _ .vmem, ⟨29, _⟩ => ⟨S1x100, .f32⟩
  | .local _ .vmem, ⟨30, _⟩ => ⟨S128x100, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc2_stg12_0 : Ref sig .tc := ⟨.vmem, 28, rfl⟩
abbrev cc2_stg13_0 : Ref sig .tc := ⟨.vmem, 29, rfl⟩
abbrev cc2_stg14_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27
abbrev cc2_sem12_0 : DmaSem sig := 28
abbrev cc2_sem13_0 : DmaSem sig := 29
abbrev cc2_sem14_0 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S514x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1024x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S512x100 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x100 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x100 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  shapeCasts_S128_S1x128 : S128.ShapeCasts S1x128
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  bitsLt_bf16_f32 : FTy.bits .bf16 < FTy.bits .f32
  inb_S6x128_S6x128_0_0 : ∀ a, (![0, 0] : Fin 2 → Nat) a + S6x128.size a ≤ S6x128.size a
  h_S6x128 : 0 < S6x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S512_S1x512 : S512.ShapeCasts S1x512
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  bcast_S_S128x512 : S_.BroadcastsInDim S128x512 (![] : Fin 0 → Fin S128x512.rank)
  bcast_S100000_S100000x1_0 : S100000.BroadcastsInDim S100000x1 (![0] : Fin 1 → Fin S100000x1.rank)
  shapeCasts_S2_S1x2 : S2.ShapeCasts S1x2
  shapeCasts_S1024_S1x1024 : S1024.ShapeCasts S1x1024
  shapeCasts_S100_S1x100 : S100.ShapeCasts S1x100
  shapeCasts_S128x512_S128x512 : S128x512.ShapeCasts S128x512
  inb_S128x2_S128x2_0_0 : ∀ a, (![0, 0] : Fin 2 → Nat) a + S128x2.size a ≤ S128x2.size a
  h_S128x2 : 0 < S128x2.numel
  inb_S2x2_S2x2_0_0 : ∀ a, (![0, 0] : Fin 2 → Nat) a + S2x2.size a ≤ S2x2.size a
  h_S2x2 : 0 < S2x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  concatenates_S128x512_S128x2_S128x514_d1 : Shape.Concatenates [S128x512, S128x2] S128x514 1
  inb_S514x1024_S514x1024_0_0 : ∀ a, (![0, 0] : Fin 2 → Nat) a + S514x1024.size a ≤ S514x1024.size a
  h_S514x1024 : 0 < S514x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S1024 : S128x1024.Reduces [0] S1024
  inb_S1024x512_S1024x512_0_0 : ∀ a, (![0, 0] : Fin 2 → Nat) a + S1024x512.size a ≤ S1024x512.size a
  h_S1024x512 : 0 < S1024x512.numel
  broadcasts_S1x512_S128x512 : S1x512.Broadcasts S128x512
  reduces_S128x512_S512 : S128x512.Reduces [0] S512
  inb_S512x100_S512x100_0_0 : ∀ a, (![0, 0] : Fin 2 → Nat) a + S512x100.size a ≤ S512x100.size a
  h_S512x100 : 0 < S512x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S128x100 : S1x100.Broadcasts S128x100
  inb_S128x100_S128x100_0_0 : ∀ a, (![0, 0] : Fin 2 → Nat) a + S128x100.size a ≤ S128x100.size a
  h_S128x100 : 0 < S128x100.numel
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S2000x6_S6x128_S2000x128_1_0_0_1_n_n_wf : DotDims.WF S2000x6 S6x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  scatter_S128x512_S100000x1_S100000x512_1_0_0_1_wf : ScatterDims.WF S128x512 S100000x1 S100000x512 [1] [0] [0] 1
  dot_S128x2_S2x2_S128x2_1_0_0_1_n_n_wf : DotDims.WF S128x2 S2x2 S128x2 [1] [0] [0] [1] [] []
  dot_S128x514_S514x1024_S128x1024_1_0_0_1_n_n_wf : DotDims.WF S128x514 S514x1024 S128x1024 [1] [0] [0] [1] [] []
  dot_S128x1024_S1024x512_S128x512_1_0_0_1_n_n_wf : DotDims.WF S128x1024 S1024x512 S128x512 [1] [0] [0] [1] [] []
  dot_S128x512_S512x100_S128x100_1_0_0_1_n_n_wf : DotDims.WF S128x512 S512x100 S128x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S100000x6.size a
  hwx0_0 : ∀ i : grid0.Coords, EltTy.bits .f32 = 32 ∨ (Rect.block (s := S100000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S100000x6.size a
  hwx0_1 : ∀ i : grid0.Coords, EltTy.bits .f32 = 32 ∨ (Rect.block (s := S100000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x128.size a ≤ S6x128.size a
  hwx0_2 : ∀ i : grid0.Coords, EltTy.bits .f32 = 32 ∨ (Rect.block (s := S6x128) S6x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S100000x512.size a
  hwx1_4 : ∀ i : grid1.Coords, EltTy.bits .f32 = 32 ∨ (Rect.block (s := S100000x512) S2000x512.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x512.size a ≤ S128x512.size a
  hwx2_0 : ∀ i : grid2.Coords, EltTy.bits .f32 = 32 ∨ (Rect.block (s := S128x512) S128x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x2.size a ≤ S2x2.size a
  hwx2_2 : ∀ i : grid2.Coords, EltTy.bits .f32 = 32 ∨ (Rect.block (s := S2x2) S2x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S514x1024.size a ≤ S514x1024.size a
  hwx2_4 : ∀ i : grid2.Coords, EltTy.bits .f32 = 32 ∨ (Rect.block (s := S514x1024) S514x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1024.size a ≤ S1x1024.size a
  hwx2_7 : ∀ i : grid2.Coords, EltTy.bits .f32 = 32 ∨ (Rect.block (s := S1x1024) S1x1024.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1024x512.size a ≤ S1024x512.size a
  hwx2_8 : ∀ i : grid2.Coords, EltTy.bits .f32 = 32 ∨ (Rect.block (s := S1024x512) S1024x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x512.size a ≤ S1x512.size a
  hwx2_9 : ∀ i : grid2.Coords, EltTy.bits .f32 = 32 ∨ (Rect.block (s := S1x512) S1x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x512.size a ≤ S1x512.size a
  hwx2_10 : ∀ i : grid2.Coords, EltTy.bits .f32 = 32 ∨ (Rect.block (s := S1x512) S1x512.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x512.size a ≤ S1x512.size a
  hwx2_11 : ∀ i : grid2.Coords, EltTy.bits .f32 = 32 ∨ (Rect.block (s := S1x512) S1x512.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S512x100.size a ≤ S512x100.size a
  hwx2_12 : ∀ i : grid2.Coords, EltTy.bits .f32 = 32 ∨ (Rect.block (s := S512x100) S512x100.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x100.size a ≤ S1x100.size a
  hwx2_13 : ∀ i : grid2.Coords, EltTy.bits .f32 = 32 ∨ (Rect.block (s := S1x100) S1x100.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x100.size a ≤ S128x100.size a
  hwx2_14 : ∀ i : grid2.Coords, EltTy.bits .f32 = 32 ∨ (Rect.block (s := S128x100) S128x100.size (cc2_transform_14 i) (hinb2_14 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S2000x6_S6x128_S2000x128_1_0_0_1_n_n : DotDims S2000x6 S6x128 S2000x128 where
  lhsContracting := [1]
  rhsContracting := [0]
  lhsNonContracting := [0]
  rhsNonContracting := [1]
  lhsBatch := []
  rhsBatch := []
  wf := dot_S2000x6_S6x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def dot_S128x2_S2x2_S128x2_1_0_0_1_n_n : DotDims S128x2 S2x2 S128x2 where
  lhsContracting := [1]
  rhsContracting := [0]
  lhsNonContracting := [0]
  rhsNonContracting := [1]
  lhsBatch := []
  rhsBatch := []
  wf := dot_S128x2_S2x2_S128x2_1_0_0_1_n_n_wf
def dot_S128x514_S514x1024_S128x1024_1_0_0_1_n_n : DotDims S128x514 S514x1024 S128x1024 where
  lhsContracting := [1]
  rhsContracting := [0]
  lhsNonContracting := [0]
  rhsNonContracting := [1]
  lhsBatch := []
  rhsBatch := []
  wf := dot_S128x514_S514x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x100_S128x100_1_0_0_1_n_n : DotDims S128x512 S512x100 S128x100 where
  lhsContracting := [1]
  rhsContracting := [0]
  lhsNonContracting := [0]
  rhsNonContracting := [1]
  lhsBatch := []
  rhsBatch := []
  wf := dot_S128x512_S512x100_S128x100_1_0_0_1_n_n_wf

abbrev win0_0 : Pipeline.Window sig grid0 :=
  Pipeline.Window.ofSpec (Memref.whole main_arg0) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S128x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S2x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S514x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v30) S1x1024.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S1024x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v31) S1x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v32) S1x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v33) S1x512.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg19) S512x100.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v34) S1x100.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v35) S128x100.size cc2_transform_14 reads2_14 true true 1 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

class Facts : Prop extends Facts₀ where

variable [Facts]
-- ==== ReferenceIdeal.lean ====
abbrev S100000x6 : Shape := ⟨2, ![100000, 6]⟩
abbrev S128x2 : Shape := ⟨2, ![128, 2]⟩
abbrev S1600000 : Shape := ⟨1, ![1600000]⟩
abbrev S100000 : Shape := ⟨1, ![100000]⟩
abbrev S6x128 : Shape := ⟨2, ![6, 128]⟩
abbrev S128 : Shape := ⟨1, ![128]⟩
abbrev S128x512 : Shape := ⟨2, ![128, 512]⟩
abbrev S512 : Shape := ⟨1, ![512]⟩
abbrev S2x2 : Shape := ⟨2, ![2, 2]⟩
abbrev S2 : Shape := ⟨1, ![2]⟩
abbrev S514x1024 : Shape := ⟨2, ![514, 1024]⟩
abbrev S1024 : Shape := ⟨1, ![1024]⟩
abbrev S1024x512 : Shape := ⟨2, ![1024, 512]⟩
abbrev S512x100 : Shape := ⟨2, ![512, 100]⟩
abbrev S100 : Shape := ⟨1, ![100]⟩
abbrev S_ : Shape := ⟨0, ![]⟩
abbrev S1600000x1 : Shape := ⟨2, ![1600000, 1]⟩
abbrev S1600000x6 : Shape := ⟨2, ![1600000, 6]⟩
abbrev S100000x128 : Shape := ⟨2, ![100000, 128]⟩
abbrev S1x128 : Shape := ⟨2, ![1, 128]⟩
abbrev S1600000x128 : Shape := ⟨2, ![1600000, 128]⟩
abbrev S100000x512 : Shape := ⟨2, ![100000, 512]⟩
abbrev S1x512 : Shape := ⟨2, ![1, 512]⟩
abbrev S100000x1 : Shape := ⟨2, ![100000, 1]⟩
abbrev S1x2 : Shape := ⟨2, ![1, 2]⟩
abbrev S128x514 : Shape := ⟨2, ![128, 514]⟩
abbrev S128x1024 : Shape := ⟨2, ![128, 1024]⟩
abbrev S1x1024 : Shape := ⟨2, ![1, 1024]⟩
abbrev S128x100 : Shape := ⟨2, ![128, 100]⟩
abbrev S1x100 : Shape := ⟨2, ![1, 100]⟩

abbrev nBuf : Space → Nat
  | .hbm => 178
  | .vmem => 0
  | .smem => 0
  | _ => 0

abbrev hbmTy0_0 (i : Nat) : BufTy := match i % 128 with
  | 0 => ⟨S100000x6, .f32⟩
  | 1 => ⟨S128x2, .f32⟩
  | 2 => ⟨S1600000, .i32⟩
  | 3 => ⟨S1600000, .i32⟩
  | 4 => ⟨S100000, .i32⟩
  | 5 => ⟨S6x128, .f32⟩
  | 6 => ⟨S128, .f32⟩
  | 7 => ⟨S128x512, .f32⟩
  | 8 => ⟨S512, .f32⟩
  | 9 => ⟨S2x2, .f32⟩
  | 10 => ⟨S2, .f32⟩
  | 11 => ⟨S514x1024, .f32⟩
  | 12 => ⟨S1024, .f32⟩
  | 13 => ⟨S1024, .f32⟩
  | 14 => ⟨S1024, .f32⟩
  | 15 => ⟨S1024x512, .f32⟩
  | 16 => ⟨S512, .f32⟩
  | 17 => ⟨S512, .f32⟩
  | 18 => ⟨S512, .f32⟩
  | 19 => ⟨S512x100, .f32⟩
  | 20 => ⟨S100, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x6, .f32⟩
  | 30 => ⟨S_, .f32⟩
  | 31 => ⟨S100000x6, .f32⟩
  | 32 => ⟨S1600000x1, .i32⟩
  | 33 => ⟨S100000x6, .f32⟩
  | 34 => ⟨S100000x6, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S100000x128, .f32⟩
  | 53 => ⟨S1600000x1, .i32⟩
  | 54 => ⟨S100000x128, .f32⟩
  | 55 => ⟨S100000x128, .f32⟩
  | 56 => ⟨S100000x512, .f32⟩
  | 57 => ⟨S1x512, .f32⟩
  | 58 => ⟨S100000x512, .f32⟩
  | 59 => ⟨S100000x512, .f32⟩
  | 60 => ⟨S_, .f32⟩
  | 61 => ⟨S100000x512, .f32⟩
  | 62 => ⟨S100000x512, .f32⟩
  | 63 => ⟨S_, .f32⟩
  | 64 => ⟨S128x512, .f32⟩
  | 65 => ⟨S100000x1, .i32⟩
  | 66 => ⟨S128x512, .f32⟩
  | 67 => ⟨S128x2, .f32⟩
  | 68 => ⟨S1x2, .f32⟩
  | 69 => ⟨S128x2, .f32⟩
  | 70 => ⟨S128x2, .f32⟩
  | 71 => ⟨S128x514, .f32⟩
  | 72 => ⟨S128x1024, .f32⟩
  | 73 => ⟨S1x1024, .f32⟩
  | 74 => ⟨S128x1024, .f32⟩
  | 75 => ⟨S128x1024, .f32⟩
  | 76 => ⟨S_, .f32⟩
  | 77 => ⟨S1024, .f32⟩
  | 78 => ⟨S_, .f32⟩
  | 79 => ⟨S1024, .f32⟩
  | 80 => ⟨S1024, .f32⟩
  | 81 => ⟨S_, .i32⟩
  | 82 => ⟨S_, .f32⟩
  | 83 => ⟨S1024, .f32⟩
  | 84 => ⟨S1x1024, .f32⟩
  | 85 => ⟨S_, .f32⟩
  | 86 => ⟨S1x1024, .f32⟩
  | 87 => ⟨S1x1024, .f32⟩
  | 88 => ⟨S128x1024, .f32⟩
  | 89 => ⟨S128x1024, .f32⟩
  | 90 => ⟨S128x1024, .f32⟩
  | 91 => ⟨S_, .f32⟩
  | 92 => ⟨S_, .f32⟩
  | 93 => ⟨S_, .f32⟩
  | 94 => ⟨S_, .f32⟩
  | 95 => ⟨S1024, .f32⟩
  | 96 => ⟨S1024, .f32⟩
  | 97 => ⟨S1024, .f32⟩
  | 98 => ⟨S_, .f32⟩
  | 99 => ⟨S_, .i1⟩
  | 100 => ⟨S_, .f32⟩
  | 101 => ⟨S_, .f32⟩
  | 102 => ⟨S1024, .f32⟩
  | 103 => ⟨S1024, .f32⟩
  | 104 => ⟨S1x1024, .f32⟩
  | 105 => ⟨S128x1024, .f32⟩
  | 106 => ⟨S128x1024, .f32⟩
  | 107 => ⟨S1x1024, .f32⟩
  | 108 => ⟨S128x1024, .f32⟩
  | 109 => ⟨S128x1024, .f32⟩
  | 110 => ⟨S_, .f32⟩
  | 111 => ⟨S1024, .f32⟩
  | 112 => ⟨S1024, .f32⟩
  | 113 => ⟨S1024, .f32⟩
  | 114 => ⟨S1x1024, .f32⟩
  | 115 => ⟨S128x1024, .f32⟩
  | 116 => ⟨S128x1024, .f32⟩
  | 117 => ⟨S1x1024, .f32⟩
  | 118 => ⟨S128x1024, .f32⟩
  | 119 => ⟨S128x1024, .f32⟩
  | 120 => ⟨S_, .f32⟩
  | 121 => ⟨S128x1024, .f32⟩
  | 122 => ⟨S128x1024, .f32⟩
  | 123 => ⟨S128x512, .f32⟩
  | 124 => ⟨S1x512, .f32⟩
  | 125 => ⟨S128x512, .f32⟩
  | 126 => ⟨S128x512, .f32⟩
  | 127 => ⟨S_, .f32⟩
  | _ => ⟨S100000x6, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S_, .i32⟩
  | 5 => ⟨S_, .f32⟩
  | 6 => ⟨S512, .f32⟩
  | 7 => ⟨S1x512, .f32⟩
  | 8 => ⟨S_, .f32⟩
  | 9 => ⟨S1x512, .f32⟩
  | 10 => ⟨S1x512, .f32⟩
  | 11 => ⟨S128x512, .f32⟩
  | 12 => ⟨S128x512, .f32⟩
  | 13 => ⟨S128x512, .f32⟩
  | 14 => ⟨S_, .f32⟩
  | 15 => ⟨S_, .f32⟩
  | 16 => ⟨S_, .f32⟩
  | 17 => ⟨S_, .f32⟩
  | 18 => ⟨S512, .f32⟩
  | 19 => ⟨S512, .f32⟩
  | 20 => ⟨S512, .f32⟩
  | 21 => ⟨S_, .f32⟩
  | 22 => ⟨S_, .i1⟩
  | 23 => ⟨S_, .f32⟩
  | 24 => ⟨S_, .f32⟩
  | 25 => ⟨S512, .f32⟩
  | 26 => ⟨S512, .f32⟩
  | 27 => ⟨S1x512, .f32⟩
  | 28 => ⟨S128x512, .f32⟩
  | 29 => ⟨S128x512, .f32⟩
  | 30 => ⟨S1x512, .f32⟩
  | 31 => ⟨S128x512, .f32⟩
  | 32 => ⟨S128x512, .f32⟩
  | 33 => ⟨S_, .f32⟩
  | 34 => ⟨S512, .f32⟩
  | 35 => ⟨S512, .f32⟩
  | 36 => ⟨S512, .f32⟩
  | 37 => ⟨S1x512, .f32⟩
  | 38 => ⟨S128x512, .f32⟩
  | 39 => ⟨S128x512, .f32⟩
  | 40 => ⟨S1x512, .f32⟩
  | 41 => ⟨S128x512, .f32⟩
  | 42 => ⟨S128x512, .f32⟩
  | 43 => ⟨S_, .f32⟩
  | 44 => ⟨S128x512, .f32⟩
  | 45 => ⟨S128x512, .f32⟩
  | 46 => ⟨S128x100, .f32⟩
  | 47 => ⟨S1x100, .f32⟩
  | 48 => ⟨S128x100, .f32⟩
  | 49 => ⟨S128x100, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call0_cst : Ref sig .tc := ⟨.hbm, 39, rfl⟩
abbrev main_call0_v0 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_call1_cst : Ref sig .tc := ⟨.hbm, 60, rfl⟩
abbrev main_call1_v0 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_5 : Ref sig .tc := ⟨.hbm, 76, rfl⟩
abbrev main_v44 : Ref sig .tc := ⟨.hbm, 77, rfl⟩
abbrev main_cst_6 : Ref sig .tc := ⟨.hbm, 78, rfl⟩
abbrev main_v45 : Ref sig .tc := ⟨.hbm, 79, rfl⟩
abbrev main_v46 : Ref sig .tc := ⟨.hbm, 80, rfl⟩
abbrev main_c_7 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_cst_0 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_cst_1 : Ref sig .tc := ⟨.hbm, 92, rfl⟩
abbrev main_call2_v8 : Ref sig .tc := ⟨.hbm, 93, rfl⟩
abbrev main_call2_cst_2 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_call2_cst_3 : Ref sig .tc := ⟨.hbm, 98, rfl⟩
abbrev main_call2_v12 : Ref sig .tc := ⟨.hbm, 99, rfl⟩
abbrev main_call2_cst_4 : Ref sig .tc := ⟨.hbm, 100, rfl⟩
abbrev main_call2_call0_v0 : Ref sig .tc := ⟨.hbm, 101, rfl⟩
abbrev main_call2_call0_v1 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_8 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_call3_cst : Ref sig .tc := ⟨.hbm, 120, rfl⟩
abbrev main_call3_v0 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_cst_9 : Ref sig .tc := ⟨.hbm, 127, rfl⟩
abbrev main_v68 : Ref sig .tc := ⟨.hbm, 128, rfl⟩
abbrev main_cst_10 : Ref sig .tc := ⟨.hbm, 129, rfl⟩
abbrev main_v69 : Ref sig .tc := ⟨.hbm, 130, rfl⟩
abbrev main_v70 : Ref sig .tc := ⟨.hbm, 131, rfl⟩
abbrev main_c_11 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_cst_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_v6 : Ref sig .tc := ⟨.hbm, 141, rfl⟩
abbrev main_call4_v7 : Ref sig .tc := ⟨.hbm, 142, rfl⟩
abbrev main_call4_cst_1 : Ref sig .tc := ⟨.hbm, 143, rfl⟩
abbrev main_call4_v8 : Ref sig .tc := ⟨.hbm, 144, rfl⟩
abbrev main_call4_cst_2 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_cst_3 : Ref sig .tc := ⟨.hbm, 149, rfl⟩
abbrev main_call4_v12 : Ref sig .tc := ⟨.hbm, 150, rfl⟩
abbrev main_call4_cst_4 : Ref sig .tc := ⟨.hbm, 151, rfl⟩
abbrev main_call4_call0_v0 : Ref sig .tc := ⟨.hbm, 152, rfl⟩
abbrev main_call4_call0_v1 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_12 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_call5_cst : Ref sig .tc := ⟨.hbm, 171, rfl⟩
abbrev main_call5_v0 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S128x512 : S_.BroadcastsInDim S128x512 (![] : Fin 0 → Fin S128x512.rank)
  bcast_S100000_S100000x1_0 : S100000.BroadcastsInDim S100000x1 (![0] : Fin 1 → Fin S100000x1.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  concatenates_S128x512_S128x2_S128x514_d1 : Shape.Concatenates [S128x512, S128x2] S128x514 1
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  reducesTo_S128x1024_S1024_d0 : S128x1024.ReducesTo [0] S1024
  h_S_ : 0 < S_.numel
  bcast_S_S1024 : S_.BroadcastsInDim S1024 (![] : Fin 0 → Fin S1024.rank)
  bcast_S_S1x1024 : S_.BroadcastsInDim S1x1024 (![] : Fin 0 → Fin S1x1024.rank)
  bcast_S_S128x1024 : S_.BroadcastsInDim S128x1024 (![] : Fin 0 → Fin S128x1024.rank)
  bcast_S1x512_S128x512_0_1 : S1x512.BroadcastsInDim S128x512 (![0, 1] : Fin 2 → Fin S128x512.rank)
  reducesTo_S128x512_S512_d0 : S128x512.ReducesTo [0] S512
  bcast_S_S512 : S_.BroadcastsInDim S512 (![] : Fin 0 → Fin S512.rank)
  bcast_S_S1x512 : S_.BroadcastsInDim S1x512 (![] : Fin 0 → Fin S1x512.rank)
  bcast_S100_S1x100_1 : S100.BroadcastsInDim S1x100 (![1] : Fin 1 → Fin S1x100.rank)
  bcast_S1x100_S128x100_0_1 : S1x100.BroadcastsInDim S128x100 (![0, 1] : Fin 2 → Fin S128x100.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x128_S100000x128_1_0_0_1_n_n_wf : DotDims.WF S100000x6 S6x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []
  scatter_S128x512_S100000x1_S100000x512_1_0_0_1_wf : ScatterDims.WF S128x512 S100000x1 S100000x512 [1] [0] [0] 1
  dot_S128x2_S2x2_S128x2_1_0_0_1_n_n_wf : DotDims.WF S128x2 S2x2 S128x2 [1] [0] [0] [1] [] []
  dot_S128x514_S514x1024_S128x1024_1_0_0_1_n_n_wf : DotDims.WF S128x514 S514x1024 S128x1024 [1] [0] [0] [1] [] []
  dot_S128x1024_S1024x512_S128x512_1_0_0_1_n_n_wf : DotDims.WF S128x1024 S1024x512 S128x512 [1] [0] [0] [1] [] []
  dot_S128x512_S512x100_S128x100_1_0_0_1_n_n_wf : DotDims.WF S128x512 S512x100 S128x100 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x128_S100000x128_1_0_0_1_n_n : DotDims S100000x6 S6x128 S100000x128 where
  lhsContracting := [1]
  rhsContracting := [0]
  lhsNonContracting := [0]
  rhsNonContracting := [1]
  lhsBatch := []
  rhsBatch := []
  wf := dot_S100000x6_S6x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def dot_S128x2_S2x2_S128x2_1_0_0_1_n_n : DotDims S128x2 S2x2 S128x2 where
  lhsContracting := [1]
  rhsContracting := [0]
  lhsNonContracting := [0]
  rhsNonContracting := [1]
  lhsBatch := []
  rhsBatch := []
  wf := dot_S128x2_S2x2_S128x2_1_0_0_1_n_n_wf
def dot_S128x514_S514x1024_S128x1024_1_0_0_1_n_n : DotDims S128x514 S514x1024 S128x1024 where
  lhsContracting := [1]
  rhsContracting := [0]
  lhsNonContracting := [0]
  rhsNonContracting := [1]
  lhsBatch := []
  rhsBatch := []
  wf := dot_S128x514_S514x1024_S128x1024_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x100_S128x100_1_0_0_1_n_n : DotDims S128x512 S512x100 S128x100 where
  lhsContracting := [1]
  rhsContracting := [0]
  lhsNonContracting := [0]
  rhsNonContracting := [1]
  lhsBatch := []
  rhsBatch := []
  wf := dot_S128x512_S512x100_S128x100_1_0_0_1_n_n_wf

class Facts : Prop extends Facts₀ where

variable [Facts]
-- ==== Proof.Spec.lean ====
/-
  The reference computation as a composition of named stages, each the reference's own host operations applied
  to whole arrays: two graph-convolution layers (neighbour sums by a gather along the edge sources followed by a
  scatter-add along the edge targets; then relu ((h + neigh) · W + b)), a segment sum of node rows into their graphs,
  the prompt's affine map, the concatenation, and three affine maps with batch normalisation over the 128 graphs
  (mean and variance over axis 0, the variance divided by 128 - 0 under jnp.var's guard) and relu between them.
  Every stage is stated once, over literal shapes; `out` is their composition, the term the reference's run ends at.
-/
import proofs.«403661_j28097676051004_1_alg».proof.Proof.Gen.ReferenceIdeal

noncomputable section

namespace Cert.ReferenceIdeal.Spec

open Idealize.ShloMosaic Cert.ReferenceIdeal Cert.ReferenceIdeal.Facts₀

variable {F : FTy → Type} [FloatOps F]

/-- A float array's and an integer array's contents at a literal shape. -/
abbrev FC (F : FTy → Type) (s : Shape) : Type := (⟨s, .f32⟩ : BufTy).Contents (Elt F)
abbrev IC (F : FTy → Type) (s : Shape) : Type := (⟨s, .i32⟩ : BufTy).Contents (Elt F)

/-- The edge sources as a column of start indices: a negative index has the node count added (numpy's wrap). -/
def wrapIdx (src : IC F S1600000) : IC F S1600000x1 :=
  (broadcastInDim S1600000x1 ![0] bcast_S1600000_S1600000x1_0 : (⟨S1600000, .i32⟩ : BufTy).Contents (Elt F) → (⟨S1600000x1, .i32⟩ : BufTy).Contents (Elt F))
    ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
      ((cmpi .slt : (⟨S1600000, .i32⟩ : BufTy).Contents (Elt F) → (⟨S1600000, .i32⟩ : BufTy).Contents (Elt F) → (⟨S1600000, .i1⟩ : BufTy).Contents (Elt F)) src
        ((broadcastInDim S1600000 ![] bcast_S_S1600000 : (⟨S_, .i32⟩ : BufTy).Contents (Elt F) → (⟨S1600000, .i32⟩ : BufTy).Contents (Elt F)) (constantI S_ 32 0#32)))
      ((addi : (⟨S1600000, .i32⟩ : BufTy).Contents (Elt F) → (⟨S1600000, .i32⟩ : BufTy).Contents (Elt F) → (⟨S1600000, .i32⟩ : BufTy).Contents (Elt F)) src
        ((broadcastInDim S1600000 ![] bcast_S_S1600000 : (⟨S_, .i32⟩ : BufTy).Contents (Elt F) → (⟨S1600000, .i32⟩ : BufTy).Contents (Elt F)) (constantI S_ 32 100000#32)))
      src)

/-- The edge targets as a column of scatter indices. -/
def dstCol (dst : IC F S1600000) : IC F S1600000x1 :=
  (broadcastInDim S1600000x1 ![0] bcast_S1600000_S1600000x1_0 : (⟨S1600000, .i32⟩ : BufTy).Contents (Elt F) → (⟨S1600000x1, .i32⟩ : BufTy).Contents (Elt F)) dst

/-- Layer 1's neighbour sums: row `dst e` accumulates row `src e` of `x`, over all edges `e`, from zero. -/
def agg6 (x : FC F S100000x6) (src dst : IC F S1600000) : FC F S100000x6 :=
  Host.scatterAdd scatter_S100000x6_S1600000x1_S1600000x6_1_0_0_1
    ((broadcastInDim S100000x6 ![] bcast_S_S100000x6 : (⟨S_, .f32⟩ : BufTy).Contents (Elt F) → (⟨S100000x6, .f32⟩ : BufTy).Contents (Elt F)) (constant S_ .f32 0x00000000#32))
    (dstCol dst)
    (Host.gather gather_S100000x6_S1600000x1_S1600000x6_1_0_n_n_0_1_16 x (wrapIdx src))

/-- Layer 1's update: relu ((x + n) · W + b), b along the columns. -/
def lay1 (x n : FC F S100000x6) (W : FC F S6x128) (b : FC F S128) : FC F S100000x128 :=
  maximumf
    (addf (Host.dotGeneral dot_S100000x6_S6x128_S100000x128_1_0_0_1_n_n none (addf x n) W)
      ((broadcastInDim S100000x128 ![0, 1] bcast_S1x128_S100000x128_0_1 : (⟨S1x128, .f32⟩ : BufTy).Contents (Elt F) → (⟨S100000x128, .f32⟩ : BufTy).Contents (Elt F))
        ((broadcastInDim S1x128 ![1] bcast_S128_S1x128_1 : (⟨S128, .f32⟩ : BufTy).Contents (Elt F) → (⟨S1x128, .f32⟩ : BufTy).Contents (Elt F)) b)))
    (broadcastInDim S100000x128 ![] bcast_S_S100000x128 (constant S_ .f32 0x00000000#32))

/-- Layer 2's neighbour sums, over 128 columns. -/
def agg128 (h : FC F S100000x128) (src dst : IC F S1600000) : FC F S100000x128 :=
  Host.scatterAdd scatter_S100000x128_S1600000x1_S1600000x128_1_0_0_1
    ((broadcastInDim S100000x128 ![] bcast_S_S100000x128 : (⟨S_, .f32⟩ : BufTy).Contents (Elt F) → (⟨S100000x128, .f32⟩ : BufTy).Contents (Elt F)) (constant S_ .f32 0x00000000#32))
    (dstCol dst)
    (Host.gather gather_S100000x128_S1600000x1_S1600000x128_1_0_n_n_0_1_1128 h (wrapIdx src))

/-- Layer 2's update. -/
def lay2 (h n : FC F S100000x128) (W : FC F S128x512) (b : FC F S512) : FC F S100000x512 :=
  maximumf
    (addf (Host.dotGeneral dot_S100000x128_S128x512_S100000x512_1_0_0_1_n_n none (addf h n) W)
      ((broadcastInDim S100000x512 ![0, 1] bcast_S1x512_S100000x512_0_1 : (⟨S1x512, .f32⟩ : BufTy).Contents (Elt F) → (⟨S100000x512, .f32⟩ : BufTy).Contents (Elt F))
        ((broadcastInDim S1x512 ![1] bcast_S512_S1x512_1 : (⟨S512, .f32⟩ : BufTy).Contents (Elt F) → (⟨S1x512, .f32⟩ : BufTy).Contents (Elt F)) b)))
    (broadcastInDim S100000x512 ![] bcast_S_S100000x512 (constant S_ .f32 0x00000000#32))

/-- Node rows summed into their graphs' rows. -/
def pool (h : FC F S100000x512) (gid : IC F S100000) : FC F S128x512 :=
  Host.scatterAdd scatter_S128x512_S100000x1_S100000x512_1_0_0_1
    ((broadcastInDim S128x512 ![] bcast_S_S128x512 : (⟨S_, .f32⟩ : BufTy).Contents (Elt F) → (⟨S128x512, .f32⟩ : BufTy).Contents (Elt F)) (constant S_ .f32 0x00000000#32))
    ((broadcastInDim S100000x1 ![0] bcast_S100000_S100000x1_0 : (⟨S100000, .i32⟩ : BufTy).Contents (Elt F) → (⟨S100000x1, .i32⟩ : BufTy).Contents (Elt F)) gid)
    h

/-- The prompt's affine map. -/
def proj (p : FC F S128x2) (Wp : FC F S2x2) (bp : FC F S2) : FC F S128x2 :=
  addf (Host.dotGeneral dot_S128x2_S2x2_S128x2_1_0_0_1_n_n none p Wp)
    ((broadcastInDim S128x2 ![0, 1] bcast_S1x2_S128x2_0_1 : (⟨S1x2, .f32⟩ : BufTy).Contents (Elt F) → (⟨S128x2, .f32⟩ : BufTy).Contents (Elt F))
      ((broadcastInDim S1x2 ![1] bcast_S2_S1x2_1 : (⟨S2, .f32⟩ : BufTy).Contents (Elt F) → (⟨S1x2, .f32⟩ : BufTy).Contents (Elt F)) bp))

/-- Pooled features and projected prompt side by side. -/
def cat (a : FC F S128x512) (b : FC F S128x2) : FC F S128x514 :=
  concatenate S128x514 1 [⟨S128x512, a⟩, ⟨S128x2, b⟩] concatenates_S128x512_S128x2_S128x514_d1

/-- The first affine map of the pooled block. -/
def lin0 (x : FC F S128x514) (W : FC F S514x1024) (b : FC F S1024) : FC F S128x1024 :=
  addf (Host.dotGeneral dot_S128x514_S514x1024_S128x1024_1_0_0_1_n_n none x W)
    ((broadcastInDim S128x1024 ![0, 1] bcast_S1x1024_S128x1024_0_1 : (⟨S1x1024, .f32⟩ : BufTy).Contents (Elt F) → (⟨S128x1024, .f32⟩ : BufTy).Contents (Elt F))
      ((broadcastInDim S1x1024 ![1] bcast_S1024_S1x1024_1 : (⟨S1024, .f32⟩ : BufTy).Contents (Elt F) → (⟨S1x1024, .f32⟩ : BufTy).Contents (Elt F)) b))

/-- Column means over the 128 rows. -/
def mean0 (z : FC F S128x1024) : FC F S1024 :=
  Host.divf (Host.reduceAdd z (constant S_ .f32 0x00000000#32) reducesTo_S128x1024_S1024_d0 h_S_)
    ((broadcastInDim S1024 ![] bcast_S_S1024 : (⟨S_, .f32⟩ : BufTy).Contents (Elt F) → (⟨S1024, .f32⟩ : BufTy).Contents (Elt F)) (constant S_ .f32 0x43000000#32))

/-- The divisor jnp.var computes: 128 minus the correction 0, converted from the integer. -/
def varDen : FC F S_ :=
  subf (constant S_ .f32 0x43000000#32 : (⟨S_, .f32⟩ : BufTy).Contents (Elt F)) (sitofp .f32 (constantI S_ 32 0#32 : (⟨S_, .i32⟩ : BufTy).Contents (Elt F)))

/-- Column variances as jnp.var spells them: the squared deviations from the keepdims mean, summed, divided by
    `varDen`, under the guard "the divisor is positive, else NaN". -/
def var0 (z : FC F S128x1024) : FC F S1024 :=
  select
    (broadcastInDim S1024 ![] bcast_S_S1024
      (cmpf .ogt (varDen (F := F)) (constant S_ .f32 0x00000000#32 : (⟨S_, .f32⟩ : BufTy).Contents (Elt F))))
    (Host.divf
      (Host.reduceAdd
        (mulf
          (subf z (broadcastInDim S128x1024 ![0, 1] bcast_S1x1024_S128x1024_0_1
            (Host.divf (broadcastInDim S1x1024 ![1] bcast_S1024_S1x1024_1
                (Host.reduceAdd z (constant S_ .f32 0x00000000#32) reducesTo_S128x1024_S1024_d0 h_S_))
              (broadcastInDim S1x1024 ![] bcast_S_S1x1024 (constant S_ .f32 0x43000000#32)))))
          (subf z (broadcastInDim S128x1024 ![0, 1] bcast_S1x1024_S128x1024_0_1
            (Host.divf (broadcastInDim S1x1024 ![1] bcast_S1024_S1x1024_1
                (Host.reduceAdd z (constant S_ .f32 0x00000000#32) reducesTo_S128x1024_S1024_d0 h_S_))
              (broadcastInDim S1x1024 ![] bcast_S_S1x1024 (constant S_ .f32 0x43000000#32))))))
        (constant S_ .f32 0x00000000#32) reducesTo_S128x1024_S1024_d0 h_S_)
      (broadcastInDim S1024 ![] bcast_S_S1024 (varDen (F := F))))
    (broadcastInDim S1024 ![] bcast_S_S1024 (id (constant S_ .f32 0x7FC00000#32 : (⟨S_, .f32⟩ : BufTy).Contents (Elt F))))

/-- Batch normalisation and relu over 1024 columns: relu (g · (z - mean) · rsqrt (var + eps) + be). -/
def bnrelu0 (z : FC F S128x1024) (g be : FC F S1024) : FC F S128x1024 :=
  maximumf
    (addf
      (mulf
        (mulf
          ((broadcastInDim S128x1024 ![0, 1] bcast_S1x1024_S128x1024_0_1 : (⟨S1x1024, .f32⟩ : BufTy).Contents (Elt F) → (⟨S128x1024, .f32⟩ : BufTy).Contents (Elt F))
            ((broadcastInDim S1x1024 ![1] bcast_S1024_S1x1024_1 : (⟨S1024, .f32⟩ : BufTy).Contents (Elt F) → (⟨S1x1024, .f32⟩ : BufTy).Contents (Elt F)) g))
          (subf z
            ((broadcastInDim S128x1024 ![0, 1] bcast_S1x1024_S128x1024_0_1 : (⟨S1x1024, .f32⟩ : BufTy).Contents (Elt F) → (⟨S128x1024, .f32⟩ : BufTy).Contents (Elt F))
              ((broadcastInDim S1x1024 ![1] bcast_S1024_S1x1024_1 : (⟨S1024, .f32⟩ : BufTy).Contents (Elt F) → (⟨S1x1024, .f32⟩ : BufTy).Contents (Elt F)) (mean0 z)))))
        ((broadcastInDim S128x1024 ![0, 1] bcast_S1x1024_S128x1024_0_1 : (⟨S1x1024, .f32⟩ : BufTy).Contents (Elt F) → (⟨S128x1024, .f32⟩ : BufTy).Contents (Elt F))
          ((broadcastInDim S1x1024 ![1] bcast_S1024_S1x1024_1 : (⟨S1024, .f32⟩ : BufTy).Contents (Elt F) → (⟨S1x1024, .f32⟩ : BufTy).Contents (Elt F))
            (Host.rsqrt (addf (var0 z)
              ((broadcastInDim S1024 ![] bcast_S_S1024 : (⟨S_, .f32⟩ : BufTy).Contents (Elt F) → (⟨S1024, .f32⟩ : BufTy).Contents (Elt F)) (constant S_ .f32 0x3727C5AC#32)))))))
      ((broadcastInDim S128x1024 ![0, 1] bcast_S1x1024_S128x1024_0_1 : (⟨S1x1024, .f32⟩ : BufTy).Contents (Elt F) → (⟨S128x1024, .f32⟩ : BufTy).Contents (Elt F))
        ((broadcastInDim S1x1024 ![1] bcast_S1024_S1x1024_1 : (⟨S1024, .f32⟩ : BufTy).Contents (Elt F) → (⟨S1x1024, .f32⟩ : BufTy).Contents (Elt F)) be)))
    (broadcastInDim S128x1024 ![] bcast_S_S128x1024 (constant S_ .f32 0x00000000#32))

/-- The second affine map. -/
def lin1 (x : FC F S128x1024) (W : FC F S1024x512) (b : FC F S512) : FC F S128x512 :=
  addf (Host.dotGeneral dot_S128x1024_S1024x512_S128x512_1_0_0_1_n_n none x W)
    ((broadcastInDim S128x512 ![0, 1] bcast_S1x512_S128x512_0_1 : (⟨S1x512, .f32⟩ : BufTy).Contents (Elt F) → (⟨S128x512, .f32⟩ : BufTy).Contents (Elt F))
      ((broadcastInDim S1x512 ![1] bcast_S512_S1x512_1 : (⟨S512, .f32⟩ : BufTy).Contents (Elt F) → (⟨S1x512, .f32⟩ : BufTy).Contents (Elt F)) b))

def mean1 (z : FC F S128x512) : FC F S512 :=
  Host.divf (Host.reduceAdd z (constant S_ .f32 0x00000000#32) reducesTo_S128x512_S512_d0 h_S_)
    ((broadcastInDim S512 ![] bcast_S_S512 : (⟨S_, .f32⟩ : BufTy).Contents (Elt F) → (⟨S512, .f32⟩ : BufTy).Contents (Elt F)) (constant S_ .f32 0x43000000#32))

def var1 (z : FC F S128x512) : FC F S512 :=
  select
    (broadcastInDim S512 ![] bcast_S_S512
      (cmpf .ogt (varDen (F := F)) (constant S_ .f32 0x00000000#32 : (⟨S_, .f32⟩ : BufTy).Contents (Elt F))))
    (Host.divf
      (Host.reduceAdd
        (mulf
          (subf z (broadcastInDim S128x512 ![0, 1] bcast_S1x512_S128x512_0_1
            (Host.divf (broadcastInDim S1x512 ![1] bcast_S512_S1x512_1
                (Host.reduceAdd z (constant S_ .f32 0x00000000#32) reducesTo_S128x512_S512_d0 h_S_))
              (broadcastInDim S1x512 ![] bcast_S_S1x512 (constant S_ .f32 0x43000000#32)))))
          (subf z (broadcastInDim S128x512 ![0, 1] bcast_S1x512_S128x512_0_1
            (Host.divf (broadcastInDim S1x512 ![1] bcast_S512_S1x512_1
                (Host.reduceAdd z (constant S_ .f32 0x00000000#32) reducesTo_S128x512_S512_d0 h_S_))
              (broadcastInDim S1x512 ![] bcast_S_S1x512 (constant S_ .f32 0x43000000#32))))))
        (constant S_ .f32 0x00000000#32) reducesTo_S128x512_S512_d0 h_S_)
      (broadcastInDim S512 ![] bcast_S_S512 (varDen (F := F))))
    (broadcastInDim S512 ![] bcast_S_S512 (id (constant S_ .f32 0x7FC00000#32 : (⟨S_, .f32⟩ : BufTy).Contents (Elt F))))

/-- Batch normalisation and relu over 512 columns. -/
def bnrelu1 (z : FC F S128x512) (g be : FC F S512) : FC F S128x512 :=
  maximumf
    (addf
      (mulf
        (mulf
          ((broadcastInDim S128x512 ![0, 1] bcast_S1x512_S128x512_0_1 : (⟨S1x512, .f32⟩ : BufTy).Contents (Elt F) → (⟨S128x512, .f32⟩ : BufTy).Contents (Elt F))
            ((broadcastInDim S1x512 ![1] bcast_S512_S1x512_1 : (⟨S512, .f32⟩ : BufTy).Contents (Elt F) → (⟨S1x512, .f32⟩ : BufTy).Contents (Elt F)) g))
          (subf z
            ((broadcastInDim S128x512 ![0, 1] bcast_S1x512_S128x512_0_1 : (⟨S1x512, .f32⟩ : BufTy).Contents (Elt F) → (⟨S128x512, .f32⟩ : BufTy).Contents (Elt F))
              ((broadcastInDim S1x512 ![1] bcast_S512_S1x512_1 : (⟨S512, .f32⟩ : BufTy).Contents (Elt F) → (⟨S1x512, .f32⟩ : BufTy).Contents (Elt F)) (mean1 z)))))
        ((broadcastInDim S128x512 ![0, 1] bcast_S1x512_S128x512_0_1 : (⟨S1x512, .f32⟩ : BufTy).Contents (Elt F) → (⟨S128x512, .f32⟩ : BufTy).Contents (Elt F))
          ((broadcastInDim S1x512 ![1] bcast_S512_S1x512_1 : (⟨S512, .f32⟩ : BufTy).Contents (Elt F) → (⟨S1x512, .f32⟩ : BufTy).Contents (Elt F))
            (Host.rsqrt (addf (var1 z)
              ((broadcastInDim S512 ![] bcast_S_S512 : (⟨S_, .f32⟩ : BufTy).Contents (Elt F) → (⟨S512, .f32⟩ : BufTy).Contents (Elt F)) (constant S_ .f32 0x3727C5AC#32)))))))
      ((broadcastInDim S128x512 ![0, 1] bcast_S1x512_S128x512_0_1 : (⟨S1x512, .f32⟩ : BufTy).Contents (Elt F) → (⟨S128x512, .f32⟩ : BufTy).Contents (Elt F))
        ((broadcastInDim S1x512 ![1] bcast_S512_S1x512_1 : (⟨S512, .f32⟩ : BufTy).Contents (Elt F) → (⟨S1x512, .f32⟩ : BufTy).Contents (Elt F)) be)))
    (broadcastInDim S128x512 ![] bcast_S_S128x512 (constant S_ .f32 0x00000000#32))

/-- The last affine map: the 100 output columns. -/
def lin2 (x : FC F S128x512) (W : FC F S512x100) (b : FC F S100) : FC F S128x100 :=
  addf (Host.dotGeneral dot_S128x512_S512x100_S128x100_1_0_0_1_n_n none x W)
    ((broadcastInDim S128x100 ![0, 1] bcast_S1x100_S128x100_0_1 : (⟨S1x100, .f32⟩ : BufTy).Contents (Elt F) → (⟨S128x100, .f32⟩ : BufTy).Contents (Elt F))
      ((broadcastInDim S1x100 ![1] bcast_S100_S1x100_1 : (⟨S100, .f32⟩ : BufTy).Contents (Elt F) → (⟨S1x100, .f32⟩ : BufTy).Contents (Elt F)) b))

/-- The pooled block: prompt map, concatenation, three affine maps with normalisation and relu between them. -/
def mlp (pooled : FC F S128x512) (p : FC F S128x2) (Wp : FC F S2x2) (bp : FC F S2)
    (Wm0 : FC F S514x1024) (bm0 g0 be0 : FC F S1024) (Wm1 : FC F S1024x512) (bm1 g1 be1 : FC F S512)
    (Wm2 : FC F S512x100) (bm2 : FC F S100) : FC F S128x100 :=
  lin2 (bnrelu1 (lin1 (bnrelu0 (lin0 (cat pooled (proj p Wp bp)) Wm0 bm0) g0 be0) Wm1 bm1) g1 be1) Wm2 bm2

/-- The node features after the two layers. -/
def nodes (feat : FC F S100000x6) (src dst : IC F S1600000) (W0 : FC F S6x128) (b0 : FC F S128)
    (W1 : FC F S128x512) (b1 : FC F S512) : FC F S100000x512 :=
  lay2 (lay1 feat (agg6 feat src dst) W0 b0) (agg128 (lay1 feat (agg6 feat src dst) W0 b0) src dst) W1 b1

/-- The whole computation, of the twenty-one arguments in order. -/
def out (feat : FC F S100000x6) (p : FC F S128x2) (src dst : IC F S1600000) (gid : IC F S100000)
    (W0 : FC F S6x128) (b0 : FC F S128) (W1 : FC F S128x512) (b1 : FC F S512) (Wp : FC F S2x2) (bp : FC F S2)
    (Wm0 : FC F S514x1024) (bm0 g0 be0 : FC F S1024) (Wm1 : FC F S1024x512) (bm1 g1 be1 : FC F S512)
    (Wm2 : FC F S512x100) (bm2 : FC F S100) : FC F S128x100 :=
  mlp (pool (nodes feat src dst W0 b0 W1 b1) gid) p Wp bp Wm0 bm0 g0 be0 Wm1 bm1 g1 be1 Wm2 bm2

end Cert.ReferenceIdeal.Spec

end
-- ==== Proof.Gin0.lean ====
/-
  What the first graph-convolution launch (grid of 50 row blocks of 2000 nodes, 6 input and 128 output columns) leaves in its output array, for ANY contents `V` of the
  TensorCore's buffers at the launch's entry: block t of the output is relu ((x_t + n_t) · W + b) of the operands' row blocks t,
  a matrix product being a sum over the contracted column at the ideal values, so the fifty blocks together are the
  whole-array update `lay1` of the reference (whose one product over all 100000 rows has, row by row, the same sums).

  The steps. Both sides are read at one entry (row, column): the reference's update at (r, q) and the body's result at
  (p, q) of a block are the same expression max (Σ_k (x + n)(row, k) · W (k, q) + b (q), 0), the one over rows of the
  whole arrays, the other over rows of the blocks (a change of float format is the identity at the ideal values, and the
  zero accumulator and the zero of the relu are the extended real 0). Row p of the block at grid point t is row
  2000 t + p of its array, the weights and the bias row are whole at every point, and the reshaped bias row at (0, q)
  is the bias at q; so what point t writes back is block t of the reference's update, and the fifty blocks tile the
  100000 rows (row r lies in block r / 2000). No sum is rearranged and nothing is distributed: no finiteness is used.
-/
import proofs.«403661_j28097676051004_1_alg».proof.Proof.Gen.KernelIdeal.Frame
import proofs.«403661_j28097676051004_1_alg».proof.Proof.Spec
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

/-! ## The reference's layer update at one entry -/

namespace Cert.ReferenceIdeal.LayerOne

open Idealize.ShloMosaic Cert.ReferenceIdeal Cert.ReferenceIdeal.Facts₀
open Idealize.ShloMosaic.ValueIdx

/-! The coordinates the whole-array product reads at result entry `i` and contracted index `q`: the left operand at
    (row of `i`, `q`), the right operand at (`q`, column of `i`). One statement per operand axis. -/

theorem lhs_arr_0 (i : S100000x128.Idx) (q : dot_S100000x6_S6x128_S100000x128_1_0_0_1_n_n.contr.Idx) :
    (dot_S100000x6_S6x128_S100000x128_1_0_0_1_n_n.lhsIdx i q 0).val = (i 0).val := by
  unfold DotDims.lhsIdx
  rw [dif_neg (show ¬(0 : Fin S100000x6.rank) ∈ dot_S100000x6_S6x128_S100000x128_1_0_0_1_n_n.lhsBatch by decide), dif_pos (show (0 : Fin S100000x6.rank) ∈ dot_S100000x6_S6x128_S100000x128_1_0_0_1_n_n.lhsNonContracting by decide)]
  rfl
theorem lhs_arr_1 (i : S100000x128.Idx) (q : dot_S100000x6_S6x128_S100000x128_1_0_0_1_n_n.contr.Idx) :
    (dot_S100000x6_S6x128_S100000x128_1_0_0_1_n_n.lhsIdx i q 1).val = (q ⟨0, by decide⟩).val :=
  dot_S100000x6_S6x128_S100000x128_1_0_0_1_n_n.lhsIdx_val_of_single rfl i q
theorem rhs_arr_0 (i : S100000x128.Idx) (q : dot_S100000x6_S6x128_S100000x128_1_0_0_1_n_n.contr.Idx) :
    (dot_S100000x6_S6x128_S100000x128_1_0_0_1_n_n.rhsIdx i q 0).val = (q ⟨0, by decide⟩).val :=
  dot_S100000x6_S6x128_S100000x128_1_0_0_1_n_n.rhsIdx_val_of_single rfl i q
theorem rhs_arr_1 (i : S100000x128.Idx) (q : dot_S100000x6_S6x128_S100000x128_1_0_0_1_n_n.contr.Idx) :
    (dot_S100000x6_S6x128_S100000x128_1_0_0_1_n_n.rhsIdx i q 1).val = (i 1).val := by
  unfold DotDims.rhsIdx
  rw [dif_neg (show ¬(1 : Fin S6x128.rank) ∈ dot_S100000x6_S6x128_S100000x128_1_0_0_1_n_n.rhsBatch by decide), dif_pos (show (1 : Fin S6x128.rank) ∈ dot_S100000x6_S6x128_S100000x128_1_0_0_1_n_n.rhsNonContracting by decide)]
  rfl

/-- The whole-array product, entry by entry: the sum over the 6 contracted columns. -/
theorem dot_arr_apply (l : FVec Ideal S100000x6 .f32) (r : FVec Ideal S6x128 .f32) (a : Fin 100000) (q : Fin 128) :
    Host.dotGeneral dot_S100000x6_S6x128_S100000x128_1_0_0_1_n_n none l r (ix2 a q)
      = ∑ k : Fin 6, l (ix2 a k) * r (ix2 k q) := by
  simp only [Host.dotGeneral]
  rw [Ideal.dotGeneral_apply, ← Equiv.sum_comp (contrEquiv1 dot_S100000x6_S6x128_S100000x128_1_0_0_1_n_n 6 rfl rfl).symm]
  refine Finset.sum_congr rfl fun k _ => ?_
  have hk := contrEquiv1_symm_val dot_S100000x6_S6x128_S100000x128_1_0_0_1_n_n 6 rfl rfl k
  have el : dot_S100000x6_S6x128_S100000x128_1_0_0_1_n_n.lhsIdx (ix2 a q) ((contrEquiv1 dot_S100000x6_S6x128_S100000x128_1_0_0_1_n_n 6 rfl rfl).symm k) = ix2 a k := funext fun ax => Fin.ext (by
    match ax with
    | ⟨0, _⟩ => exact lhs_arr_0 _ _
    | ⟨1, _⟩ => exact (lhs_arr_1 _ _).trans hk)
  have er : dot_S100000x6_S6x128_S100000x128_1_0_0_1_n_n.rhsIdx (ix2 a q) ((contrEquiv1 dot_S100000x6_S6x128_S100000x128_1_0_0_1_n_n 6 rfl rfl).symm k) = ix2 k q := funext fun ax => Fin.ext (by
    match ax with
    | ⟨0, _⟩ => exact (rhs_arr_0 _ _).trans hk
    | ⟨1, _⟩ => exact rhs_arr_1 _ _)
  rw [el, er]

/-- The layer update at row r, column q. -/
theorem lay1_apply (x n : FVec Ideal S100000x6 .f32) (W : FVec Ideal S6x128 .f32) (b : FVec Ideal S128 .f32) (r : Fin 100000) (q : Fin 128) :
    Spec.lay1 (F := Ideal) x n W b (ix2 r q)
      = max ((∑ k : Fin 6, (x (ix2 r k) + n (ix2 r k)) * W (ix2 k q)) + b (ix1 q)) 0 := by
  unfold Spec.lay1
  rw [maximumf_apply, addf_apply, dot_arr_apply]
  rw [broadcastInDim_apply _ _ _ (ix2 r q) (ix2 0 q) (fun a => by match a with | ⟨0, _⟩ => rfl | ⟨1, _⟩ => rfl)]
  rw [broadcastInDim_apply _ _ _ (ix2 0 q) (ix1 q) (fun a => by match a with | ⟨0, _⟩ => rfl)]
  rw [broadcastInDim_apply _ _ _ (ix2 r q) ix0 (fun a => a.elim0)]
  rw [constant_apply, Ideal.ofBits_zero_f32]
  rfl

end Cert.ReferenceIdeal.LayerOne

namespace Cert.KernelIdeal.Region0

open Cert.KernelIdeal Cert.KernelIdeal.Gen
open Idealize.ShloMosaic Idealize.ShloMosaic.TcCoe Idealize.SL.Sem
open Idealize.ShloMosaic.ValueIdx
open Idealize.ShloMosaic.Pipeline (Dat)

/-! ## The body's result at one entry of a block -/

/-! The coordinates a block's product reads at result entry `i` and contracted index `q`: the left operand at
    (row of `i`, `q`), the right operand at (`q`, column of `i`). One statement per operand axis. -/

theorem lhs_blk_0 (i : S2000x128.Idx) (q : dot_S2000x6_S6x128_S2000x128_1_0_0_1_n_n.contr.Idx) :
    (dot_S2000x6_S6x128_S2000x128_1_0_0_1_n_n.lhsIdx i q 0).val = (i 0).val := by
  unfold DotDims.lhsIdx
  rw [dif_neg (show ¬(0 : Fin S2000x6.rank) ∈ dot_S2000x6_S6x128_S2000x128_1_0_0_1_n_n.lhsBatch by decide), dif_pos (show (0 : Fin S2000x6.rank) ∈ dot_S2000x6_S6x128_S2000x128_1_0_0_1_n_n.lhsNonContracting by decide)]
  rfl
theorem lhs_blk_1 (i : S2000x128.Idx) (q : dot_S2000x6_S6x128_S2000x128_1_0_0_1_n_n.contr.Idx) :
    (dot_S2000x6_S6x128_S2000x128_1_0_0_1_n_n.lhsIdx i q 1).val = (q ⟨0, by decide⟩).val :=
  dot_S2000x6_S6x128_S2000x128_1_0_0_1_n_n.lhsIdx_val_of_single rfl i q
theorem rhs_blk_0 (i : S2000x128.Idx) (q : dot_S2000x6_S6x128_S2000x128_1_0_0_1_n_n.contr.Idx) :
    (dot_S2000x6_S6x128_S2000x128_1_0_0_1_n_n.rhsIdx i q 0).val = (q ⟨0, by decide⟩).val :=
  dot_S2000x6_S6x128_S2000x128_1_0_0_1_n_n.rhsIdx_val_of_single rfl i q
theorem rhs_blk_1 (i : S2000x128.Idx) (q : dot_S2000x6_S6x128_S2000x128_1_0_0_1_n_n.contr.Idx) :
    (dot_S2000x6_S6x128_S2000x128_1_0_0_1_n_n.rhsIdx i q 1).val = (i 1).val := by
  unfold DotDims.rhsIdx
  rw [dif_neg (show ¬(1 : Fin S6x128.rank) ∈ dot_S2000x6_S6x128_S2000x128_1_0_0_1_n_n.rhsBatch by decide), dif_pos (show (1 : Fin S6x128.rank) ∈ dot_S2000x6_S6x128_S2000x128_1_0_0_1_n_n.rhsNonContracting by decide)]
  rfl

/-- A block's matrix product into the zero accumulator, entry by entry: the sum over the 6 contracted columns. -/
theorem matmul_blk_apply (l : FVec Ideal S2000x6 .bf16) (r : FVec Ideal S6x128 .bf16) (p : Fin 2000) (q : Fin 128) :
    matmul dot_S2000x6_S6x128_S2000x128_1_0_0_1_n_n none l r (constant S2000x128 .f32 0x00000000#32) (ix2 p q)
      = ∑ k : Fin 6, l (ix2 p k) * r (ix2 k q) := by
  simp only [matmul]
  rw [Ideal.matmul_constant_zero_apply, ← Equiv.sum_comp (contrEquiv1 dot_S2000x6_S6x128_S2000x128_1_0_0_1_n_n 6 rfl rfl).symm]
  refine Finset.sum_congr rfl fun k _ => ?_
  have hk := contrEquiv1_symm_val dot_S2000x6_S6x128_S2000x128_1_0_0_1_n_n 6 rfl rfl k
  have el : dot_S2000x6_S6x128_S2000x128_1_0_0_1_n_n.lhsIdx (ix2 p q) ((contrEquiv1 dot_S2000x6_S6x128_S2000x128_1_0_0_1_n_n 6 rfl rfl).symm k) = ix2 p k := funext fun a => Fin.ext (by
    match a with
    | ⟨0, _⟩ => exact lhs_blk_0 _ _
    | ⟨1, _⟩ => exact (lhs_blk_1 _ _).trans hk)
  have er : dot_S2000x6_S6x128_S2000x128_1_0_0_1_n_n.rhsIdx (ix2 p q) ((contrEquiv1 dot_S2000x6_S6x128_S2000x128_1_0_0_1_n_n 6 rfl rfl).symm k) = ix2 k q := funext fun a => Fin.ext (by
    match a with
    | ⟨0, _⟩ => exact (rhs_blk_0 _ _).trans hk
    | ⟨1, _⟩ => exact rhs_blk_1 _ _)
  rw [el, er]

/-- The bias row laid over the block's rows. -/
theorem bias_blk_apply (v : FVec Ideal S1x128 .f32) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => by
    match a with
    | ⟨0, _⟩ => rfl
    | ⟨1, _⟩ => rfl)

/-- The body's result at row p, column q of a block. -/
theorem pay_apply (x0 x1 : Vec Ideal S2000x6 .f32) (w : Vec Ideal S6x128 .f32) (b : Vec Ideal S1x128 .f32) (p : Fin 2000) (q : Fin 128) :
    k0_pay1 (F := Ideal) x0 x1 w b (ix2 p q)
      = max ((∑ k : Fin 6, (x0 (ix2 p k) + x1 (ix2 p k)) * w (ix2 k q)) + b (ix2 0 q)) 0 := by
  unfold k0_pay1
  rw [maximumf_apply, addf_apply, broadcast_apply, bias_blk_apply, shapeCast_self, shapeCast_self, matmul_blk_apply]
  simp only [truncf_apply, addf_apply]
  exact congrArg (max _) Ideal.ofBits_zero_f32

/-- One entry of a block against one entry of the whole-array update: equal once the block rows are the array's rows
    (`hx0`, `hx1`), the weights the array's (`hw`) and the bias row the bias (`hb1`). -/
theorem entry_eq (x n : FVec Ideal S100000x6 .f32) (W : FVec Ideal S6x128 .f32) (b : FVec Ideal S128 .f32)
    (x0 x1 : Vec Ideal S2000x6 .f32) (w : Vec Ideal S6x128 .f32) (b1 : Vec Ideal S1x128 .f32)
    (r : Fin 100000) (p : Fin 2000) (q : Fin 128)
    (hx0 : ∀ k : Fin 6, x0 (ix2 p k) = x (ix2 r k))
    (hx1 : ∀ k : Fin 6, x1 (ix2 p k) = n (ix2 r k))
    (hw : ∀ k : Fin 6, w (ix2 k q) = W (ix2 k q))
    (hb1 : b1 (ix2 0 q) = b (ix1 q)) :
    k0_pay1 (F := Ideal) x0 x1 w b1 (ix2 p q) = Cert.ReferenceIdeal.Spec.lay1 (F := Ideal) x n W b (ix2 r q) := by
  rw [pay_apply, Cert.ReferenceIdeal.LayerOne.lay1_apply, hb1]
  simp only [hx0, hx1, hw]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the three row-blocked windows at block row t, the weights and the
    bias row at their one block; and t is below 50. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val < 50 :=
  (by decide +kernel : ∀ t : Fin grid0.N, _)

/-- Every block row of the output is some point's. -/
theorem block_onto : ∀ (q0 : Fin 50), ∃ t : Fin cfg0.N, win0_4.index t = ![q0.val, 0] :=
  (by decide +kernel : ∀ (q0 : Fin 50), ∃ t : Fin grid0.N, win0_4.index t = ![q0.val, 0])

/-- Row p of the node-feature block at point t is row 2000 t + p of the array. -/
theorem xblk_apply (c : Dev nD) (t : Fin cfg0.N) (p : Fin 2000) (k : Fin 6) (r : Fin 100000) (hr : r.val = t.val * 2000 + p.val) :
    (iblk0 V c 0 t : Vec Ideal S2000x6 .f32) (ix2 p k) = (V c main_arg0 : FVec Ideal S100000x6 .f32) (ix2 r k) := by
  obtain ⟨e0, e1, -⟩ := block_indices t
  show (V c main_arg0 : FVec Ideal S100000x6 .f32) (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 6 + 1 * k.val = k.val; omega

/-- The same for the neighbour-sum block. -/
theorem nblk_apply (c : Dev nD) (t : Fin cfg0.N) (p : Fin 2000) (k : Fin 6) (r : Fin 100000) (hr : r.val = t.val * 2000 + p.val) :
    (iblk0 V c 1 t : Vec Ideal S2000x6 .f32) (ix2 p k) = (V c main_v9 : FVec Ideal S100000x6 .f32) (ix2 r k) := by
  obtain ⟨-, -, e0, e1, -⟩ := block_indices t
  show (V c main_v9 : FVec Ideal S100000x6 .f32) (((cfg0.win 1).blk t).view.emb (ix2 p k)) = _
  refine congrArg _ (funext fun a => Fin.ext ?_)
  match a with
  | ⟨0, _⟩ => show win0_1.index t (0 : Fin 2) * 2000 + 1 * p.val = r.val; omega
  | ⟨1, _⟩ => show win0_1.index t (1 : Fin 2) * 6 + 1 * k.val = k.val; omega

/-- The weights' one block is the whole array at every point. -/
theorem wblk_apply (c : Dev nD) (t : Fin cfg0.N) (k : Fin 6) (q : Fin 128) :
    (iblk0 V c 2 t : Vec Ideal S6x128 .f32) (ix2 k q) = (V c main_arg5 : FVec Ideal S6x128 .f32) (ix2 k q) := by
  obtain ⟨-, -, -, -, e0, e1, -⟩ := block_indices t
  show (V c main_arg5 : FVec Ideal S6x128 .f32) (((cfg0.win 2).blk t).view.emb (ix2 k q)) = _
  refine congrArg _ (funext fun a => Fin.ext ?_)
  match a with
  | ⟨0, _⟩ => show win0_2.index t (0 : Fin 2) * 6 + 1 * k.val = k.val; omega
  | ⟨1, _⟩ => show win0_2.index t (1 : Fin 2) * 128 + 1 * q.val = q.val; omega

/-- And so is the bias row's. -/
theorem bblk_apply (c : Dev nD) (t : Fin cfg0.N) (q : Fin 128) :
    (iblk0 V c 3 t : Vec Ideal S1x128 .f32) (ix2 0 q) = (V c main_v10 : FVec Ideal S1x128 .f32) (ix2 0 q) := by
  obtain ⟨-, -, -, -, -, -, e0, e1, -⟩ := block_indices t
  show (V c main_v10 : FVec Ideal S1x128 .f32) (((cfg0.win 3).blk t).view.emb (ix2 0 q)) = _
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- A block of 2000 rows that agrees, row by row, with rows 2000 t … 2000 t + 1999 of a whole array is that array read
    through the output window's block at point t. -/
theorem read_blk_eq (G : FVec Ideal S100000x128 .f32) (B : Vec Ideal S2000x128 .f32) (t : Fin cfg0.N)
    (h : ∀ (p : Fin 2000) (q : Fin 128) (r : Fin 100000), r.val = t.val * 2000 + p.val → B (ix2 p q) = G (ix2 r q)) :
    B = ((cfg0.win 4).blk t).view.read (Elt Ideal) G := by
  obtain ⟨-, -, -, -, -, -, -, -, e0, e1, ht⟩ := block_indices t
  funext j
  obtain ⟨p, q, rfl⟩ : ∃ (p : Fin 2000) (q : Fin 128), j = ix2 p q := ⟨j 0, j 1, eq_ix2 j⟩
  rw [h p q ⟨t.val * 2000 + p.val, by omega⟩ rfl]
  show G _ = G (((cfg0.win 4).blk t).view.emb (ix2 p q))
  refine congrArg G (funext fun a => Fin.ext ?_)
  match a with
  | ⟨0, _⟩ => show t.val * 2000 + p.val = win0_4.index t (0 : Fin 2) * 2000 + 1 * p.val; omega
  | ⟨1, _⟩ => show q.val = win0_4.index t (1 : Fin 2) * 128 + 1 * q.val; omega

/-- An index of the output array lies in point t's block iff each coordinate is in the block's range on its axis. -/
theorem mem_blk (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v11).slice (win0_4.rect t)).set ↔ _
  rw [View.set_slice_whole, Rect.mem_set_unit]
  exact Iff.rfl

/-- The fifty blocks cover the output array: row r lies in block r / 2000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := block_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- What point t writes back, given the body's result entry by entry. -/
theorem flushed_of_entries (c : Dev nD) (G : FVec Ideal S100000x128 .f32) (t : Fin cfg0.N)
    (h : ∀ (p : Fin 2000) (q : Fin 128) (r : Fin 100000), r.val = t.val * 2000 + p.val →
      k0_pay1 (F := Ideal) (iblk0 V c 0 t) (iblk0 V c 1 t) (iblk0 V c 2 t) (iblk0 V c 3 t) (ix2 p q) = G (ix2 r q)) :
    (dat0 (F := Ideal) V c).flushed 4 t = ((cfg0.win 4).blk t).view.read (Elt Ideal) G := by
  show (cfg0.win 4).cut (grid0.coords t) ((dat0 V c).after 4 t) = _
  rw [after0_4]
  unfold out0_4
  rw [View.canon_unit_zero zero_offsets]
  simp only [View.ld_unit_zero (S := S2000x6) zero_offsets, View.ld_unit_zero (S := S6x128) zero_offsets, View.ld_unit_zero (S := S1x128) zero_offsets]
  exact read_blk_eq G _ t h

/-- The array after the last write-back, given the body's result entry by entry at every point. -/
theorem arr_of_entries (c : Dev nD) (G : FVec Ideal S100000x128 .f32)
    (h : ∀ (t : Fin cfg0.N) (p : Fin 2000) (q : Fin 128) (r : Fin 100000), r.val = t.val * 2000 + p.val →
      k0_pay1 (F := Ideal) (iblk0 V c 0 t) (iblk0 V c 1 t) (iblk0 V c 2 t) (iblk0 V c 3 t) (ix2 p q) = G (ix2 r q)) :
    ((dat0 (F := Ideal) V c).arrAt 4 cfg0.N : FVec Ideal S100000x128 .f32) = G :=
  (dat0 (F := Ideal) V c).arrAt_eq_of_cover 4 G (fun t _ => flushed_of_entries V c G t (h t)) covered

/-- The reshaped bias row at (0, q) is the bias at q. -/
theorem bias_row_apply (v : FVec Ideal S1x128 .f32) (b : FVec Ideal S128 .f32)
    (hb : v = shapeCast S1x128 b shapeCasts_S128_S1x128) (q : Fin 128) : v (ix2 0 q) = b (ix1 q) := by
  rw [hb]
  exact shapeCast_apply b shapeCasts_S128_S1x128 (ix2 0 q) (ix1 q) (by
    rw [Shape.rowMajor_val_one, Shape.rowMajor_val_two]
    show q.val = 0 * 128 + q.val
    omega)

/-- The launch's output array after its last write-back is the reference's layer update of the entry contents of its
    operand arrays, the bias read through the reshape `[n] → [1, n]` the host did before the launch. -/
theorem arr_eq (c : Dev nD) (b : FVec Ideal S128 .f32)
    (hb : (V c main_v10 : FVec Ideal S1x128 .f32) = shapeCast S1x128 b shapeCasts_S128_S1x128) :
    ((dat0 (F := Ideal) V c).arrAt 4 cfg0.N : FVec Ideal S100000x128 .f32)
      = Cert.ReferenceIdeal.Spec.lay1 (F := Ideal) (V c main_arg0 : FVec Ideal S100000x6 .f32) (V c main_v9 : FVec Ideal S100000x6 .f32)
          (V c main_arg5 : FVec Ideal S6x128 .f32) b := by
  refine arr_of_entries V c _ (fun t p q r hr => ?_)
  exact entry_eq (V c main_arg0 : FVec Ideal S100000x6 .f32) (V c main_v9 : FVec Ideal S100000x6 .f32)
    (V c main_arg5 : FVec Ideal S6x128 .f32) b
    (iblk0 V c 0 t : Vec Ideal S2000x6 .f32) (iblk0 V c 1 t : Vec Ideal S2000x6 .f32)
    (iblk0 V c 2 t : Vec Ideal S6x128 .f32) (iblk0 V c 3 t : Vec Ideal S1x128 .f32) r p q
    (fun k => xblk_apply V c t p k r hr) (fun k => nblk_apply V c t p k r hr) (fun k => wblk_apply V c t k q)
    ((bblk_apply V c t q).trans (bias_row_apply (V c main_v10 : FVec Ideal S1x128 .f32) b hb q))

end Cert.KernelIdeal.Region0

end
-- ==== Proof.Gin1.lean ====
/-
  What the second graph-convolution launch (grid of 50 row blocks of 2000 nodes, 128 input and 512 output columns) leaves in its output array, for ANY contents `V` of the
  TensorCore's buffers at the launch's entry: block t of the output is relu ((x_t + n_t) · W + b) of the operands' row blocks t,
  a matrix product being a sum over the contracted column at the ideal values, so the fifty blocks together are the
  whole-array update `lay2` of the reference (whose one product over all 100000 rows has, row by row, the same sums).
-/
import proofs.«403661_j28097676051004_1_alg».proof.Proof.Gen.KernelIdeal.Frame
import proofs.«403661_j28097676051004_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember
import Mathlib.Algebra.BigOperators.Group.Finset.Basic

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx Idealize.ShloMosaic.StackMember

variable (V : (c : Dev nD) → (b : Ref sig .tc) → Buf (Elt Ideal) ((c : Thread nD τ).loc b))

/-! ## One entry of the update, on either side

Row i, column j of relu ((h + n) · W + b) is the larger of zero and the sum over the 128 contracted columns k of
(h i k + n i k) · W k j, plus b j. Both programs reach this expression: the reference with i a row of the whole array, the
launch's body with i a row of one block. Nothing of real arithmetic is used beyond 0 + x = x for the zero the body's
product accumulates into, so the infinities are covered. -/

/-- The body's product contracts the left operand's columns against the right operand's rows, with no batch axis: the plain
    rows-by-columns product of a 2000 × 128 by a 128 × 512 matrix. -/
theorem body_product_plain : dot_S2000x128_S128x512_S2000x512_1_0_0_1_n_n = DotDims.plain 2000 128 512 := rfl

/-- The reference's product is the plain one too, over all 100000 rows at once. -/
theorem reference_product_plain :
    Cert.ReferenceIdeal.dot_S100000x128_S128x512_S100000x512_1_0_0_1_n_n = DotDims.plain 100000 128 512 := rfl

/-- The reference's update at row i, column j: the bias, laid as a one-row matrix and then down the rows, is read at its
    entry j; the zero it is compared with is the scalar zero laid over the array. -/
theorem lay2_apply (h n : FVec Ideal S100000x128 .f32) (W : FVec Ideal S128x512 .f32) (b : FVec Ideal S512 .f32)
    (i : Fin 100000) (j : Fin 512) :
    Cert.ReferenceIdeal.Spec.lay2 (F := Ideal) h n W b (ix2 i j)
      = max ((∑ k : Fin 128, (h (ix2 i k) + n (ix2 i k)) * W (ix2 k j)) + b (ix1 j)) (Ideal.ofBits .f32 0x00000000#32) := by
  unfold Cert.ReferenceIdeal.Spec.lay2
  rw [maximumf_apply, addf_apply, reference_product_plain, dotGeneral_plain_apply, broadcastInDim_oneRow_apply,
    broadcastInDim_apply ![1] _ b (ix2 (0 : Fin 1) j) (ix1 j) (fun a => by
      match a with
      | ⟨0, _⟩ => show j.val = if 512 = 1 then 0 else j.val; rfl),
    broadcastInDim_apply ![] _ (constant (F := Ideal) S_ .f32 0x00000000#32) (ix2 i j) ix0 (fun a => a.elim0)]
  rfl

/-- The body's result at row p, column q of its block, from the four blocks it loads: the casts to the shape a block
    already has change nothing, the narrowing to bf16 is the identity on ideal values, the product accumulated into the zero
    splat is the sum over the contracted column, and the one-row bias laid down the rows is read at (0, q). -/
theorem body_apply (x0 x1 : Vec Ideal S2000x128 .f32) (x2 : Vec Ideal S128x512 .f32) (x3 : Vec Ideal S1x512 .f32)
    (p : Fin 2000) (q : Fin 512) :
    (k1_pay1 (F := Ideal) x0 x1 x2 x3) (ix2 p q)
      = max ((∑ k : Fin 128, (x0 (ix2 p k) + x1 (ix2 p k)) * x2 (ix2 k q)) + x3 (ix2 (0 : Fin 1) q)) (Ideal.ofBits .f32 0x00000000#32) := by
  unfold k1_pay1
  simp only [shapeCast_self]
  rw [maximumf_apply, addf_apply, matmul_zero_eq_dotGeneral, body_product_plain, dotGeneral_plain_apply, broadcast_apply,
    broadcastTo_apply x3 _ (ix2 p q) (ix2 (0 : Fin 1) q) (fun a => by
      match a with
      | ⟨0, _⟩ => rfl
      | ⟨1, _⟩ => show q.val = if 512 = 1 then 0 else q.val; rfl)]
  rfl

/-- Two entries of the update agree when their sums and their bias entries do. -/
theorem entry_congr {s s' d d' z : Ideal .f32} (hs : s = s') (hd : d = d') : max (s + d) z = max (s' + d') z := by
  rw [hs, hd]

/-! ## The blocks

At grid point t the two node operands and the output are at block row t (rows 2000 t … 2000 t + 1999, all their columns); the
weight and the one-row bias are their whole arrays at every point. -/

theorem zero_offsets : (![0, 0] : Fin 2 → Nat) = fun _ => 0 := funext fun a => by fin_cases a <;> rfl

/-- The five index maps at every one of the fifty points. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The operand arrays as the launch finds them, and their blocks at a point, at their literal shapes. -/
abbrev harr (c : Dev nD) : FVec Ideal S100000x128 .f32 := V c main_v11
abbrev narr (c : Dev nD) : FVec Ideal S100000x128 .f32 := V c main_v21
abbrev warr (c : Dev nD) : FVec Ideal S128x512 .f32 := V c main_arg7
abbrev brow (c : Dev nD) : FVec Ideal S1x512 .f32 := V c main_v22
abbrev hblk (c : Dev nD) (t : Fin cfg1.N) : Vec Ideal S2000x128 .f32 := iblk1 V c 0 t
abbrev nblk (c : Dev nD) (t : Fin cfg1.N) : Vec Ideal S2000x128 .f32 := iblk1 V c 1 t
abbrev wblk (c : Dev nD) (t : Fin cfg1.N) : Vec Ideal S128x512 .f32 := iblk1 V c 2 t
abbrev bblk (c : Dev nD) (t : Fin cfg1.N) : Vec Ideal S1x512 .f32 := iblk1 V c 3 t

/-- Row p of block t of the node features is row r = 2000 t + p of the array. -/
theorem hblk_apply (c : Dev nD) (t : Fin cfg1.N) (p : Fin 2000) (k : Fin 128) (r : Fin 100000)
    (hr : r.val = t.val * 2000 + p.val) : hblk V c t (ix2 p k) = harr V c (ix2 r k) := by
  show V c main_v11 (((cfg1.win 0).blk t).view.emb (ix2 p k)) = V c main_v11 (ix2 r k)
  refine congrArg _ (funext fun a => Fin.ext ?_)
  obtain ⟨e0, e1, -⟩ := block_indices t
  match a with
  | ⟨0, _⟩ => show win1_0.index t (0 : Fin 2) * 2000 + 1 * p.val = r.val; omega
  | ⟨1, _⟩ => show win1_0.index t (1 : Fin 2) * 128 + 1 * k.val = k.val; omega

/-- The same for the neighbour sums. -/
theorem nblk_apply (c : Dev nD) (t : Fin cfg1.N) (p : Fin 2000) (k : Fin 128) (r : Fin 100000)
    (hr : r.val = t.val * 2000 + p.val) : nblk V c t (ix2 p k) = narr V c (ix2 r k) := by
  show V c main_v21 (((cfg1.win 1).blk t).view.emb (ix2 p k)) = V c main_v21 (ix2 r k)
  refine congrArg _ (funext fun a => Fin.ext ?_)
  obtain ⟨-, -, e0, e1, -⟩ := block_indices t
  match a with
  | ⟨0, _⟩ => show win1_1.index t (0 : Fin 2) * 2000 + 1 * p.val = r.val; omega
  | ⟨1, _⟩ => show win1_1.index t (1 : Fin 2) * 128 + 1 * k.val = k.val; omega

/-- The weight's block is the weight. -/
theorem wblk_apply (c : Dev nD) (t : Fin cfg1.N) (k : Fin 128) (q : Fin 512) :
    wblk V c t (ix2 k q) = warr V c (ix2 k q) := by
  show V c main_arg7 (((cfg1.win 2).blk t).view.emb (ix2 k q)) = V c main_arg7 (ix2 k q)
  refine congrArg _ (funext fun a => Fin.ext ?_)
  obtain ⟨-, -, -, -, e0, e1, -⟩ := block_indices t
  match a with
  | ⟨0, _⟩ => show win1_2.index t (0 : Fin 2) * 128 + 1 * k.val = k.val; omega
  | ⟨1, _⟩ => show win1_2.index t (1 : Fin 2) * 512 + 1 * q.val = q.val; omega

/-- The bias row's block is the bias row, and the row is the bias vector reshaped: entry (0, q) of the one is entry q of
    the other (the same position in row-major order). -/
theorem bblk_apply (c : Dev nD) (b : FVec Ideal S512 .f32)
    (hb : (V c main_v22 : FVec Ideal S1x512 .f32) = shapeCast S1x512 b shapeCasts_S512_S1x512)
    (t : Fin cfg1.N) (z : Fin 1) (q : Fin 512) : bblk V c t (ix2 z q) = b (ix1 q) := by
  have hz : z.val = 0 := by have := z.isLt; omega
  have e : bblk V c t (ix2 z q) = brow V c (ix2 z q) := by
    show V c main_v22 (((cfg1.win 3).blk t).view.emb (ix2 z q)) = V c main_v22 (ix2 z q)
    refine congrArg _ (funext fun a => Fin.ext ?_)
    obtain ⟨-, -, -, -, -, -, e0, e1, -⟩ := block_indices t
    match a with
    | ⟨0, _⟩ => show win1_3.index t (0 : Fin 2) * 1 + 1 * z.val = z.val; omega
    | ⟨1, _⟩ => show win1_3.index t (1 : Fin 2) * 512 + 1 * q.val = q.val; omega
  refine e.trans ((congrFun hb (ix2 z q)).trans ?_)
  exact shapeCast_apply b shapeCasts_S512_S1x512 (ix2 z q) (ix1 q) (by
    rw [Shape.rowMajor_val_one, Shape.rowMajor_val_two]; show q.val = z.val * 512 + q.val; omega)

/-- Entry (p, q) of the output's block t sits at (2000 t + p, q) of the output array. -/
theorem oblk_index (t : Fin cfg1.N) (p : Fin 2000) (q : Fin 512) (r : Fin 100000)
    (hr : r.val = t.val * 2000 + p.val) :
    ((cfg1.win 4).blk t).view.emb (ix2 p q) = (ix2 r q : S100000x512.Idx) := by
  refine funext fun a => Fin.ext ?_
  obtain ⟨-, -, -, -, -, -, -, -, e0, e1⟩ := block_indices t
  match a with
  | ⟨0, _⟩ => show win1_4.index t (0 : Fin 2) * 2000 + 1 * p.val = r.val; omega
  | ⟨1, _⟩ => show win1_4.index t (1 : Fin 2) * 512 + 1 * q.val = q.val; omega

/-! ## From blocks to the array -/

/-- What point t writes back is block t of the reference's update of the operand arrays: the body's one store fills
    its buffer with its result on the blocks at t, whose entry (p, q) is the update's entry (2000 t + p, q), term by term
    in the sum over the contracted column. -/
theorem flushed_eq (c : Dev nD) (b : FVec Ideal S512 .f32)
    (hb : (V c main_v22 : FVec Ideal S1x512 .f32) = shapeCast S1x512 b shapeCasts_S512_S1x512) (t : Fin cfg1.N) :
    (dat1 (F := Ideal) V c).flushed 4 t
      = ((cfg1.win 4).blk t).view.read (Elt Ideal)
          (Cert.ReferenceIdeal.Spec.lay2 (F := Ideal) (harr V c) (narr V c) (warr V c) b) := by
  show (cfg1.win 4).cut (grid1.coords t) ((dat1 V c).after 4 t) = _
  rw [after1_4]
  unfold out1_4
  rw [View.canon_unit_zero zero_offsets]
  simp only [View.ld_unit_zero (S := S2000x128) zero_offsets, View.ld_unit_zero (S := S128x512) zero_offsets,
    View.ld_unit_zero (S := S1x512) zero_offsets]
  funext y
  obtain ⟨p, q, rfl⟩ : ∃ (p : Fin 2000) (q : Fin 512), y = ix2 p q := ⟨y 0, y 1, eq_ix2 y⟩
  show (k1_pay1 (F := Ideal) (hblk V c t) (nblk V c t) (wblk V c t) (bblk V c t)) (ix2 p q)
    = Cert.ReferenceIdeal.Spec.lay2 (F := Ideal) (harr V c) (narr V c) (warr V c) b (((cfg1.win 4).blk t).view.emb (ix2 p q))
  have ht : t.val < 50 := lt_of_lt_of_eq t.isLt N_1
  have hp : p.val < 2000 := p.isLt
  obtain ⟨r, hr⟩ : ∃ r : Fin 100000, r.val = t.val * 2000 + p.val := ⟨⟨t.val * 2000 + p.val, by omega⟩, rfl⟩
  refine (body_apply (hblk V c t) (nblk V c t) (wblk V c t) (bblk V c t) p q).trans ?_
  refine Eq.trans ?_ (congrArg (Cert.ReferenceIdeal.Spec.lay2 (F := Ideal) (harr V c) (narr V c) (warr V c) b)
    (oblk_index t p q r hr)).symm
  refine Eq.trans ?_ (lay2_apply (harr V c) (narr V c) (warr V c) b r q).symm
  refine entry_congr (Finset.sum_congr rfl fun k _ => ?_) (bblk_apply V c b hb t 0 q)
  rw [hblk_apply V c t p k r hr, nblk_apply V c t p k r hr, wblk_apply V c t k q]

/-- An index of the output array is in point t's block iff each coordinate is in the block's range on its axis. -/
theorem mem_blk (t : Fin cfg1.N) (i : S100000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v23).slice (win1_4.rect t)).set ↔ _
  rw [View.set_slice_whole, Rect.mem_set_unit]
  exact Iff.rfl

/-- The fifty blocks fill the array: row i is in the block of point i / 2000, and every point writes back. -/
theorem cover (i : S100000x512.Idx) :
    ∃ t : Fin cfg1.N, (cfg1.win 4).flush t = true ∧ i ∈ ((cfg1.win 4).blk t).view.set := by
  have hi0 : (i 0).val < 100000 := (i 0).isLt
  have hi1 : (i 1).val < 512 := (i 1).isLt
  obtain ⟨t, ht⟩ : ∃ t : Fin cfg1.N, t.val = (i 0).val / 2000 :=
    ⟨⟨(i 0).val / 2000, lt_of_lt_of_eq (show (i 0).val / 2000 < 50 by omega) N_1.symm⟩, rfl⟩
  refine ⟨t, flush1_4 t, ?_⟩
  rw [mem_blk]
  obtain ⟨-, -, -, -, -, -, -, -, e0, e1⟩ := block_indices t
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 512 ≤ (i 1).val ∧ (i 1).val < win1_4.index t (1 : Fin 2) * 512 + 512; omega

/-- The launch's output array after its last write-back is the reference's layer update of the entry contents of its
    operand arrays, the bias read through the reshape `[n] → [1, n]` the host did before the launch. -/
theorem arr_eq (c : Dev nD) (b : FVec Ideal S512 .f32)
    (hb : (V c main_v22 : FVec Ideal S1x512 .f32) = shapeCast S1x512 b shapeCasts_S512_S1x512) :
    ((dat1 (F := Ideal) V c).arrAt 4 cfg1.N : FVec Ideal S100000x512 .f32)
      = Cert.ReferenceIdeal.Spec.lay2 (F := Ideal) (V c main_v11 : FVec Ideal S100000x128 .f32) (V c main_v21 : FVec Ideal S100000x128 .f32)
          (V c main_arg7 : FVec Ideal S128x512 .f32) b :=
  (dat1 (F := Ideal) V c).arrAt_eq_of_cover 4 _ (fun t _ => flushed_eq V c b hb t) cover

end Cert.KernelIdeal.Region1

end
-- ==== Proof.Mlp.lean ====
/-
  What the pooled-block launch (one grid point, every operand one whole block) leaves in its output array, for ANY contents
  `V` of the TensorCore's buffers at the launch's entry: the body's arithmetic on whole arrays — the prompt's affine map,
  the concatenation, three matrix products with batch normalisation (column mean and variance over the 128 rows) and relu
  between them — is, at the ideal values, the reference's `mlp`: a matrix product into a zero accumulator is the host's
  product, a lane reduction the host's reduction, a change of float format the identity, and the reference's variance, a
  quotient guarded by "the divisor 128 - 0 is positive", divides by 128.
-/
import proofs.«403661_j28097676051004_1_alg».proof.Proof.Gen.KernelIdeal.Frame
import proofs.«403661_j28097676051004_1_alg».proof.Proof.Spec
import Idealize.ShloMosaic.PureOps.Ideal
import Idealize.ShloMosaic.PureOps.Ideal.Laws
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.ValueIdx

/-! ## The body's operations against the host's, on whole vectors

At the ideal values each operation of the body is the host operation on the same operands: these are equalities of whole
vectors, so that the stages below are rewritten operation by operation and no sum is ever opened. -/

section Operators
variable {α : Type}

/-- A matrix product of operands narrowed to bf16, into the zero accumulator, is the host's product of the operands:
    narrowing is the identity on extended reals, and the accumulator contributes `0 + ·`. -/
theorem mm_eq {sl sr so : Shape} (d : DotDims sl sr so) (a : FVec Ideal sl .f32) (b : FVec Ideal sr .f32)
    (h h' : FTy.bits .bf16 < FTy.bits .f32) :
    matmul d none (truncf .bf16 a h) (truncf .bf16 b h') (constant so .f32 0x00000000#32) = Host.dotGeneral d none a b := by
  funext j
  show FloatOps.matmul d none (truncf .bf16 a h) (truncf .bf16 b h') (constant so .f32 0x00000000#32) j
    = FloatOps.dotGeneral d none .single a b j
  rw [Ideal.matmul_constant_zero_apply, Ideal.dotGeneral_apply]
  rfl

/-- A lane sum is the host's sum from the initial value zero: both add the elements that reduce to an index. -/
theorem sum_eq_hostSum {s t u : Shape} {axes : List (Fin s.rank)} (v : FVec Ideal s .f32) (h : s.Reduces axes t)
    (hφ : FKind.Formats .f32) (hacc : (0x00000000#32 : BitVec 32) = 0x00000000#32) (h' : s.ReducesTo axes t)
    (hu : 0 < u.numel) :
    multiReduction .add axes t v 0x00000000#32 h hφ hacc = Host.reduceAdd v (constant u .f32 0x00000000#32) h' hu := by
  funext j
  show Ideal.reduceAdd h v j = Ideal.hostReduceAdd h' v (Ideal.ofBits .f32 0x00000000#32) j
  unfold Ideal.reduceAdd Ideal.hostReduceAdd
  rw [Ideal.ofBits_zero_f32, zero_add, Shape.ReducesTo.drop_eq_drop h' h]

/-- The reshape `[n] → [1, n]` is the broadcast of the vector along the new unit axis. -/
theorem castRow {n : ℕ} (v : (⟨1, ![n]⟩ : Shape).Idx → α) (h : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v h = broadcastInDim ⟨2, ![1, n]⟩ (![1] : Fin 1 → Fin 2) hb v := by
  funext j
  obtain ⟨u, q, rfl⟩ : ∃ (u : Fin 1) (q : Fin n), j = ix2 u q := ⟨j 0, j 1, eq_ix2 j⟩
  rw [shapeCast_a_1a_apply]
  refine (broadcastInDim_apply _ hb v (ix2 u q) (ix1 q) fun a => ?_).symm
  match a with
  | ⟨0, _⟩ =>
    show q.val = if n = 1 then 0 else q.val
    split
    · have := q.isLt; omega
    · rfl

/-- One row repeated over `m` rows, as the body's broadcast and as the host's. -/
theorem bcastRows {m n : ℕ} (r : (⟨2, ![1, n]⟩ : Shape).Idx → α) (h : (⟨2, ![1, n]⟩ : Shape).Broadcasts ⟨2, ![m, n]⟩)
    (hb : (⟨2, ![1, n]⟩ : Shape).BroadcastsInDim ⟨2, ![m, n]⟩ (![0, 1] : Fin 2 → Fin 2)) :
    broadcastTo ⟨2, ![m, n]⟩ r h = broadcastInDim ⟨2, ![m, n]⟩ (![0, 1] : Fin 2 → Fin 2) hb r := by
  funext j
  obtain ⟨p, q, rfl⟩ : ∃ (p : Fin m) (q : Fin n), j = ix2 p q := ⟨j 0, j 1, eq_ix2 j⟩
  rw [broadcastTo_1b_ab_apply]
  refine (broadcastInDim_apply _ hb r (ix2 p q) (ix2 (0 : Fin 1) q) fun a => ?_).symm
  match a with
  | ⟨0, _⟩ => rfl
  | ⟨1, _⟩ =>
    show q.val = if n = 1 then 0 else q.val
    split
    · have := q.isLt; omega
    · rfl

/-- A scalar constant spread over a shape, as the body's splat and as the host's broadcast of a rank-0 constant. -/
theorem splat {s : Shape} (w : BitVec 32) (dims : Fin 0 → Fin s.rank)
    (hb : (⟨0, ![]⟩ : Shape).BroadcastsInDim s dims) :
    broadcast s (Scalar.ofBits (F := Ideal) .f32 w) = broadcastInDim s dims hb (constant (F := Ideal) ⟨0, ![]⟩ .f32 w) := rfl

/-- The body's quotient and reciprocal square root are the host's. -/
theorem divf_eq_host {s : Shape} (a b : FVec Ideal s .f32) : divf a b = Host.divf a b := rfl
theorem rsqrt_eq_host {s : Shape} (a : FVec Ideal s .f32) : rsqrt a = Host.rsqrt a := rfl

/-- A broadcast commutes with the elementwise operations … -/
theorem bcast_divf {s t : Shape} (dims : Fin s.rank → Fin t.rank) (hb : s.BroadcastsInDim t dims) (a b : FVec Ideal s .f32) :
    broadcastInDim t dims hb (Host.divf a b) = Host.divf (broadcastInDim t dims hb a) (broadcastInDim t dims hb b) := rfl
theorem bcast_addf {s t : Shape} (dims : Fin s.rank → Fin t.rank) (hb : s.BroadcastsInDim t dims) (a b : FVec Ideal s .f32) :
    broadcastInDim t dims hb (addf a b) = addf (broadcastInDim t dims hb a) (broadcastInDim t dims hb b) := rfl
theorem bcast_rsqrt {s t : Shape} (dims : Fin s.rank → Fin t.rank) (hb : s.BroadcastsInDim t dims) (a : FVec Ideal s .f32) :
    broadcastInDim t dims hb (Host.rsqrt a) = Host.rsqrt (broadcastInDim t dims hb a) := rfl
/-- … and a broadcast of a spread scalar is the scalar spread over the larger shape. -/
theorem bcast_splat {s t : Shape} (dims : Fin s.rank → Fin t.rank) (hb : s.BroadcastsInDim t dims)
    (d0 : Fin 0 → Fin s.rank) (hb0 : (⟨0, ![]⟩ : Shape).BroadcastsInDim s d0)
    (d1 : Fin 0 → Fin t.rank) (hb1 : (⟨0, ![]⟩ : Shape).BroadcastsInDim t d1) (x : (⟨0, ![]⟩ : Shape).Idx → α) :
    broadcastInDim t dims hb (broadcastInDim s d0 hb0 x) = broadcastInDim t d1 hb1 x := by
  funext j
  unfold broadcastInDim
  exact congrArg x (funext fun a => a.elim0)

/-- So the reciprocal square root of a vector plus a spread scalar, broadcast, is that of the broadcast vector plus the
    scalar spread over the larger shape. -/
theorem bcast_rsqrt_add {s t : Shape} (dims : Fin s.rank → Fin t.rank) (hb : s.BroadcastsInDim t dims) (a : FVec Ideal s .f32)
    (d0 : Fin 0 → Fin s.rank) (hb0 : (⟨0, ![]⟩ : Shape).BroadcastsInDim s d0)
    (d1 : Fin 0 → Fin t.rank) (hb1 : (⟨0, ![]⟩ : Shape).BroadcastsInDim t d1) (x : FVec Ideal ⟨0, ![]⟩ .f32) :
    broadcastInDim t dims hb (Host.rsqrt (addf a (broadcastInDim s d0 hb0 x)))
      = Host.rsqrt (addf (broadcastInDim t dims hb a) (broadcastInDim t d1 hb1 x)) := by
  rw [bcast_rsqrt, bcast_addf, bcast_splat dims hb d0 hb0 d1 hb1 x]

/-- Likewise a quotient by a spread scalar. -/
theorem bcast_div_splat {s t : Shape} (dims : Fin s.rank → Fin t.rank) (hb : s.BroadcastsInDim t dims) (a : FVec Ideal s .f32)
    (d0 : Fin 0 → Fin s.rank) (hb0 : (⟨0, ![]⟩ : Shape).BroadcastsInDim s d0)
    (d1 : Fin 0 → Fin t.rank) (hb1 : (⟨0, ![]⟩ : Shape).BroadcastsInDim t d1) (x : FVec Ideal ⟨0, ![]⟩ .f32) :
    broadcastInDim t dims hb (Host.divf a (broadcastInDim s d0 hb0 x))
      = Host.divf (broadcastInDim t dims hb a) (broadcastInDim t d1 hb1 x) := by
  rw [bcast_divf, bcast_splat dims hb d0 hb0 d1 hb1 x]

/-! ### The reference variance's divisor and guard -/

/-- The word `0x43000000` denotes 128. -/
theorem ofBits_128 : Ideal.ofBits .f32 0x43000000#32 = ((128 : ℝ) : EReal) := by
  simp [Ideal.ofBits, Ideal.ieee, -EReal.coe_mul]; norm_num

/-- The integer correction 0 converts to the real 0. -/
theorem sitofp_zero : (((0#32 : BitVec 32).toInt : ℝ) : EReal) = 0 := by simp

/-- 128 - 0 is above zero: the guard holds. -/
theorem varDen_pos : Ideal.cmp .ogt (Ideal.ofBits .f32 0x43000000#32 - (((0#32 : BitVec 32).toInt : ℝ) : EReal))
    (Ideal.ofBits .f32 0x00000000#32) = 1#1 := by
  rw [sitofp_zero, sub_zero, ofBits_128, Ideal.ofBits_zero_f32]
  have h : (0 : EReal) < ((128 : ℝ) : EReal) := by exact_mod_cast (by norm_num : (0 : ℝ) < 128)
  simp [Ideal.cmp, h]

/-- The divisor 128 - 0 is 128. -/
theorem varDen_eq : Cert.ReferenceIdeal.Spec.varDen (F := Ideal) = constant (F := Ideal) Cert.ReferenceIdeal.S_ .f32 0x43000000#32 := by
  funext k
  show Ideal.ofBits .f32 0x43000000#32 - (((0#32 : BitVec 32).toInt : ℝ) : EReal) = Ideal.ofBits .f32 0x43000000#32
  rw [sitofp_zero, sub_zero]

/-- Under the guard "the divisor is positive" the guarded value is the quotient itself. -/
theorem guard_select {t : Shape} (dims : Fin 0 → Fin t.rank) (hb : Cert.ReferenceIdeal.S_.BroadcastsInDim t dims)
    (A B : FVec Ideal t .f32) :
    select (broadcastInDim t dims hb (cmpf (F := Ideal) (φ := .f32) .ogt (Cert.ReferenceIdeal.Spec.varDen (F := Ideal))
      (constant (F := Ideal) Cert.ReferenceIdeal.S_ .f32 0x00000000#32))) A B = A := by
  funext j
  rw [select_apply]
  have hc : broadcastInDim t dims hb (cmpf (F := Ideal) (φ := .f32) .ogt (Cert.ReferenceIdeal.Spec.varDen (F := Ideal))
      (constant (F := Ideal) Cert.ReferenceIdeal.S_ .f32 0x00000000#32)) j = 1#1 := varDen_pos
  rw [hc, select_one]

/-- An affine map of the body — operands narrowed to bf16, zero accumulator, the bias row `[1, n]` repeated over the
    rows — is the host's: the product plus the bias broadcast along the rows. -/
theorem lin_eq {m k n : ℕ} (d d' : DotDims ⟨2, ![m, k]⟩ ⟨2, ![k, n]⟩ ⟨2, ![m, n]⟩) (hd : d = d')
    (x : FVec Ideal ⟨2, ![m, k]⟩ .f32) (W : FVec Ideal ⟨2, ![k, n]⟩ .f32) (b : FVec Ideal ⟨1, ![n]⟩ .f32)
    (hlt hlt' : FTy.bits .bf16 < FTy.bits .f32)
    (hc : (⟨1, ![n]⟩ : Shape).ShapeCasts ⟨2, ![1, n]⟩) (hs : (⟨2, ![1, n]⟩ : Shape).ShapeCasts ⟨2, ![1, n]⟩)
    (hbt : (⟨2, ![1, n]⟩ : Shape).Broadcasts ⟨2, ![m, n]⟩)
    (hb1 : (⟨1, ![n]⟩ : Shape).BroadcastsInDim ⟨2, ![1, n]⟩ (![1] : Fin 1 → Fin 2))
    (hb2 : (⟨2, ![1, n]⟩ : Shape).BroadcastsInDim ⟨2, ![m, n]⟩ (![0, 1] : Fin 2 → Fin 2)) :
    addf (matmul d none (truncf .bf16 x hlt) (truncf .bf16 W hlt') (constant ⟨2, ![m, n]⟩ .f32 0x00000000#32))
        (broadcastTo ⟨2, ![m, n]⟩ (shapeCast ⟨2, ![1, n]⟩ (shapeCast ⟨2, ![1, n]⟩ b hc) hs) hbt)
      = addf (Host.dotGeneral d' none x W)
        (broadcastInDim ⟨2, ![m, n]⟩ (![0, 1] : Fin 2 → Fin 2) hb2
          (broadcastInDim ⟨2, ![1, n]⟩ (![1] : Fin 1 → Fin 2) hb1 b)) := by
  subst hd
  rw [mm_eq, shapeCast_self (shapeCast (⟨2, ![1, n]⟩ : Shape) b hc) hs, castRow b hc hb1, bcastRows _ hbt hb2]

end Operators

/-! ## The stages of the body, each on whole vectors

Each definition below is one stretch of the body's arithmetic as a function of its operands; the body's payloads are
compositions of them, definitionally. Each is then identified with the reference's stage of the same name. -/

/-- The prompt's affine map as the body computes it. -/
def kproj (x : FVec Ideal S128x2 .f32) (W : FVec Ideal S2x2 .f32) (b : FVec Ideal S1x2 .f32) : FVec Ideal S128x2 .f32 :=
  addf (matmul dot_S128x2_S2x2_S128x2_1_0_0_1_n_n none (truncf .bf16 x bitsLt_bf16_f32) (truncf .bf16 W bitsLt_bf16_f32)
      (constant S128x2 .f32 0x00000000#32))
    (broadcastTo S128x2 (shapeCast S1x2 b shapeCasts_S1x2_S1x2) broadcasts_S1x2_S128x2)

theorem kproj_eq (x : FVec Ideal S128x2 .f32) (W : FVec Ideal S2x2 .f32) (bv : FVec Ideal S2 .f32) :
    kproj x W (shapeCast S1x2 bv shapeCasts_S2_S1x2) = Cert.ReferenceIdeal.Spec.proj (F := Ideal) x W bv :=
  lin_eq dot_S128x2_S2x2_S128x2_1_0_0_1_n_n Cert.ReferenceIdeal.dot_S128x2_S2x2_S128x2_1_0_0_1_n_n rfl x W bv _ _ _ _ _
    Cert.ReferenceIdeal.Gen.bcast_S2_S1x2_1 Cert.ReferenceIdeal.Gen.bcast_S1x2_S128x2_0_1

/-- Pooled features and projected prompt side by side, as the body concatenates them. -/
def kcat (a : FVec Ideal S128x512 .f32) (b : FVec Ideal S128x2 .f32) : FVec Ideal S128x514 .f32 :=
  concatenate S128x514 1 [⟨S128x512, shapeCast S128x512 a shapeCasts_S128x512_S128x512⟩, ⟨S128x2, b⟩]
    concatenates_S128x512_S128x2_S128x514_d1

theorem kcat_eq (a : FVec Ideal S128x512 .f32) (b : FVec Ideal S128x2 .f32) :
    kcat a b = Cert.ReferenceIdeal.Spec.cat (F := Ideal) a b := by
  unfold kcat
  rw [shapeCast_self]
  rfl

/-- The first affine map of the pooled block as the body computes it. -/
def kz0 (x : FVec Ideal S128x514 .f32) (W : FVec Ideal S514x1024 .f32) (b : FVec Ideal S1x1024 .f32) :
    FVec Ideal S128x1024 .f32 :=
  addf (matmul dot_S128x514_S514x1024_S128x1024_1_0_0_1_n_n none (truncf .bf16 x bitsLt_bf16_f32)
      (truncf .bf16 W bitsLt_bf16_f32) (constant S128x1024 .f32 0x00000000#32))
    (broadcastTo S128x1024 (shapeCast S1x1024 b shapeCasts_S1x1024_S1x1024) broadcasts_S1x1024_S128x1024)

theorem kz0_eq (x : FVec Ideal S128x514 .f32) (W : FVec Ideal S514x1024 .f32) (bv : FVec Ideal S1024 .f32) :
    kz0 x W (shapeCast S1x1024 bv shapeCasts_S1024_S1x1024) = Cert.ReferenceIdeal.Spec.lin0 (F := Ideal) x W bv :=
  lin_eq dot_S128x514_S514x1024_S128x1024_1_0_0_1_n_n Cert.ReferenceIdeal.dot_S128x514_S514x1024_S128x1024_1_0_0_1_n_n rfl
    x W bv _ _ _ _ _ Cert.ReferenceIdeal.Gen.bcast_S1024_S1x1024_1 Cert.ReferenceIdeal.Gen.bcast_S1x1024_S128x1024_0_1

/-- The second affine map as the body computes it. -/
def kz1 (x : FVec Ideal S128x1024 .f32) (W : FVec Ideal S1024x512 .f32) (b : FVec Ideal S1x512 .f32) :
    FVec Ideal S128x512 .f32 :=
  addf (matmul dot_S128x1024_S1024x512_S128x512_1_0_0_1_n_n none (truncf .bf16 x bitsLt_bf16_f32)
      (truncf .bf16 W bitsLt_bf16_f32) (constant S128x512 .f32 0x00000000#32))
    (broadcastTo S128x512 (shapeCast S1x512 b shapeCasts_S1x512_S1x512) broadcasts_S1x512_S128x512)

theorem kz1_eq (x : FVec Ideal S128x1024 .f32) (W : FVec Ideal S1024x512 .f32) (bv : FVec Ideal S512 .f32) :
    kz1 x W (shapeCast S1x512 bv shapeCasts_S512_S1x512) = Cert.ReferenceIdeal.Spec.lin1 (F := Ideal) x W bv :=
  lin_eq dot_S128x1024_S1024x512_S128x512_1_0_0_1_n_n Cert.ReferenceIdeal.dot_S128x1024_S1024x512_S128x512_1_0_0_1_n_n rfl
    x W bv _ _ _ _ _ Cert.ReferenceIdeal.Gen.bcast_S512_S1x512_1 Cert.ReferenceIdeal.Gen.bcast_S1x512_S128x512_0_1

/-- The last affine map as the body computes it. -/
def kz2 (x : FVec Ideal S128x512 .f32) (W : FVec Ideal S512x100 .f32) (b : FVec Ideal S1x100 .f32) :
    FVec Ideal S128x100 .f32 :=
  addf (matmul dot_S128x512_S512x100_S128x100_1_0_0_1_n_n none (truncf .bf16 x bitsLt_bf16_f32)
      (truncf .bf16 W bitsLt_bf16_f32) (constant S128x100 .f32 0x00000000#32))
    (broadcastTo S128x100 (shapeCast S1x100 b shapeCasts_S1x100_S1x100) broadcasts_S1x100_S128x100)

theorem kz2_eq (x : FVec Ideal S128x512 .f32) (W : FVec Ideal S512x100 .f32) (bv : FVec Ideal S100 .f32) :
    kz2 x W (shapeCast S1x100 bv shapeCasts_S100_S1x100) = Cert.ReferenceIdeal.Spec.lin2 (F := Ideal) x W bv :=
  lin_eq dot_S128x512_S512x100_S128x100_1_0_0_1_n_n Cert.ReferenceIdeal.dot_S128x512_S512x100_S128x100_1_0_0_1_n_n rfl
    x W bv _ _ _ _ _ Cert.ReferenceIdeal.Gen.bcast_S100_S1x100_1 Cert.ReferenceIdeal.Gen.bcast_S1x100_S128x100_0_1

/-! ### Batch normalisation over the 1024 columns -/

/-- The body's deviations from the column means: the lane sum over the 128 rows, reshaped to a row, divided by 128,
    repeated over the rows and subtracted. -/
def kdev0 (z : FVec Ideal S128x1024 .f32) : FVec Ideal S128x1024 .f32 :=
  subf z (broadcastTo S128x1024
    (divf (shapeCast S1x1024 (multiReduction .add [0] S1024 z 0x00000000#32 reduces_S128x1024_S1024 (.inl rfl) rfl)
        shapeCasts_S1024_S1x1024)
      (broadcast S1x1024 (Scalar.ofBits (F := Ideal) .f32 0x43000000#32)))
    broadcasts_S1x1024_S128x1024)

/-- The body's column variances, as a row: the squared deviations summed over the rows and divided by 128. -/
def kvar0 (z : FVec Ideal S128x1024 .f32) : FVec Ideal S1x1024 .f32 :=
  divf (shapeCast S1x1024
      (multiReduction .add [0] S1024 (mulf (kdev0 z) (kdev0 z)) 0x00000000#32 reduces_S128x1024_S1024 (.inl rfl) rfl)
      shapeCasts_S1024_S1x1024)
    (broadcast S1x1024 (Scalar.ofBits (F := Ideal) .f32 0x43000000#32))

/-- The body's normalisation and relu: relu (g · d · rsqrt (v + eps) + be), the rows g and be given as [1, n] blocks. -/
def kbn0 (z : FVec Ideal S128x1024 .f32) (xg xb : FVec Ideal S1x1024 .f32) : FVec Ideal S128x1024 .f32 :=
  maximumf
    (addf
      (mulf
        (mulf (broadcastTo S128x1024 (shapeCast S1x1024 xg shapeCasts_S1x1024_S1x1024) broadcasts_S1x1024_S128x1024)
          (kdev0 z))
        (broadcastTo S128x1024
          (rsqrt (addf (kvar0 z) (broadcast S1x1024 (Scalar.ofBits (F := Ideal) .f32 0x3727C5AC#32))))
          broadcasts_S1x1024_S128x1024))
      (broadcastTo S128x1024 (shapeCast S1x1024 xb shapeCasts_S1x1024_S1x1024) broadcasts_S1x1024_S128x1024))
    (broadcast S128x1024 (Scalar.ofBits (F := Ideal) .f32 0x00000000#32))

/-- The reference's deviations as its variance spells them: the column mean kept as a row, divided in the [1, n] layout. -/
def hdev0 (z : FVec Ideal S128x1024 .f32) : FVec Ideal S128x1024 .f32 :=
  subf z (broadcastInDim S128x1024 (![0, 1] : Fin 2 → Fin 2) Cert.ReferenceIdeal.Gen.bcast_S1x1024_S128x1024_0_1
    (Host.divf
      (broadcastInDim S1x1024 (![1] : Fin 1 → Fin 2) Cert.ReferenceIdeal.Gen.bcast_S1024_S1x1024_1
        (Host.reduceAdd z (constant S_ .f32 0x00000000#32) Cert.ReferenceIdeal.Gen.reducesTo_S128x1024_S1024_d0
          Cert.ReferenceIdeal.Gen.h_S_))
      (broadcastInDim S1x1024 (![] : Fin 0 → Fin 2) Cert.ReferenceIdeal.Gen.bcast_S_S1x1024
        (constant S_ .f32 0x43000000#32))))

/-- The body's deviations are the reference's, operation by operation. -/
theorem kdev0_eq (z : FVec Ideal S128x1024 .f32) : kdev0 z = hdev0 z := by
  unfold kdev0 hdev0
  rw [sum_eq_hostSum z _ _ _ Cert.ReferenceIdeal.Gen.reducesTo_S128x1024_S1024_d0 Cert.ReferenceIdeal.Gen.h_S_,
    castRow _ _ Cert.ReferenceIdeal.Gen.bcast_S1024_S1x1024_1, splat _ _ Cert.ReferenceIdeal.Gen.bcast_S_S1x1024, divf_eq_host,
    bcastRows _ _ Cert.ReferenceIdeal.Gen.bcast_S1x1024_S128x1024_0_1]
  all_goals rfl

/-- Dividing by 128 before or after the reshape to a row is the same: the deviations are those from the column means. -/
theorem hdev0_mean (z : FVec Ideal S128x1024 .f32) :
    hdev0 z = subf z (broadcastInDim S128x1024 (![0, 1] : Fin 2 → Fin 2) Cert.ReferenceIdeal.Gen.bcast_S1x1024_S128x1024_0_1
      (broadcastInDim S1x1024 (![1] : Fin 1 → Fin 2) Cert.ReferenceIdeal.Gen.bcast_S1024_S1x1024_1
        (Cert.ReferenceIdeal.Spec.mean0 (F := Ideal) z))) := by
  unfold hdev0 Cert.ReferenceIdeal.Spec.mean0
  rw [bcast_div_splat (![1] : Fin 1 → Fin 2) Cert.ReferenceIdeal.Gen.bcast_S1024_S1x1024_1 _ _
    Cert.ReferenceIdeal.Gen.bcast_S_S1024 _ Cert.ReferenceIdeal.Gen.bcast_S_S1x1024]
  all_goals rfl

/-- The reference's guarded variance is the sum of squared deviations over 128: the guard 128 - 0 > 0 holds. -/
theorem spec_var0 (z : FVec Ideal S128x1024 .f32) :
    Cert.ReferenceIdeal.Spec.var0 (F := Ideal) z
      = Host.divf
          (Host.reduceAdd (mulf (hdev0 z) (hdev0 z)) (constant S_ .f32 0x00000000#32)
            Cert.ReferenceIdeal.Gen.reducesTo_S128x1024_S1024_d0 Cert.ReferenceIdeal.Gen.h_S_)
          (broadcastInDim S1024 (![] : Fin 0 → Fin 1) Cert.ReferenceIdeal.Gen.bcast_S_S1024
            (constant S_ .f32 0x43000000#32)) := by
  unfold Cert.ReferenceIdeal.Spec.var0
  rw [guard_select, varDen_eq]
  all_goals rfl

/-- The body's variance row is the reference's variance, reshaped to a row. -/
theorem kvar0_eq (z : FVec Ideal S128x1024 .f32) :
    kvar0 z = broadcastInDim S1x1024 (![1] : Fin 1 → Fin 2) Cert.ReferenceIdeal.Gen.bcast_S1024_S1x1024_1
      (Cert.ReferenceIdeal.Spec.var0 (F := Ideal) z) := by
  unfold kvar0
  rw [kdev0_eq, sum_eq_hostSum _ _ _ _ Cert.ReferenceIdeal.Gen.reducesTo_S128x1024_S1024_d0 Cert.ReferenceIdeal.Gen.h_S_,
    castRow _ _ Cert.ReferenceIdeal.Gen.bcast_S1024_S1x1024_1, splat _ _ Cert.ReferenceIdeal.Gen.bcast_S_S1x1024, divf_eq_host,
    spec_var0,
    bcast_div_splat (![1] : Fin 1 → Fin 2) Cert.ReferenceIdeal.Gen.bcast_S1024_S1x1024_1 _ _
      Cert.ReferenceIdeal.Gen.bcast_S_S1024 _ Cert.ReferenceIdeal.Gen.bcast_S_S1x1024]
  all_goals rfl

/-- The body's normalisation and relu over 1024 columns is the reference's. -/
theorem kbn0_eq (z : FVec Ideal S128x1024 .f32) (g be : FVec Ideal S1024 .f32) :
    kbn0 z (shapeCast S1x1024 g shapeCasts_S1024_S1x1024) (shapeCast S1x1024 be shapeCasts_S1024_S1x1024)
      = Cert.ReferenceIdeal.Spec.bnrelu0 (F := Ideal) z g be := by
  unfold kbn0 Cert.ReferenceIdeal.Spec.bnrelu0
  rw [kvar0_eq, kdev0_eq, hdev0_mean,
    bcast_rsqrt_add (![1] : Fin 1 → Fin 2) Cert.ReferenceIdeal.Gen.bcast_S1024_S1x1024_1 _ _
      Cert.ReferenceIdeal.Gen.bcast_S_S1024 _ Cert.ReferenceIdeal.Gen.bcast_S_S1x1024]
  simp only [shapeCast_self, castRow _ _ Cert.ReferenceIdeal.Gen.bcast_S1024_S1x1024_1,
    bcastRows _ _ Cert.ReferenceIdeal.Gen.bcast_S1x1024_S128x1024_0_1, splat _ _ Cert.ReferenceIdeal.Gen.bcast_S_S1x1024,
    splat _ _ Cert.ReferenceIdeal.Gen.bcast_S_S128x1024, rsqrt_eq_host]
  all_goals rfl

/-! ### Batch normalisation over the 512 columns -/

/-- The body's deviations from the column means, over 512 columns. -/
def kdev1 (z : FVec Ideal S128x512 .f32) : FVec Ideal S128x512 .f32 :=
  subf z (broadcastTo S128x512
    (divf (shapeCast S1x512 (multiReduction .add [0] S512 z 0x00000000#32 reduces_S128x512_S512 (.inl rfl) rfl)
        shapeCasts_S512_S1x512)
      (broadcast S1x512 (Scalar.ofBits (F := Ideal) .f32 0x43000000#32)))
    broadcasts_S1x512_S128x512)

/-- The body's column variances over 512 columns, as a row. -/
def kvar1 (z : FVec Ideal S128x512 .f32) : FVec Ideal S1x512 .f32 :=
  divf (shapeCast S1x512
      (multiReduction .add [0] S512 (mulf (kdev1 z) (kdev1 z)) 0x00000000#32 reduces_S128x512_S512 (.inl rfl) rfl)
      shapeCasts_S512_S1x512)
    (broadcast S1x512 (Scalar.ofBits (F := Ideal) .f32 0x43000000#32))

/-- The body's normalisation and relu over 512 columns. -/
def kbn1 (z : FVec Ideal S128x512 .f32) (xg xb : FVec Ideal S1x512 .f32) : FVec Ideal S128x512 .f32 :=
  maximumf
    (addf
      (mulf
        (mulf (broadcastTo S128x512 (shapeCast S1x512 xg shapeCasts_S1x512_S1x512) broadcasts_S1x512_S128x512)
          (kdev1 z))
        (broadcastTo S128x512
          (rsqrt (addf (kvar1 z) (broadcast S1x512 (Scalar.ofBits (F := Ideal) .f32 0x3727C5AC#32))))
          broadcasts_S1x512_S128x512))
      (broadcastTo S128x512 (shapeCast S1x512 xb shapeCasts_S1x512_S1x512) broadcasts_S1x512_S128x512))
    (broadcast S128x512 (Scalar.ofBits (F := Ideal) .f32 0x00000000#32))

/-- The reference's deviations over 512 columns as its variance spells them. -/
def hdev1 (z : FVec Ideal S128x512 .f32) : FVec Ideal S128x512 .f32 :=
  subf z (broadcastInDim S128x512 (![0, 1] : Fin 2 → Fin 2) Cert.ReferenceIdeal.Gen.bcast_S1x512_S128x512_0_1
    (Host.divf
      (broadcastInDim S1x512 (![1] : Fin 1 → Fin 2) Cert.ReferenceIdeal.Gen.bcast_S512_S1x512_1
        (Host.reduceAdd z (constant S_ .f32 0x00000000#32) Cert.ReferenceIdeal.Gen.reducesTo_S128x512_S512_d0
          Cert.ReferenceIdeal.Gen.h_S_))
      (broadcastInDim S1x512 (![] : Fin 0 → Fin 2) Cert.ReferenceIdeal.Gen.bcast_S_S1x512
        (constant S_ .f32 0x43000000#32))))

theorem kdev1_eq (z : FVec Ideal S128x512 .f32) : kdev1 z = hdev1 z := by
  unfold kdev1 hdev1
  rw [sum_eq_hostSum z _ _ _ Cert.ReferenceIdeal.Gen.reducesTo_S128x512_S512_d0 Cert.ReferenceIdeal.Gen.h_S_,
    castRow _ _ Cert.ReferenceIdeal.Gen.bcast_S512_S1x512_1, splat _ _ Cert.ReferenceIdeal.Gen.bcast_S_S1x512, divf_eq_host,
    bcastRows _ _ Cert.ReferenceIdeal.Gen.bcast_S1x512_S128x512_0_1]
  all_goals rfl

theorem hdev1_mean (z : FVec Ideal S128x512 .f32) :
    hdev1 z = subf z (broadcastInDim S128x512 (![0, 1] : Fin 2 → Fin 2) Cert.ReferenceIdeal.Gen.bcast_S1x512_S128x512_0_1
      (broadcastInDim S1x512 (![1] : Fin 1 → Fin 2) Cert.ReferenceIdeal.Gen.bcast_S512_S1x512_1
        (Cert.ReferenceIdeal.Spec.mean1 (F := Ideal) z))) := by
  unfold hdev1 Cert.ReferenceIdeal.Spec.mean1
  rw [bcast_div_splat (![1] : Fin 1 → Fin 2) Cert.ReferenceIdeal.Gen.bcast_S512_S1x512_1 _ _
    Cert.ReferenceIdeal.Gen.bcast_S_S512 _ Cert.ReferenceIdeal.Gen.bcast_S_S1x512]
  all_goals rfl

theorem spec_var1 (z : FVec Ideal S128x512 .f32) :
    Cert.ReferenceIdeal.Spec.var1 (F := Ideal) z
      = Host.divf
          (Host.reduceAdd (mulf (hdev1 z) (hdev1 z)) (constant S_ .f32 0x00000000#32)
            Cert.ReferenceIdeal.Gen.reducesTo_S128x512_S512_d0 Cert.ReferenceIdeal.Gen.h_S_)
          (broadcastInDim S512 (![] : Fin 0 → Fin 1) Cert.ReferenceIdeal.Gen.bcast_S_S512
            (constant S_ .f32 0x43000000#32)) := by
  unfold Cert.ReferenceIdeal.Spec.var1
  rw [guard_select, varDen_eq]
  all_goals rfl

theorem kvar1_eq (z : FVec Ideal S128x512 .f32) :
    kvar1 z = broadcastInDim S1x512 (![1] : Fin 1 → Fin 2) Cert.ReferenceIdeal.Gen.bcast_S512_S1x512_1
      (Cert.ReferenceIdeal.Spec.var1 (F := Ideal) z) := by
  unfold kvar1
  rw [kdev1_eq, sum_eq_hostSum _ _ _ _ Cert.ReferenceIdeal.Gen.reducesTo_S128x512_S512_d0 Cert.ReferenceIdeal.Gen.h_S_,
    castRow _ _ Cert.ReferenceIdeal.Gen.bcast_S512_S1x512_1, splat _ _ Cert.ReferenceIdeal.Gen.bcast_S_S1x512, divf_eq_host,
    spec_var1,
    bcast_div_splat (![1] : Fin 1 → Fin 2) Cert.ReferenceIdeal.Gen.bcast_S512_S1x512_1 _ _
      Cert.ReferenceIdeal.Gen.bcast_S_S512 _ Cert.ReferenceIdeal.Gen.bcast_S_S1x512]
  all_goals rfl

/-- The body's normalisation and relu over 512 columns is the reference's. -/
theorem kbn1_eq (z : FVec Ideal S128x512 .f32) (g be : FVec Ideal S512 .f32) :
    kbn1 z (shapeCast S1x512 g shapeCasts_S512_S1x512) (shapeCast S1x512 be shapeCasts_S512_S1x512)
      = Cert.ReferenceIdeal.Spec.bnrelu1 (F := Ideal) z g be := by
  unfold kbn1 Cert.ReferenceIdeal.Spec.bnrelu1
  rw [kvar1_eq, kdev1_eq, hdev1_mean,
    bcast_rsqrt_add (![1] : Fin 1 → Fin 2) Cert.ReferenceIdeal.Gen.bcast_S512_S1x512_1 _ _
      Cert.ReferenceIdeal.Gen.bcast_S_S512 _ Cert.ReferenceIdeal.Gen.bcast_S_S1x512]
  simp only [shapeCast_self, castRow _ _ Cert.ReferenceIdeal.Gen.bcast_S512_S1x512_1,
    bcastRows _ _ Cert.ReferenceIdeal.Gen.bcast_S1x512_S128x512_0_1, splat _ _ Cert.ReferenceIdeal.Gen.bcast_S_S1x512,
    splat _ _ Cert.ReferenceIdeal.Gen.bcast_S_S128x512, rsqrt_eq_host]
  all_goals rfl

/-! ## The body's payload is the reference's pooled block -/

/-- The store's payload, of the whole operand arrays with each [1, n] operand the reshape of its vector, is `mlp`:
    the payloads are the stages above composed, and each stage is the reference's. -/
theorem pay_eq (x0 : FVec Ideal S128x512 .f32) (x1 : FVec Ideal S128x2 .f32) (x2 : FVec Ideal S2x2 .f32) (bp : FVec Ideal S2 .f32)
    (x4 : FVec Ideal S514x1024 .f32) (bm0 g0 be0 : FVec Ideal S1024 .f32) (x8 : FVec Ideal S1024x512 .f32)
    (bm1 g1 be1 : FVec Ideal S512 .f32) (x12 : FVec Ideal S512x100 .f32) (bm2 : FVec Ideal S100 .f32) :
    k2_pay1 (F := Ideal)
        (k2_pay6 (F := Ideal) (k2_pay2 (F := Ideal) (shapeCast S1x1024 be0 shapeCasts_S1024_S1x1024))
          (k2_pay4 (F := Ideal) x0 x1 x2 (shapeCast S1x2 bp shapeCasts_S2_S1x2) x4 (shapeCast S1x1024 bm0 shapeCasts_S1024_S1x1024))
          (k2_pay5 (F := Ideal) x0 x1 x2 (shapeCast S1x2 bp shapeCasts_S2_S1x2) x4 (shapeCast S1x1024 bm0 shapeCasts_S1024_S1x1024)
            (shapeCast S1x1024 g0 shapeCasts_S1024_S1x1024))
          x8 (shapeCast S1x512 bm1 shapeCasts_S512_S1x512) (shapeCast S1x512 g1 shapeCasts_S512_S1x512)
          (shapeCast S1x512 be1 shapeCasts_S512_S1x512))
        x12 (shapeCast S1x100 bm2 shapeCasts_S100_S1x100)
      = Cert.ReferenceIdeal.Spec.mlp (F := Ideal) x0 x1 x2 bp x4 bm0 g0 be0 x8 bm1 g1 be1 x12 bm2 := by
  show kz2
      (kbn1
        (kz1
          (kbn0 (kz0 (kcat x0 (kproj x1 x2 (shapeCast S1x2 bp shapeCasts_S2_S1x2))) x4
              (shapeCast S1x1024 bm0 shapeCasts_S1024_S1x1024))
            (shapeCast S1x1024 g0 shapeCasts_S1024_S1x1024) (shapeCast S1x1024 be0 shapeCasts_S1024_S1x1024))
          x8 (shapeCast S1x512 bm1 shapeCasts_S512_S1x512))
        (shapeCast S1x512 g1 shapeCasts_S512_S1x512) (shapeCast S1x512 be1 shapeCasts_S512_S1x512))
      x12 (shapeCast S1x100 bm2 shapeCasts_S100_S1x100) = _
  rw [kproj_eq, kcat_eq, kz0_eq, kbn0_eq, kz1_eq, kbn1_eq, kz2_eq]
  rfl

/-! ## From the one block to the array

The grid has one point and every index map is the constant (0, 0) with the block the whole array: each input block is its
array, the one store leaves the payload of the whole arrays, and the write-back of the one point covers the output. -/

variable (V : (c : Dev nD) → (b : Ref sig .tc) → Buf (Elt Ideal) ((c : Thread nD τ).loc b))

theorem hz : (![0, 0] : Fin 2 → Nat) = fun _ => 0 := funext fun a => by fin_cases a <;> rfl

/-! ### The index maps, decided over the grid: every block index is 0 -/

theorem idx0 : ∀ t : Fin cfg2.N, win2_0.index t (0 : Fin 2) = 0 ∧ win2_0.index t (1 : Fin 2) = 0 :=
  (by decide +kernel : ∀ t : Fin grid2.N, _)
theorem idx1 : ∀ t : Fin cfg2.N, win2_1.index t (0 : Fin 2) = 0 ∧ win2_1.index t (1 : Fin 2) = 0 :=
  (by decide +kernel : ∀ t : Fin grid2.N, _)
theorem idx2 : ∀ t : Fin cfg2.N, win2_2.index t (0 : Fin 2) = 0 ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 2) = 0 ∧ win2_4.index t (1 : Fin 2) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = 0 ∧ win2_6.index t (1 : Fin 2) = 0 :=
  (by decide +kernel : ∀ t : Fin grid2.N, _)
theorem idx7 : ∀ t : Fin cfg2.N, win2_7.index t (0 : Fin 2) = 0 ∧ win2_7.index t (1 : Fin 2) = 0 :=
  (by decide +kernel : ∀ t : Fin grid2.N, _)
theorem idx8 : ∀ t : Fin cfg2.N, win2_8.index t (0 : Fin 2) = 0 ∧ win2_8.index t (1 : Fin 2) = 0 :=
  (by decide +kernel : ∀ t : Fin grid2.N, _)
theorem idx9 : ∀ t : Fin cfg2.N, win2_9.index t (0 : Fin 2) = 0 ∧ win2_9.index t (1 : Fin 2) = 0 :=
  (by decide +kernel : ∀ t : Fin grid2.N, _)
theorem idx10 : ∀ t : Fin cfg2.N, win2_10.index t (0 : Fin 2) = 0 ∧ win2_10.index t (1 : Fin 2) = 0 :=
  (by decide +kernel : ∀ t : Fin grid2.N, _)
theorem idx11 : ∀ t : Fin cfg2.N, win2_11.index t (0 : Fin 2) = 0 ∧ win2_11.index t (1 : Fin 2) = 0 :=
  (by decide +kernel : ∀ t : Fin grid2.N, _)
theorem idx12 : ∀ t : Fin cfg2.N, win2_12.index t (0 : Fin 2) = 0 ∧ win2_12.index t (1 : Fin 2) = 0 :=
  (by decide +kernel : ∀ t : Fin grid2.N, _)
theorem idx13 : ∀ t : Fin cfg2.N, win2_13.index t (0 : Fin 2) = 0 ∧ win2_13.index t (1 : Fin 2) = 0 :=
  (by decide +kernel : ∀ t : Fin grid2.N, _)
theorem idx14 : ∀ t : Fin cfg2.N, win2_14.index t (0 : Fin 2) = 0 ∧ win2_14.index t (1 : Fin 2) = 0 :=
  (by decide +kernel : ∀ t : Fin grid2.N, _)

/-! ### Each input block is its whole array: a block's coordinate is index × size + the coordinate inside the block -/

theorem blk0 (c : Dev nD) (t : Fin cfg2.N) : (iblk2 (F := Ideal) V c 0 t : FVec Ideal S128x512 .f32) = V c main_v26 := by
  obtain ⟨e0, e1⟩ := idx0 t
  refine funext fun (j : S128x512.Idx) => ?_
  show V c main_v26 (((cfg2.win 0).blk t).view.emb j) = V c main_v26 j
  refine congrArg (V c main_v26) ?_
  funext a; apply Fin.ext
  match a with
  | ⟨0, _⟩ => show win2_0.index t (0 : Fin 2) * 128 + 1 * (j 0).val = (j 0).val; omega
  | ⟨1, _⟩ => show win2_0.index t (1 : Fin 2) * 512 + 1 * (j 1).val = (j 1).val; omega

theorem blk1 (c : Dev nD) (t : Fin cfg2.N) : (iblk2 (F := Ideal) V c 1 t : FVec Ideal S128x2 .f32) = V c main_arg1 := by
  obtain ⟨e0, e1⟩ := idx1 t
  refine funext fun (j : S128x2.Idx) => ?_
  show V c main_arg1 (((cfg2.win 1).blk t).view.emb j) = V c main_arg1 j
  refine congrArg (V c main_arg1) ?_
  funext a; apply Fin.ext
  match a with
  | ⟨0, _⟩ => show win2_1.index t (0 : Fin 2) * 128 + 1 * (j 0).val = (j 0).val; omega
  | ⟨1, _⟩ => show win2_1.index t (1 : Fin 2) * 2 + 1 * (j 1).val = (j 1).val; omega

theorem blk2 (c : Dev nD) (t : Fin cfg2.N) : (iblk2 (F := Ideal) V c 2 t : FVec Ideal S2x2 .f32) = V c main_arg9 := by
  obtain ⟨e0, e1⟩ := idx2 t
  refine funext fun (j : S2x2.Idx) => ?_
  show V c main_arg9 (((cfg2.win 2).blk t).view.emb j) = V c main_arg9 j
  refine congrArg (V c main_arg9) ?_
  funext a; apply Fin.ext
  match a with
  | ⟨0, _⟩ => show win2_2.index t (0 : Fin 2) * 2 + 1 * (j 0).val = (j 0).val; omega
  | ⟨1, _⟩ => show win2_2.index t (1 : Fin 2) * 2 + 1 * (j 1).val = (j 1).val; omega

theorem blk3 (c : Dev nD) (t : Fin cfg2.N) : (iblk2 (F := Ideal) V c 3 t : FVec Ideal S1x2 .f32) = V c main_v27 := by
  obtain ⟨e0, e1⟩ := idx3 t
  refine funext fun (j : S1x2.Idx) => ?_
  show V c main_v27 (((cfg2.win 3).blk t).view.emb j) = V c main_v27 j
  refine congrArg (V c main_v27) ?_
  funext a; apply Fin.ext
  match a with
  | ⟨0, _⟩ => show win2_3.index t (0 : Fin 2) * 1 + 1 * (j 0).val = (j 0).val; omega
  | ⟨1, _⟩ => show win2_3.index t (1 : Fin 2) * 2 + 1 * (j 1).val = (j 1).val; omega

theorem blk4 (c : Dev nD) (t : Fin cfg2.N) : (iblk2 (F := Ideal) V c 4 t : FVec Ideal S514x1024 .f32) = V c main_arg11 := by
  obtain ⟨e0, e1⟩ := idx4 t
  refine funext fun (j : S514x1024.Idx) => ?_
  show V c main_arg11 (((cfg2.win 4).blk t).view.emb j) = V c main_arg11 j
  refine congrArg (V c main_arg11) ?_
  funext a; apply Fin.ext
  match a with
  | ⟨0, _⟩ => show win2_4.index t (0 : Fin 2) * 514 + 1 * (j 0).val = (j 0).val; omega
  | ⟨1, _⟩ => show win2_4.index t (1 : Fin 2) * 1024 + 1 * (j 1).val = (j 1).val; omega

theorem blk5 (c : Dev nD) (t : Fin cfg2.N) : (iblk2 (F := Ideal) V c 5 t : FVec Ideal S1x1024 .f32) = V c main_v28 := by
  obtain ⟨e0, e1⟩ := idx5 t
  refine funext fun (j : S1x1024.Idx) => ?_
  show V c main_v28 (((cfg2.win 5).blk t).view.emb j) = V c main_v28 j
  refine congrArg (V c main_v28) ?_
  funext a; apply Fin.ext
  match a with
  | ⟨0, _⟩ => show win2_5.index t (0 : Fin 2) * 1 + 1 * (j 0).val = (j 0).val; omega
  | ⟨1, _⟩ => show win2_5.index t (1 : Fin 2) * 1024 + 1 * (j 1).val = (j 1).val; omega

theorem blk6 (c : Dev nD) (t : Fin cfg2.N) : (iblk2 (F := Ideal) V c 6 t : FVec Ideal S1x1024 .f32) = V c main_v29 := by
  obtain ⟨e0, e1⟩ := idx6 t
  refine funext fun (j : S1x1024.Idx) => ?_
  show V c main_v29 (((cfg2.win 6).blk t).view.emb j) = V c main_v29 j
  refine congrArg (V c main_v29) ?_
  funext a; apply Fin.ext
  match a with
  | ⟨0, _⟩ => show win2_6.index t (0 : Fin 2) * 1 + 1 * (j 0).val = (j 0).val; omega
  | ⟨1, _⟩ => show win2_6.index t (1 : Fin 2) * 1024 + 1 * (j 1).val = (j 1).val; omega

theorem blk7 (c : Dev nD) (t : Fin cfg2.N) : (iblk2 (F := Ideal) V c 7 t : FVec Ideal S1x1024 .f32) = V c main_v30 := by
  obtain ⟨e0, e1⟩ := idx7 t
  refine funext fun (j : S1x1024.Idx) => ?_
  show V c main_v30 (((cfg2.win 7).blk t).view.emb j) = V c main_v30 j
  refine congrArg (V c main_v30) ?_
  funext a; apply Fin.ext
  match a with
  | ⟨0, _⟩ => show win2_7.index t (0 : Fin 2) * 1 + 1 * (j 0).val = (j 0).val; omega
  | ⟨1, _⟩ => show win2_7.index t (1 : Fin 2) * 1024 + 1 * (j 1).val = (j 1).val; omega

theorem blk8 (c : Dev nD) (t : Fin cfg2.N) : (iblk2 (F := Ideal) V c 8 t : FVec Ideal S1024x512 .f32) = V c main_arg15 := by
  obtain ⟨e0, e1⟩ := idx8 t
  refine funext fun (j : S1024x512.Idx) => ?_
  show V c main_arg15 (((cfg2.win 8).blk t).view.emb j) = V c main_arg15 j
  refine congrArg (V c main_arg15) ?_
  funext a; apply Fin.ext
  match a with
  | ⟨0, _⟩ => show win2_8.index t (0 : Fin 2) * 1024 + 1 * (j 0).val = (j 0).val; omega
  | ⟨1, _⟩ => show win2_8.index t (1 : Fin 2) * 512 + 1 * (j 1).val = (j 1).val; omega

theorem blk9 (c : Dev nD) (t : Fin cfg2.N) : (iblk2 (F := Ideal) V c 9 t : FVec Ideal S1x512 .f32) = V c main_v31 := by
  obtain ⟨e0, e1⟩ := idx9 t
  refine funext fun (j : S1x512.Idx) => ?_
  show V c main_v31 (((cfg2.win 9).blk t).view.emb j) = V c main_v31 j
  refine congrArg (V c main_v31) ?_
  funext a; apply Fin.ext
  match a with
  | ⟨0, _⟩ => show win2_9.index t (0 : Fin 2) * 1 + 1 * (j 0).val = (j 0).val; omega
  | ⟨1, _⟩ => show win2_9.index t (1 : Fin 2) * 512 + 1 * (j 1).val = (j 1).val; omega

theorem blk10 (c : Dev nD) (t : Fin cfg2.N) : (iblk2 (F := Ideal) V c 10 t : FVec Ideal S1x512 .f32) = V c main_v32 := by
  obtain ⟨e0, e1⟩ := idx10 t
  refine funext fun (j : S1x512.Idx) => ?_
  show V c main_v32 (((cfg2.win 10).blk t).view.emb j) = V c main_v32 j
  refine congrArg (V c main_v32) ?_
  funext a; apply Fin.ext
  match a with
  | ⟨0, _⟩ => show win2_10.index t (0 : Fin 2) * 1 + 1 * (j 0).val = (j 0).val; omega
  | ⟨1, _⟩ => show win2_10.index t (1 : Fin 2) * 512 + 1 * (j 1).val = (j 1).val; omega

theorem blk11 (c : Dev nD) (t : Fin cfg2.N) : (iblk2 (F := Ideal) V c 11 t : FVec Ideal S1x512 .f32) = V c main_v33 := by
  obtain ⟨e0, e1⟩ := idx11 t
  refine funext fun (j : S1x512.Idx) => ?_
  show V c main_v33 (((cfg2.win 11).blk t).view.emb j) = V c main_v33 j
  refine congrArg (V c main_v33) ?_
  funext a; apply Fin.ext
  match a with
  | ⟨0, _⟩ => show win2_11.index t (0 : Fin 2) * 1 + 1 * (j 0).val = (j 0).val; omega
  | ⟨1, _⟩ => show win2_11.index t (1 : Fin 2) * 512 + 1 * (j 1).val = (j 1).val; omega

theorem blk12 (c : Dev nD) (t : Fin cfg2.N) : (iblk2 (F := Ideal) V c 12 t : FVec Ideal S512x100 .f32) = V c main_arg19 := by
  obtain ⟨e0, e1⟩ := idx12 t
  refine funext fun (j : S512x100.Idx) => ?_
  show V c main_arg19 (((cfg2.win 12).blk t).view.emb j) = V c main_arg19 j
  refine congrArg (V c main_arg19) ?_
  funext a; apply Fin.ext
  match a with
  | ⟨0, _⟩ => show win2_12.index t (0 : Fin 2) * 512 + 1 * (j 0).val = (j 0).val; omega
  | ⟨1, _⟩ => show win2_12.index t (1 : Fin 2) * 100 + 1 * (j 1).val = (j 1).val; omega

theorem blk13 (c : Dev nD) (t : Fin cfg2.N) : (iblk2 (F := Ideal) V c 13 t : FVec Ideal S1x100 .f32) = V c main_v34 := by
  obtain ⟨e0, e1⟩ := idx13 t
  refine funext fun (j : S1x100.Idx) => ?_
  show V c main_v34 (((cfg2.win 13).blk t).view.emb j) = V c main_v34 j
  refine congrArg (V c main_v34) ?_
  funext a; apply Fin.ext
  match a with
  | ⟨0, _⟩ => show win2_13.index t (0 : Fin 2) * 1 + 1 * (j 0).val = (j 0).val; omega
  | ⟨1, _⟩ => show win2_13.index t (1 : Fin 2) * 100 + 1 * (j 1).val = (j 1).val; omega

/-! ### What the one point writes back, and the array after it -/

/-- The launch's computation on the entry contents of its fourteen operand arrays. -/
def G (c : Dev nD) : FVec Ideal S128x100 .f32 :=
  k2_pay1 (F := Ideal)
    (k2_pay6 (F := Ideal) (k2_pay2 (F := Ideal) (V c main_v30 : FVec Ideal S1x1024 .f32))
      (k2_pay4 (F := Ideal) (V c main_v26 : FVec Ideal S128x512 .f32) (V c main_arg1 : FVec Ideal S128x2 .f32)
        (V c main_arg9 : FVec Ideal S2x2 .f32) (V c main_v27 : FVec Ideal S1x2 .f32)
        (V c main_arg11 : FVec Ideal S514x1024 .f32) (V c main_v28 : FVec Ideal S1x1024 .f32))
      (k2_pay5 (F := Ideal) (V c main_v26 : FVec Ideal S128x512 .f32) (V c main_arg1 : FVec Ideal S128x2 .f32)
        (V c main_arg9 : FVec Ideal S2x2 .f32) (V c main_v27 : FVec Ideal S1x2 .f32)
        (V c main_arg11 : FVec Ideal S514x1024 .f32) (V c main_v28 : FVec Ideal S1x1024 .f32)
        (V c main_v29 : FVec Ideal S1x1024 .f32))
      (V c main_arg15 : FVec Ideal S1024x512 .f32) (V c main_v31 : FVec Ideal S1x512 .f32)
      (V c main_v32 : FVec Ideal S1x512 .f32) (V c main_v33 : FVec Ideal S1x512 .f32))
    (V c main_arg19 : FVec Ideal S512x100 .f32) (V c main_v34 : FVec Ideal S1x100 .f32)

/-- The one point writes back its block of `G`: the store covers the staging buffer, every load reads a whole block, and
    every block is its array. -/
theorem flushed_eq (c : Dev nD) (t : Fin cfg2.N) :
    (dat2 (F := Ideal) V c).flushed 14 t = ((cfg2.win 14).blk t).view.read (Elt Ideal) (G V c) := by
  show (cfg2.win 14).cut (grid2.coords t) ((dat2 (F := Ideal) V c).after 14 t) = _
  rw [after2_14, blk0 V c t, blk1 V c t, blk2 V c t, blk3 V c t, blk4 V c t, blk5 V c t, blk6 V c t, blk7 V c t, blk8 V c t,
    blk9 V c t, blk10 V c t, blk11 V c t, blk12 V c t, blk13 V c t]
  unfold out2_14
  rw [View.canon_unit_zero hz]
  simp only [View.ld_unit_zero (S := S128x512) hz, View.ld_unit_zero (S := S128x2) hz, View.ld_unit_zero (S := S2x2) hz,
    View.ld_unit_zero (S := S1x2) hz, View.ld_unit_zero (S := S514x1024) hz, View.ld_unit_zero (S := S1x1024) hz,
    View.ld_unit_zero (S := S1024x512) hz, View.ld_unit_zero (S := S1x512) hz, View.ld_unit_zero (S := S512x100) hz,
    View.ld_unit_zero (S := S1x100) hz]
  obtain ⟨e0, e1⟩ := idx14 t
  refine funext fun (j : S128x100.Idx) => ?_
  show G V c j = G V c (((cfg2.win 14).blk t).view.emb j)
  refine congrArg (G V c) (Eq.symm ?_)
  funext a; apply Fin.ext
  match a with
  | ⟨0, _⟩ => show win2_14.index t (0 : Fin 2) * 128 + 1 * (j 0).val = (j 0).val; omega
  | ⟨1, _⟩ => show win2_14.index t (1 : Fin 2) * 100 + 1 * (j 1).val = (j 1).val; omega

/-- An index of the output array is in the point's block iff each coordinate is in the block's range on its axis. -/
theorem mem_blk14 (t : Fin cfg2.N) (i : S128x100.Idx) :
    i ∈ ((cfg2.win 14).blk t).view.set ↔ ∀ a : Fin 2, win2_14.index t a * S128x100.size a ≤ (i a).val
      ∧ (i a).val < win2_14.index t a * S128x100.size a + S128x100.size a := by
  show i ∈ ((View.whole main_v35).slice (win2_14.rect t)).set ↔ _
  rw [View.set_slice_whole, Rect.mem_set_unit]
  exact Iff.rfl

/-- The one point's block is the whole output array. -/
theorem cover14 (i : S128x100.Idx) :
    ∃ t : Fin cfg2.N, (cfg2.win 14).flush t = true ∧ i ∈ ((cfg2.win 14).blk t).view.set := by
  refine ⟨t2_0, flush2_14 t2_0, ?_⟩
  rw [mem_blk14]
  obtain ⟨e0, e1⟩ := idx14 t2_0
  have hi0 : (i 0).val < 128 := (i 0).isLt
  have hi1 : (i 1).val < 100 := (i 1).isLt
  intro a
  match a with
  | ⟨0, _⟩ =>
    show win2_14.index t2_0 (0 : Fin 2) * 128 ≤ (i 0).val ∧ (i 0).val < win2_14.index t2_0 (0 : Fin 2) * 128 + 128
    omega
  | ⟨1, _⟩ =>
    show win2_14.index t2_0 (1 : Fin 2) * 100 ≤ (i 1).val ∧ (i 1).val < win2_14.index t2_0 (1 : Fin 2) * 100 + 100
    omega

/-- The output array after the write-back is `G` of the entry contents. -/
theorem arr_eq_G (c : Dev nD) : ((dat2 (F := Ideal) V c).arrAt 14 cfg2.N : FVec Ideal S128x100 .f32) = G V c :=
  (dat2 (F := Ideal) V c).arrAt_eq_of_cover 14 (G V c) (fun t _ => flushed_eq V c t) (fun i => cover14 i)

/-- The launch's output array after its write-back is the reference's pooled block of the entry contents of its operand
    arrays, each bias, scale and shift read through the reshape `[n] → [1, n]` the host did before the launch. -/
theorem arr_eq (c : Dev nD) (bp : FVec Ideal S2 .f32) (bm0 g0 be0 : FVec Ideal S1024 .f32) (bm1 g1 be1 : FVec Ideal S512 .f32)
    (bm2 : FVec Ideal S100 .f32)
    (h3 : (V c main_v27 : FVec Ideal S1x2 .f32) = shapeCast S1x2 bp shapeCasts_S2_S1x2)
    (h5 : (V c main_v28 : FVec Ideal S1x1024 .f32) = shapeCast S1x1024 bm0 shapeCasts_S1024_S1x1024)
    (h6 : (V c main_v29 : FVec Ideal S1x1024 .f32) = shapeCast S1x1024 g0 shapeCasts_S1024_S1x1024)
    (h7 : (V c main_v30 : FVec Ideal S1x1024 .f32) = shapeCast S1x1024 be0 shapeCasts_S1024_S1x1024)
    (h9 : (V c main_v31 : FVec Ideal S1x512 .f32) = shapeCast S1x512 bm1 shapeCasts_S512_S1x512)
    (h10 : (V c main_v32 : FVec Ideal S1x512 .f32) = shapeCast S1x512 g1 shapeCasts_S512_S1x512)
    (h11 : (V c main_v33 : FVec Ideal S1x512 .f32) = shapeCast S1x512 be1 shapeCasts_S512_S1x512)
    (h13 : (V c main_v34 : FVec Ideal S1x100 .f32) = shapeCast S1x100 bm2 shapeCasts_S100_S1x100) :
    ((dat2 (F := Ideal) V c).arrAt 14 cfg2.N : FVec Ideal S128x100 .f32)
      = Cert.ReferenceIdeal.Spec.mlp (F := Ideal) (V c main_v26 : FVec Ideal S128x512 .f32) (V c main_arg1 : FVec Ideal S128x2 .f32)
          (V c main_arg9 : FVec Ideal S2x2 .f32) bp (V c main_arg11 : FVec Ideal S514x1024 .f32) bm0 g0 be0
          (V c main_arg15 : FVec Ideal S1024x512 .f32) bm1 g1 be1 (V c main_arg19 : FVec Ideal S512x100 .f32) bm2 := by
  rw [arr_eq_G V c]
  unfold G
  rw [h3, h5, h6, h7, h9, h10, h11, h13]
  exact pay_eq _ _ _ bp _ bm0 g0 be0 _ bm1 g1 be1 _ bm2

end Cert.KernelIdeal.Region2

end
-- ==== Proof.KValue.lean ====
/-
  The kernel program's result as a function of its arguments. The run leaves the result buffer at the last of seven
  boundary contents: launch memory, after the first stretch of host operations, after launch 0, after the second stretch,
  after launch 1, after the third stretch, after launch 2. Walking that fold backwards: the last launch's output is the
  reference's pooled block `mlp` of its operands (Mlp.lean); those are the segment sum `pool` of launch 1's output and
  reshaped arguments; launch 1's output is layer 2's update (Gin1.lean) of launch 0's output and of its neighbour sums
  (a gather and a scatter-add the host did in between); launch 0's output is layer 1's update (Gin0.lean) of the features
  and their neighbour sums. No stretch and no launch writes an argument. The host operations are the reference's own, so
  the composition is `Cert.ReferenceIdeal.Spec.out` of the arguments.
-/
import proofs.«403661_j28097676051004_1_alg».proof.Proof.Gen.KernelIdeal.Frame
import proofs.«403661_j28097676051004_1_alg».proof.Proof.Spec
import proofs.«403661_j28097676051004_1_alg».proof.Proof.Gin0
import proofs.«403661_j28097676051004_1_alg».proof.Proof.Gin1
import proofs.«403661_j28097676051004_1_alg».proof.Proof.Mlp
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The two programs' shape records are the same records -/

theorem gather6_eq : gather_S100000x6_S1600000x1_S1600000x6_1_0_n_n_0_1_16 = Cert.ReferenceIdeal.gather_S100000x6_S1600000x1_S1600000x6_1_0_n_n_0_1_16 := rfl
theorem scatter6_eq : scatter_S100000x6_S1600000x1_S1600000x6_1_0_0_1 = Cert.ReferenceIdeal.scatter_S100000x6_S1600000x1_S1600000x6_1_0_0_1 := rfl
theorem gather128_eq : gather_S100000x128_S1600000x1_S1600000x128_1_0_n_n_0_1_1128 = Cert.ReferenceIdeal.gather_S100000x128_S1600000x1_S1600000x128_1_0_n_n_0_1_1128 := rfl
theorem scatter128_eq : scatter_S100000x128_S1600000x1_S1600000x128_1_0_0_1 = Cert.ReferenceIdeal.scatter_S100000x128_S1600000x1_S1600000x128_1_0_0_1 := rfl
theorem scatterPool_eq : scatter_S128x512_S100000x1_S100000x512_1_0_0_1 = Cert.ReferenceIdeal.scatter_S128x512_S100000x1_S100000x512_1_0_0_1 := rfl

/-! ## The first stretch of host operations, read at launch 0's operands -/

theorem W1_main_arg0 (c : Dev nD) : W1 m ρ c (Proc.devRef .tc main_arg0) = W0 m ρ c (Proc.devRef .tc main_arg0) := by
  show StableHlo.after hostOps0 (W0 m ρ c) (Proc.devRef .tc main_arg0) = _
  after_results
theorem W1_main_arg2 (c : Dev nD) : W1 m ρ c (Proc.devRef .tc main_arg2) = W0 m ρ c (Proc.devRef .tc main_arg2) := by
  show StableHlo.after hostOps0 (W0 m ρ c) (Proc.devRef .tc main_arg2) = _
  after_results
theorem W1_main_arg3 (c : Dev nD) : W1 m ρ c (Proc.devRef .tc main_arg3) = W0 m ρ c (Proc.devRef .tc main_arg3) := by
  show StableHlo.after hostOps0 (W0 m ρ c) (Proc.devRef .tc main_arg3) = _
  after_results
theorem W1_main_arg5 (c : Dev nD) : W1 m ρ c (Proc.devRef .tc main_arg5) = W0 m ρ c (Proc.devRef .tc main_arg5) := by
  show StableHlo.after hostOps0 (W0 m ρ c) (Proc.devRef .tc main_arg5) = _
  after_results
theorem W1_main_arg6 (c : Dev nD) : W1 m ρ c (Proc.devRef .tc main_arg6) = W0 m ρ c (Proc.devRef .tc main_arg6) := by
  show StableHlo.after hostOps0 (W0 m ρ c) (Proc.devRef .tc main_arg6) = _
  after_results
theorem W1_main_arg7 (c : Dev nD) : W1 m ρ c (Proc.devRef .tc main_arg7) = W0 m ρ c (Proc.devRef .tc main_arg7) := by
  show StableHlo.after hostOps0 (W0 m ρ c) (Proc.devRef .tc main_arg7) = _
  after_results
theorem W1_main_arg8 (c : Dev nD) : W1 m ρ c (Proc.devRef .tc main_arg8) = W0 m ρ c (Proc.devRef .tc main_arg8) := by
  show StableHlo.after hostOps0 (W0 m ρ c) (Proc.devRef .tc main_arg8) = _
  after_results
theorem W1_main_arg1 (c : Dev nD) : W1 m ρ c (Proc.devRef .tc main_arg1) = W0 m ρ c (Proc.devRef .tc main_arg1) := by
  show StableHlo.after hostOps0 (W0 m ρ c) (Proc.devRef .tc main_arg1) = _
  after_results
theorem W1_main_arg4 (c : Dev nD) : W1 m ρ c (Proc.devRef .tc main_arg4) = W0 m ρ c (Proc.devRef .tc main_arg4) := by
  show StableHlo.after hostOps0 (W0 m ρ c) (Proc.devRef .tc main_arg4) = _
  after_results
theorem W1_main_arg9 (c : Dev nD) : W1 m ρ c (Proc.devRef .tc main_arg9) = W0 m ρ c (Proc.devRef .tc main_arg9) := by
  show StableHlo.after hostOps0 (W0 m ρ c) (Proc.devRef .tc main_arg9) = _
  after_results
theorem W1_main_arg10 (c : Dev nD) : W1 m ρ c (Proc.devRef .tc main_arg10) = W0 m ρ c (Proc.devRef .tc main_arg10) := by
  show StableHlo.after hostOps0 (W0 m ρ c) (Proc.devRef .tc main_arg10) = _
  after_results
theorem W1_main_arg11 (c : Dev nD) : W1 m ρ c (Proc.devRef .tc main_arg11) = W0 m ρ c (Proc.devRef .tc main_arg11) := by
  show StableHlo.after hostOps0 (W0 m ρ c) (Proc.devRef .tc main_arg11) = _
  after_results
theorem W1_main_arg12 (c : Dev nD) : W1 m ρ c (Proc.devRef .tc main_arg12) = W0 m ρ c (Proc.devRef .tc main_arg12) := by
  show StableHlo.after hostOps0 (W0 m ρ c) (Proc.devRef .tc main_arg12) = _
  after_results
theorem W1_main_arg13 (c : Dev nD) : W1 m ρ c (Proc.devRef .tc main_arg13) = W0 m ρ c (Proc.devRef .tc main_arg13) := by
  show StableHlo.after hostOps0 (W0 m ρ c) (Proc.devRef .tc main_arg13) = _
  after_results
theorem W1_main_arg14 (c : Dev nD) : W1 m ρ c (Proc.devRef .tc main_arg14) = W0 m ρ c (Proc.devRef .tc main_arg14) := by
  show StableHlo.after hostOps0 (W0 m ρ c) (Proc.devRef .tc main_arg14) = _
  after_results
theorem W1_main_arg15 (c : Dev nD) : W1 m ρ c (Proc.devRef .tc main_arg15) = W0 m ρ c (Proc.devRef .tc main_arg15) := by
  show StableHlo.after hostOps0 (W0 m ρ c) (Proc.devRef .tc main_arg15) = _
  after_results
theorem W1_main_arg16 (c : Dev nD) : W1 m ρ c (Proc.devRef .tc main_arg16) = W0 m ρ c (Proc.devRef .tc main_arg16) := by
  show StableHlo.after hostOps0 (W0 m ρ c) (Proc.devRef .tc main_arg16) = _
  after_results
theorem W1_main_arg17 (c : Dev nD) : W1 m ρ c (Proc.devRef .tc main_arg17) = W0 m ρ c (Proc.devRef .tc main_arg17) := by
  show StableHlo.after hostOps0 (W0 m ρ c) (Proc.devRef .tc main_arg17) = _
  after_results
theorem W1_main_arg18 (c : Dev nD) : W1 m ρ c (Proc.devRef .tc main_arg18) = W0 m ρ c (Proc.devRef .tc main_arg18) := by
  show StableHlo.after hostOps0 (W0 m ρ c) (Proc.devRef .tc main_arg18) = _
  after_results
theorem W1_main_arg19 (c : Dev nD) : W1 m ρ c (Proc.devRef .tc main_arg19) = W0 m ρ c (Proc.devRef .tc main_arg19) := by
  show StableHlo.after hostOps0 (W0 m ρ c) (Proc.devRef .tc main_arg19) = _
  after_results
theorem W1_main_arg20 (c : Dev nD) : W1 m ρ c (Proc.devRef .tc main_arg20) = W0 m ρ c (Proc.devRef .tc main_arg20) := by
  show StableHlo.after hostOps0 (W0 m ρ c) (Proc.devRef .tc main_arg20) = _
  after_results

/-- The neighbour sums of the features, as the first stretch leaves them. -/
theorem W1_v9 (c : Dev nD) : (W1 m ρ c (Proc.devRef .tc main_v9) : FVec Ideal S100000x6 .f32)
    = Cert.ReferenceIdeal.Spec.agg6 (F := Ideal) (m ((c : Thread nD τ).loc main_arg0)) (m ((c : Thread nD τ).loc main_arg2)) (m ((c : Thread nD τ).loc main_arg3)) := by
  show StableHlo.after hostOps0 (W0 m ρ c) (Proc.devRef .tc main_v9) = _
  after_results
  rfl

/-- Layer 1's bias as a row. -/
theorem W1_v10 (c : Dev nD) : (W1 m ρ c (Proc.devRef .tc main_v10) : FVec Ideal S1x128 .f32)
    = shapeCast S1x128 ((m ((c : Thread nD τ).loc main_arg6)) : FVec Ideal S128 .f32) shapeCasts_S128_S1x128 := by
  show StableHlo.after hostOps0 (W0 m ρ c) (Proc.devRef .tc main_v10) = _
  after_results
  rfl

/-! ## Launch 0 -/

/-- Launch 0 writes no buffer but its output array. -/
theorem W2_keep (c : Dev nD) (b : Ref sig .tc) (hb : ∀ w, Pipeline.arrRef spec0 w ≠ b) :
    W2 m ρ c (Proc.devRef .tc b) = W1 m ρ c (Proc.devRef .tc b) := W2_of_ne m ρ c b hb

/-- The node features after layer 1. -/
def h1 (c : Dev nD) : FVec Ideal Cert.ReferenceIdeal.S100000x128 .f32 :=
  Cert.ReferenceIdeal.Spec.lay1 (F := Ideal) (m ((c : Thread nD τ).loc main_arg0)) (Cert.ReferenceIdeal.Spec.agg6 (F := Ideal) (m ((c : Thread nD τ).loc main_arg0)) (m ((c : Thread nD τ).loc main_arg2)) (m ((c : Thread nD τ).loc main_arg3))) (m ((c : Thread nD τ).loc main_arg5)) (m ((c : Thread nD τ).loc main_arg6))

theorem W2_v11 (c : Dev nD) : (W2 m ρ c (Proc.devRef .tc main_v11) : FVec Ideal S100000x128 .f32) = h1 m c := by
  have h := Cert.KernelIdeal.Region0.arr_eq (V1 m ρ) c ((m ((c : Thread nD τ).loc main_arg6)) : FVec Ideal S128 .f32) (W1_v10 m ρ c)
  have e : W2 m ρ c (Proc.devRef .tc main_v11) = (dat0 (V1 m ρ) c).arrAt 4 cfg0.N := W2_arr m ρ c 4
  rw [e]
  refine h.trans ?_
  show Cert.ReferenceIdeal.Spec.lay1 (F := Ideal) (W1 m ρ c (Proc.devRef .tc main_arg0)) (W1 m ρ c (Proc.devRef .tc main_v9)) (W1 m ρ c (Proc.devRef .tc main_arg5)) _ = _
  rw [W1_main_arg0 m ρ c, W1_v9 m ρ c, W1_main_arg5 m ρ c]
  rfl

/-! ## The second stretch -/

theorem W3_main_arg2 (c : Dev nD) : W3 m ρ c (Proc.devRef .tc main_arg2) = W2 m ρ c (Proc.devRef .tc main_arg2) := by
  show StableHlo.after hostOps1 (W2 m ρ c) (Proc.devRef .tc main_arg2) = _
  after_results
theorem W3_main_arg3 (c : Dev nD) : W3 m ρ c (Proc.devRef .tc main_arg3) = W2 m ρ c (Proc.devRef .tc main_arg3) := by
  show StableHlo.after hostOps1 (W2 m ρ c) (Proc.devRef .tc main_arg3) = _
  after_results
theorem W3_main_arg7 (c : Dev nD) : W3 m ρ c (Proc.devRef .tc main_arg7) = W2 m ρ c (Proc.devRef .tc main_arg7) := by
  show StableHlo.after hostOps1 (W2 m ρ c) (Proc.devRef .tc main_arg7) = _
  after_results
theorem W3_main_arg8 (c : Dev nD) : W3 m ρ c (Proc.devRef .tc main_arg8) = W2 m ρ c (Proc.devRef .tc main_arg8) := by
  show StableHlo.after hostOps1 (W2 m ρ c) (Proc.devRef .tc main_arg8) = _
  after_results
theorem W3_main_v11 (c : Dev nD) : W3 m ρ c (Proc.devRef .tc main_v11) = W2 m ρ c (Proc.devRef .tc main_v11) := by
  show StableHlo.after hostOps1 (W2 m ρ c) (Proc.devRef .tc main_v11) = _
  after_results
theorem W3_main_arg1 (c : Dev nD) : W3 m ρ c (Proc.devRef .tc main_arg1) = W2 m ρ c (Proc.devRef .tc main_arg1) := by
  show StableHlo.after hostOps1 (W2 m ρ c) (Proc.devRef .tc main_arg1) = _
  after_results
theorem W3_main_arg4 (c : Dev nD) : W3 m ρ c (Proc.devRef .tc main_arg4) = W2 m ρ c (Proc.devRef .tc main_arg4) := by
  show StableHlo.after hostOps1 (W2 m ρ c) (Proc.devRef .tc main_arg4) = _
  after_results
theorem W3_main_arg9 (c : Dev nD) : W3 m ρ c (Proc.devRef .tc main_arg9) = W2 m ρ c (Proc.devRef .tc main_arg9) := by
  show StableHlo.after hostOps1 (W2 m ρ c) (Proc.devRef .tc main_arg9) = _
  after_results
theorem W3_main_arg10 (c : Dev nD) : W3 m ρ c (Proc.devRef .tc main_arg10) = W2 m ρ c (Proc.devRef .tc main_arg10) := by
  show StableHlo.after hostOps1 (W2 m ρ c) (Proc.devRef .tc main_arg10) = _
  after_results
theorem W3_main_arg11 (c : Dev nD) : W3 m ρ c (Proc.devRef .tc main_arg11) = W2 m ρ c (Proc.devRef .tc main_arg11) := by
  show StableHlo.after hostOps1 (W2 m ρ c) (Proc.devRef .tc main_arg11) = _
  after_results
theorem W3_main_arg12 (c : Dev nD) : W3 m ρ c (Proc.devRef .tc main_arg12) = W2 m ρ c (Proc.devRef .tc main_arg12) := by
  show StableHlo.after hostOps1 (W2 m ρ c) (Proc.devRef .tc main_arg12) = _
  after_results
theorem W3_main_arg13 (c : Dev nD) : W3 m ρ c (Proc.devRef .tc main_arg13) = W2 m ρ c (Proc.devRef .tc main_arg13) := by
  show StableHlo.after hostOps1 (W2 m ρ c) (Proc.devRef .tc main_arg13) = _
  after_results
theorem W3_main_arg14 (c : Dev nD) : W3 m ρ c (Proc.devRef .tc main_arg14) = W2 m ρ c (Proc.devRef .tc main_arg14) := by
  show StableHlo.after hostOps1 (W2 m ρ c) (Proc.devRef .tc main_arg14) = _
  after_results
theorem W3_main_arg15 (c : Dev nD) : W3 m ρ c (Proc.devRef .tc main_arg15) = W2 m ρ c (Proc.devRef .tc main_arg15) := by
  show StableHlo.after hostOps1 (W2 m ρ c) (Proc.devRef .tc main_arg15) = _
  after_results
theorem W3_main_arg16 (c : Dev nD) : W3 m ρ c (Proc.devRef .tc main_arg16) = W2 m ρ c (Proc.devRef .tc main_arg16) := by
  show StableHlo.after hostOps1 (W2 m ρ c) (Proc.devRef .tc main_arg16) = _
  after_results
theorem W3_main_arg17 (c : Dev nD) : W3 m ρ c (Proc.devRef .tc main_arg17) = W2 m ρ c (Proc.devRef .tc main_arg17) := by
  show StableHlo.after hostOps1 (W2 m ρ c) (Proc.devRef .tc main_arg17) = _
  after_results
theorem W3_main_arg18 (c : Dev nD) : W3 m ρ c (Proc.devRef .tc main_arg18) = W2 m ρ c (Proc.devRef .tc main_arg18) := by
  show StableHlo.after hostOps1 (W2 m ρ c) (Proc.devRef .tc main_arg18) = _
  after_results
theorem W3_main_arg19 (c : Dev nD) : W3 m ρ c (Proc.devRef .tc main_arg19) = W2 m ρ c (Proc.devRef .tc main_arg19) := by
  show StableHlo.after hostOps1 (W2 m ρ c) (Proc.devRef .tc main_arg19) = _
  after_results
theorem W3_main_arg20 (c : Dev nD) : W3 m ρ c (Proc.devRef .tc main_arg20) = W2 m ρ c (Proc.devRef .tc main_arg20) := by
  show StableHlo.after hostOps1 (W2 m ρ c) (Proc.devRef .tc main_arg20) = _
  after_results

/-- An argument no launch-0 window holds and no stretch writes is, at launch 1's entry, what was launched. -/
theorem W3_arg2 (c : Dev nD) : W3 m ρ c (Proc.devRef .tc main_arg2) = m ((c : Thread nD τ).loc main_arg2) :=
  (W3_main_arg2 m ρ c).trans ((W2_keep m ρ c main_arg2 (by decide)).trans (W1_main_arg2 m ρ c))
theorem W3_arg3 (c : Dev nD) : W3 m ρ c (Proc.devRef .tc main_arg3) = m ((c : Thread nD τ).loc main_arg3) :=
  (W3_main_arg3 m ρ c).trans ((W2_keep m ρ c main_arg3 (by decide)).trans (W1_main_arg3 m ρ c))
theorem W3_arg7 (c : Dev nD) : W3 m ρ c (Proc.devRef .tc main_arg7) = m ((c : Thread nD τ).loc main_arg7) :=
  (W3_main_arg7 m ρ c).trans ((W2_keep m ρ c main_arg7 (by decide)).trans (W1_main_arg7 m ρ c))
theorem W3_arg8 (c : Dev nD) : W3 m ρ c (Proc.devRef .tc main_arg8) = m ((c : Thread nD τ).loc main_arg8) :=
  (W3_main_arg8 m ρ c).trans ((W2_keep m ρ c main_arg8 (by decide)).trans (W1_main_arg8 m ρ c))
theorem W3_arg1 (c : Dev nD) : W3 m ρ c (Proc.devRef .tc main_arg1) = m ((c : Thread nD τ).loc main_arg1) :=
  (W3_main_arg1 m ρ c).trans ((W2_keep m ρ c main_arg1 (by decide)).trans (W1_main_arg1 m ρ c))
theorem W3_arg4 (c : Dev nD) : W3 m ρ c (Proc.devRef .tc main_arg4) = m ((c : Thread nD τ).loc main_arg4) :=
  (W3_main_arg4 m ρ c).trans ((W2_keep m ρ c main_arg4 (by decide)).trans (W1_main_arg4 m ρ c))
theorem W3_arg9 (c : Dev nD) : W3 m ρ c (Proc.devRef .tc main_arg9) = m ((c : Thread nD τ).loc main_arg9) :=
  (W3_main_arg9 m ρ c).trans ((W2_keep m ρ c main_arg9 (by decide)).trans (W1_main_arg9 m ρ c))
theorem W3_arg10 (c : Dev nD) : W3 m ρ c (Proc.devRef .tc main_arg10) = m ((c : Thread nD τ).loc main_arg10) :=
  (W3_main_arg10 m ρ c).trans ((W2_keep m ρ c main_arg10 (by decide)).trans (W1_main_arg10 m ρ c))
theorem W3_arg11 (c : Dev nD) : W3 m ρ c (Proc.devRef .tc main_arg11) = m ((c : Thread nD τ).loc main_arg11) :=
  (W3_main_arg11 m ρ c).trans ((W2_keep m ρ c main_arg11 (by decide)).trans (W1_main_arg11 m ρ c))
theorem W3_arg12 (c : Dev nD) : W3 m ρ c (Proc.devRef .tc main_arg12) = m ((c : Thread nD τ).loc main_arg12) :=
  (W3_main_arg12 m ρ c).trans ((W2_keep m ρ c main_arg12 (by decide)).trans (W1_main_arg12 m ρ c))
theorem W3_arg13 (c : Dev nD) : W3 m ρ c (Proc.devRef .tc main_arg13) = m ((c : Thread nD τ).loc main_arg13) :=
  (W3_main_arg13 m ρ c).trans ((W2_keep m ρ c main_arg13 (by decide)).trans (W1_main_arg13 m ρ c))
theorem W3_arg14 (c : Dev nD) : W3 m ρ c (Proc.devRef .tc main_arg14) = m ((c : Thread nD τ).loc main_arg14) :=
  (W3_main_arg14 m ρ c).trans ((W2_keep m ρ c main_arg14 (by decide)).trans (W1_main_arg14 m ρ c))
theorem W3_arg15 (c : Dev nD) : W3 m ρ c (Proc.devRef .tc main_arg15) = m ((c : Thread nD τ).loc main_arg15) :=
  (W3_main_arg15 m ρ c).trans ((W2_keep m ρ c main_arg15 (by decide)).trans (W1_main_arg15 m ρ c))
theorem W3_arg16 (c : Dev nD) : W3 m ρ c (Proc.devRef .tc main_arg16) = m ((c : Thread nD τ).loc main_arg16) :=
  (W3_main_arg16 m ρ c).trans ((W2_keep m ρ c main_arg16 (by decide)).trans (W1_main_arg16 m ρ c))
theorem W3_arg17 (c : Dev nD) : W3 m ρ c (Proc.devRef .tc main_arg17) = m ((c : Thread nD τ).loc main_arg17) :=
  (W3_main_arg17 m ρ c).trans ((W2_keep m ρ c main_arg17 (by decide)).trans (W1_main_arg17 m ρ c))
theorem W3_arg18 (c : Dev nD) : W3 m ρ c (Proc.devRef .tc main_arg18) = m ((c : Thread nD τ).loc main_arg18) :=
  (W3_main_arg18 m ρ c).trans ((W2_keep m ρ c main_arg18 (by decide)).trans (W1_main_arg18 m ρ c))
theorem W3_arg19 (c : Dev nD) : W3 m ρ c (Proc.devRef .tc main_arg19) = m ((c : Thread nD τ).loc main_arg19) :=
  (W3_main_arg19 m ρ c).trans ((W2_keep m ρ c main_arg19 (by decide)).trans (W1_main_arg19 m ρ c))
theorem W3_arg20 (c : Dev nD) : W3 m ρ c (Proc.devRef .tc main_arg20) = m ((c : Thread nD τ).loc main_arg20) :=
  (W3_main_arg20 m ρ c).trans ((W2_keep m ρ c main_arg20 (by decide)).trans (W1_main_arg20 m ρ c))

/-- Layer 1's node features' neighbour sums, as the second stretch leaves them. -/
theorem W3_v21 (c : Dev nD) : (W3 m ρ c (Proc.devRef .tc main_v21) : FVec Ideal S100000x128 .f32)
    = Cert.ReferenceIdeal.Spec.agg128 (F := Ideal) (h1 m c) (m ((c : Thread nD τ).loc main_arg2)) (m ((c : Thread nD τ).loc main_arg3)) := by
  have e : (W3 m ρ c (Proc.devRef .tc main_v21) : FVec Ideal S100000x128 .f32)
      = Cert.ReferenceIdeal.Spec.agg128 (F := Ideal) (W2 m ρ c (Proc.devRef .tc main_v11)) (W2 m ρ c (Proc.devRef .tc main_arg2)) (W2 m ρ c (Proc.devRef .tc main_arg3)) := by
    show StableHlo.after hostOps1 (W2 m ρ c) (Proc.devRef .tc main_v21) = _
    after_results
    rfl
  rw [e, W2_v11 m ρ c, W2_keep m ρ c main_arg2 (by decide), W2_keep m ρ c main_arg3 (by decide), W1_main_arg2 m ρ c, W1_main_arg3 m ρ c]

/-- Layer 2's bias as a row. -/
theorem W3_v22 (c : Dev nD) : (W3 m ρ c (Proc.devRef .tc main_v22) : FVec Ideal S1x512 .f32)
    = shapeCast S1x512 ((m ((c : Thread nD τ).loc main_arg8)) : FVec Ideal S512 .f32) shapeCasts_S512_S1x512 := by
  have e : (W3 m ρ c (Proc.devRef .tc main_v22) : FVec Ideal S1x512 .f32)
      = shapeCast S1x512 (W2 m ρ c (Proc.devRef .tc main_arg8) : FVec Ideal S512 .f32) shapeCasts_S512_S1x512 := by
    show StableHlo.after hostOps1 (W2 m ρ c) (Proc.devRef .tc main_v22) = _
    after_results
    rfl
  rw [e, W2_keep m ρ c main_arg8 (by decide), W1_main_arg8 m ρ c]

/-! ## Launch 1 -/

theorem W4_keep (c : Dev nD) (b : Ref sig .tc) (hb : ∀ w, Pipeline.arrRef spec1 w ≠ b) :
    W4 m ρ c (Proc.devRef .tc b) = W3 m ρ c (Proc.devRef .tc b) := W4_of_ne m ρ c b hb

/-- The node features after layer 2. -/
def h2 (c : Dev nD) : FVec Ideal Cert.ReferenceIdeal.S100000x512 .f32 :=
  Cert.ReferenceIdeal.Spec.lay2 (F := Ideal) (h1 m c) (Cert.ReferenceIdeal.Spec.agg128 (F := Ideal) (h1 m c) (m ((c : Thread nD τ).loc main_arg2)) (m ((c : Thread nD τ).loc main_arg3))) (m ((c : Thread nD τ).loc main_arg7)) (m ((c : Thread nD τ).loc main_arg8))

theorem W4_v23 (c : Dev nD) : (W4 m ρ c (Proc.devRef .tc main_v23) : FVec Ideal S100000x512 .f32) = h2 m c := by
  have h := Cert.KernelIdeal.Region1.arr_eq (V3 m ρ) c ((m ((c : Thread nD τ).loc main_arg8)) : FVec Ideal S512 .f32) (W3_v22 m ρ c)
  have e : W4 m ρ c (Proc.devRef .tc main_v23) = (dat1 (V3 m ρ) c).arrAt 4 cfg1.N := W4_arr m ρ c 4
  rw [e]
  refine h.trans ?_
  show Cert.ReferenceIdeal.Spec.lay2 (F := Ideal) (W3 m ρ c (Proc.devRef .tc main_v11)) (W3 m ρ c (Proc.devRef .tc main_v21)) (W3 m ρ c (Proc.devRef .tc main_arg7)) _ = _
  rw [W3_main_v11 m ρ c, W2_v11 m ρ c, W3_v21 m ρ c, W3_arg7 m ρ c]
  rfl

/-! ## The third stretch -/

theorem W5_main_arg1 (c : Dev nD) : W5 m ρ c (Proc.devRef .tc main_arg1) = W4 m ρ c (Proc.devRef .tc main_arg1) := by
  show StableHlo.after hostOps2 (W4 m ρ c) (Proc.devRef .tc main_arg1) = _
  after_results
theorem W5_main_arg9 (c : Dev nD) : W5 m ρ c (Proc.devRef .tc main_arg9) = W4 m ρ c (Proc.devRef .tc main_arg9) := by
  show StableHlo.after hostOps2 (W4 m ρ c) (Proc.devRef .tc main_arg9) = _
  after_results
theorem W5_main_arg11 (c : Dev nD) : W5 m ρ c (Proc.devRef .tc main_arg11) = W4 m ρ c (Proc.devRef .tc main_arg11) := by
  show StableHlo.after hostOps2 (W4 m ρ c) (Proc.devRef .tc main_arg11) = _
  after_results
theorem W5_main_arg15 (c : Dev nD) : W5 m ρ c (Proc.devRef .tc main_arg15) = W4 m ρ c (Proc.devRef .tc main_arg15) := by
  show StableHlo.after hostOps2 (W4 m ρ c) (Proc.devRef .tc main_arg15) = _
  after_results
theorem W5_main_arg19 (c : Dev nD) : W5 m ρ c (Proc.devRef .tc main_arg19) = W4 m ρ c (Proc.devRef .tc main_arg19) := by
  show StableHlo.after hostOps2 (W4 m ρ c) (Proc.devRef .tc main_arg19) = _
  after_results
theorem W5_arg1 (c : Dev nD) : W5 m ρ c (Proc.devRef .tc main_arg1) = m ((c : Thread nD τ).loc main_arg1) :=
  (W5_main_arg1 m ρ c).trans ((W4_keep m ρ c main_arg1 (by decide)).trans (W3_arg1 m ρ c))
theorem W5_arg9 (c : Dev nD) : W5 m ρ c (Proc.devRef .tc main_arg9) = m ((c : Thread nD τ).loc main_arg9) :=
  (W5_main_arg9 m ρ c).trans ((W4_keep m ρ c main_arg9 (by decide)).trans (W3_arg9 m ρ c))
theorem W5_arg11 (c : Dev nD) : W5 m ρ c (Proc.devRef .tc main_arg11) = m ((c : Thread nD τ).loc main_arg11) :=
  (W5_main_arg11 m ρ c).trans ((W4_keep m ρ c main_arg11 (by decide)).trans (W3_arg11 m ρ c))
theorem W5_arg15 (c : Dev nD) : W5 m ρ c (Proc.devRef .tc main_arg15) = m ((c : Thread nD τ).loc main_arg15) :=
  (W5_main_arg15 m ρ c).trans ((W4_keep m ρ c main_arg15 (by decide)).trans (W3_arg15 m ρ c))
theorem W5_arg19 (c : Dev nD) : W5 m ρ c (Proc.devRef .tc main_arg19) = m ((c : Thread nD τ).loc main_arg19) :=
  (W5_main_arg19 m ρ c).trans ((W4_keep m ρ c main_arg19 (by decide)).trans (W3_arg19 m ρ c))

/-- The graphs' pooled features, as the third stretch leaves them. -/
theorem W5_v26 (c : Dev nD) : (W5 m ρ c (Proc.devRef .tc main_v26) : FVec Ideal S128x512 .f32)
    = Cert.ReferenceIdeal.Spec.pool (F := Ideal) (h2 m c) (m ((c : Thread nD τ).loc main_arg4)) := by
  have e : (W5 m ρ c (Proc.devRef .tc main_v26) : FVec Ideal S128x512 .f32)
      = Cert.ReferenceIdeal.Spec.pool (F := Ideal) (W4 m ρ c (Proc.devRef .tc main_v23)) (W4 m ρ c (Proc.devRef .tc main_arg4)) := by
    show StableHlo.after hostOps2 (W4 m ρ c) (Proc.devRef .tc main_v26) = _
    after_results
    rfl
  rw [e, W4_v23 m ρ c, W4_keep m ρ c main_arg4 (by decide), W3_arg4 m ρ c]

theorem W5_v27 (c : Dev nD) : (W5 m ρ c (Proc.devRef .tc main_v27) : FVec Ideal S1x2 .f32)
    = shapeCast S1x2 ((m ((c : Thread nD τ).loc main_arg10)) : FVec Ideal S2 .f32) shapeCasts_S2_S1x2 := by
  have e : (W5 m ρ c (Proc.devRef .tc main_v27) : FVec Ideal S1x2 .f32)
      = shapeCast S1x2 (W4 m ρ c (Proc.devRef .tc main_arg10) : FVec Ideal S2 .f32) shapeCasts_S2_S1x2 := by
    show StableHlo.after hostOps2 (W4 m ρ c) (Proc.devRef .tc main_v27) = _
    after_results
    rfl
  rw [e, W4_keep m ρ c main_arg10 (by decide), W3_arg10 m ρ c]
theorem W5_v28 (c : Dev nD) : (W5 m ρ c (Proc.devRef .tc main_v28) : FVec Ideal S1x1024 .f32)
    = shapeCast S1x1024 ((m ((c : Thread nD τ).loc main_arg12)) : FVec Ideal S1024 .f32) shapeCasts_S1024_S1x1024 := by
  have e : (W5 m ρ c (Proc.devRef .tc main_v28) : FVec Ideal S1x1024 .f32)
      = shapeCast S1x1024 (W4 m ρ c (Proc.devRef .tc main_arg12) : FVec Ideal S1024 .f32) shapeCasts_S1024_S1x1024 := by
    show StableHlo.after hostOps2 (W4 m ρ c) (Proc.devRef .tc main_v28) = _
    after_results
    rfl
  rw [e, W4_keep m ρ c main_arg12 (by decide), W3_arg12 m ρ c]
theorem W5_v29 (c : Dev nD) : (W5 m ρ c (Proc.devRef .tc main_v29) : FVec Ideal S1x1024 .f32)
    = shapeCast S1x1024 ((m ((c : Thread nD τ).loc main_arg13)) : FVec Ideal S1024 .f32) shapeCasts_S1024_S1x1024 := by
  have e : (W5 m ρ c (Proc.devRef .tc main_v29) : FVec Ideal S1x1024 .f32)
      = shapeCast S1x1024 (W4 m ρ c (Proc.devRef .tc main_arg13) : FVec Ideal S1024 .f32) shapeCasts_S1024_S1x1024 := by
    show StableHlo.after hostOps2 (W4 m ρ c) (Proc.devRef .tc main_v29) = _
    after_results
    rfl
  rw [e, W4_keep m ρ c main_arg13 (by decide), W3_arg13 m ρ c]
theorem W5_v30 (c : Dev nD) : (W5 m ρ c (Proc.devRef .tc main_v30) : FVec Ideal S1x1024 .f32)
    = shapeCast S1x1024 ((m ((c : Thread nD τ).loc main_arg14)) : FVec Ideal S1024 .f32) shapeCasts_S1024_S1x1024 := by
  have e : (W5 m ρ c (Proc.devRef .tc main_v30) : FVec Ideal S1x1024 .f32)
      = shapeCast S1x1024 (W4 m ρ c (Proc.devRef .tc main_arg14) : FVec Ideal S1024 .f32) shapeCasts_S1024_S1x1024 := by
    show StableHlo.after hostOps2 (W4 m ρ c) (Proc.devRef .tc main_v30) = _
    after_results
    rfl
  rw [e, W4_keep m ρ c main_arg14 (by decide), W3_arg14 m ρ c]
theorem W5_v31 (c : Dev nD) : (W5 m ρ c (Proc.devRef .tc main_v31) : FVec Ideal S1x512 .f32)
    = shapeCast S1x512 ((m ((c : Thread nD τ).loc main_arg16)) : FVec Ideal S512 .f32) shapeCasts_S512_S1x512 := by
  have e : (W5 m ρ c (Proc.devRef .tc main_v31) : FVec Ideal S1x512 .f32)
      = shapeCast S1x512 (W4 m ρ c (Proc.devRef .tc main_arg16) : FVec Ideal S512 .f32) shapeCasts_S512_S1x512 := by
    show StableHlo.after hostOps2 (W4 m ρ c) (Proc.devRef .tc main_v31) = _
    after_results
    rfl
  rw [e, W4_keep m ρ c main_arg16 (by decide), W3_arg16 m ρ c]
theorem W5_v32 (c : Dev nD) : (W5 m ρ c (Proc.devRef .tc main_v32) : FVec Ideal S1x512 .f32)
    = shapeCast S1x512 ((m ((c : Thread nD τ).loc main_arg17)) : FVec Ideal S512 .f32) shapeCasts_S512_S1x512 := by
  have e : (W5 m ρ c (Proc.devRef .tc main_v32) : FVec Ideal S1x512 .f32)
      = shapeCast S1x512 (W4 m ρ c (Proc.devRef .tc main_arg17) : FVec Ideal S512 .f32) shapeCasts_S512_S1x512 := by
    show StableHlo.after hostOps2 (W4 m ρ c) (Proc.devRef .tc main_v32) = _
    after_results
    rfl
  rw [e, W4_keep m ρ c main_arg17 (by decide), W3_arg17 m ρ c]
theorem W5_v33 (c : Dev nD) : (W5 m ρ c (Proc.devRef .tc main_v33) : FVec Ideal S1x512 .f32)
    = shapeCast S1x512 ((m ((c : Thread nD τ).loc main_arg18)) : FVec Ideal S512 .f32) shapeCasts_S512_S1x512 := by
  have e : (W5 m ρ c (Proc.devRef .tc main_v33) : FVec Ideal S1x512 .f32)
      = shapeCast S1x512 (W4 m ρ c (Proc.devRef .tc main_arg18) : FVec Ideal S512 .f32) shapeCasts_S512_S1x512 := by
    show StableHlo.after hostOps2 (W4 m ρ c) (Proc.devRef .tc main_v33) = _
    after_results
    rfl
  rw [e, W4_keep m ρ c main_arg18 (by decide), W3_arg18 m ρ c]
theorem W5_v34 (c : Dev nD) : (W5 m ρ c (Proc.devRef .tc main_v34) : FVec Ideal S1x100 .f32)
    = shapeCast S1x100 ((m ((c : Thread nD τ).loc main_arg20)) : FVec Ideal S100 .f32) shapeCasts_S100_S1x100 := by
  have e : (W5 m ρ c (Proc.devRef .tc main_v34) : FVec Ideal S1x100 .f32)
      = shapeCast S1x100 (W4 m ρ c (Proc.devRef .tc main_arg20) : FVec Ideal S100 .f32) shapeCasts_S100_S1x100 := by
    show StableHlo.after hostOps2 (W4 m ρ c) (Proc.devRef .tc main_v34) = _
    after_results
    rfl
  rw [e, W4_keep m ρ c main_arg20 (by decide), W3_arg20 m ρ c]

/-! ## Launch 2, and the whole -/

/-- The result buffer's final contents are the reference's composition of stages of the launched arguments. -/
theorem result_eq (c : Dev nD) : (W6 m ρ c (Proc.devRef .tc main_v35) : FVec Ideal S128x100 .f32)
    = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have h := Cert.KernelIdeal.Region2.arr_eq (V5 m ρ) c (m ((c : Thread nD τ).loc main_arg10)) (m ((c : Thread nD τ).loc main_arg12)) (m ((c : Thread nD τ).loc main_arg13)) (m ((c : Thread nD τ).loc main_arg14)) (m ((c : Thread nD τ).loc main_arg16)) (m ((c : Thread nD τ).loc main_arg17)) (m ((c : Thread nD τ).loc main_arg18)) (m ((c : Thread nD τ).loc main_arg20))
    (W5_v27 m ρ c) (W5_v28 m ρ c) (W5_v29 m ρ c) (W5_v30 m ρ c) (W5_v31 m ρ c) (W5_v32 m ρ c) (W5_v33 m ρ c) (W5_v34 m ρ c)
  have e : W6 m ρ c (Proc.devRef .tc main_v35) = (dat2 (V5 m ρ) c).arrAt 14 cfg2.N := W6_arr m ρ c 14
  rw [e]
  refine h.trans ?_
  show Cert.ReferenceIdeal.Spec.mlp (F := Ideal) (W5 m ρ c (Proc.devRef .tc main_v26)) (W5 m ρ c (Proc.devRef .tc main_arg1)) (W5 m ρ c (Proc.devRef .tc main_arg9)) _
    (W5 m ρ c (Proc.devRef .tc main_arg11)) _ _ _ (W5 m ρ c (Proc.devRef .tc main_arg15)) _ _ _ (W5 m ρ c (Proc.devRef .tc main_arg19)) _ = _
  rw [W5_v26 m ρ c, W5_arg1 m ρ c, W5_arg9 m ρ c, W5_arg11 m ρ c, W5_arg15 m ρ c, W5_arg19 m ρ c]
  rfl

end Cert.KernelIdeal.KValue

end
-- ==== Proof.RefRun.lean ====
/-
  The reference's run: @main is one straight line of host operations (the outlined relu, variance and where functions run
  in place at their calls), so every weakly fair execution terminates with each buffer at the operations' fold over the
  launch contents; at the result buffer that fold is the composition of stages `Spec.out` of the argument arrays, and no
  operation writes an argument.
-/
import proofs.«403661_j28097676051004_1_alg».proof.Proof.Gen.ReferenceIdeal
import proofs.«403661_j28097676051004_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1: the edge sources wrapped, the neighbour sums, the affine map and relu (the relu's three operations into
    `main_call0`'s buffers). -/
abbrev opsL1 : List (HloOp τ sig (Elt F)) :=
  [
    nullary main_c (constantI S_ 32 0#32),
    unary main_c main_v0 (broadcastInDim S1600000 ![] bcast_S_S1600000),
    binary main_arg2 main_v0 main_v1 (cmpi .slt),
    nullary main_c_0 (constantI S_ 32 100000#32),
    unary main_c_0 main_v2 (broadcastInDim S1600000 ![] bcast_S_S1600000),
    binary main_arg2 main_v2 main_v3 addi,
    ternary main_v1 main_v3 main_arg2 main_v4 select,
    unary main_v4 main_v5 (broadcastInDim S1600000x1 ![0] bcast_S1600000_S1600000x1_0),
    binary main_arg0 main_v5 main_v6 (fun x i => Host.gather gather_S100000x6_S1600000x1_S1600000x6_1_0_n_n_0_1_16 x i),
    nullary main_cst (constant S_ .f32 0x00000000#32),
    unary main_cst main_v7 (broadcastInDim S100000x6 ![] bcast_S_S100000x6),
    unary main_arg3 main_v8 (broadcastInDim S1600000x1 ![0] bcast_S1600000_S1600000x1_0),
    ternary main_v7 main_v8 main_v6 main_v9 (fun x i u => Host.scatterAdd scatter_S100000x6_S1600000x1_S1600000x6_1_0_0_1 x i u),
    binary main_arg0 main_v9 main_v10 addf,
    binary main_v10 main_arg5 main_v11 (fun l r => Host.dotGeneral dot_S100000x6_S6x128_S100000x128_1_0_0_1_n_n none l r),
    unary main_arg6 main_v12 (broadcastInDim S1x128 ![1] bcast_S128_S1x128_1),
    unary main_v12 main_v13 (broadcastInDim S100000x128 ![0, 1] bcast_S1x128_S100000x128_0_1),
    binary main_v11 main_v13 main_v14 addf,
    TRef.nullary main_call0.cst (constant S_ .f32 0x00000000#32),
    TRef.unary main_call0.cst main_call0.v0 (broadcastInDim S100000x128 ![] bcast_S_S100000x128),
    TRef.binary (.of main_v14) main_call0.v0 main_call0.v1 maximumf ]

/-- Layer 2, the same over 128 columns (relu into `main_call1`'s buffers). -/
abbrev opsL2 : List (HloOp τ sig (Elt F)) :=
  [
    nullary main_c_1 (constantI S_ 32 0#32),
    unary main_c_1 main_v16 (broadcastInDim S1600000 ![] bcast_S_S1600000),
    binary main_arg2 main_v16 main_v17 (cmpi .slt),
    nullary main_c_2 (constantI S_ 32 100000#32),
    unary main_c_2 main_v18 (broadcastInDim S1600000 ![] bcast_S_S1600000),
    binary main_arg2 main_v18 main_v19 addi,
    ternary main_v17 main_v19 main_arg2 main_v20 select,
    unary main_v20 main_v21 (broadcastInDim S1600000x1 ![0] bcast_S1600000_S1600000x1_0),
    binary main_v15 main_v21 main_v22 (fun x i => Host.gather gather_S100000x128_S1600000x1_S1600000x128_1_0_n_n_0_1_1128 x i),
    nullary main_cst_3 (constant S_ .f32 0x00000000#32),
    unary main_cst_3 main_v23 (broadcastInDim S100000x128 ![] bcast_S_S100000x128),
    unary main_arg3 main_v24 (broadcastInDim S1600000x1 ![0] bcast_S1600000_S1600000x1_0),
    ternary main_v23 main_v24 main_v22 main_v25 (fun x i u => Host.scatterAdd scatter_S100000x128_S1600000x1_S1600000x128_1_0_0_1 x i u),
    binary main_v15 main_v25 main_v26 addf,
    binary main_v26 main_arg7 main_v27 (fun l r => Host.dotGeneral dot_S100000x128_S128x512_S100000x512_1_0_0_1_n_n none l r),
    unary main_arg8 main_v28 (broadcastInDim S1x512 ![1] bcast_S512_S1x512_1),
    unary main_v28 main_v29 (broadcastInDim S100000x512 ![0, 1] bcast_S1x512_S100000x512_0_1),
    binary main_v27 main_v29 main_v30 addf,
    TRef.nullary main_call1.cst (constant S_ .f32 0x00000000#32),
    TRef.unary main_call1.cst main_call1.v0 (broadcastInDim S100000x512 ![] bcast_S_S100000x512),
    TRef.binary (.of main_v30) main_call1.v0 main_call1.v1 maximumf ]

/-- The segment sum, the prompt's affine map, the concatenation and the first affine map. -/
abbrev opsPool : List (HloOp τ sig (Elt F)) :=
  [
    nullary main_cst_4 (constant S_ .f32 0x00000000#32),
    unary main_cst_4 main_v32 (broadcastInDim S128x512 ![] bcast_S_S128x512),
    unary main_arg4 main_v33 (broadcastInDim S100000x1 ![0] bcast_S100000_S100000x1_0),
    ternary main_v32 main_v33 main_v31 main_v34 (fun x i u => Host.scatterAdd scatter_S128x512_S100000x1_S100000x512_1_0_0_1 x i u),
    binary main_arg1 main_arg9 main_v35 (fun l r => Host.dotGeneral dot_S128x2_S2x2_S128x2_1_0_0_1_n_n none l r),
    unary main_arg10 main_v36 (broadcastInDim S1x2 ![1] bcast_S2_S1x2_1),
    unary main_v36 main_v37 (broadcastInDim S128x2 ![0, 1] bcast_S1x2_S128x2_0_1),
    binary main_v35 main_v37 main_v38 addf,
    binary main_v34 main_v38 main_v39 (fun a b => concatenate S128x514 1 [⟨S128x512, a⟩, ⟨S128x2, b⟩] concatenates_S128x512_S128x2_S128x514_d1),
    binary main_v39 main_arg11 main_v40 (fun l r => Host.dotGeneral dot_S128x514_S514x1024_S128x1024_1_0_0_1_n_n none l r),
    unary main_arg12 main_v41 (broadcastInDim S1x1024 ![1] bcast_S1024_S1x1024_1),
    unary main_v41 main_v42 (broadcastInDim S128x1024 ![0, 1] bcast_S1x1024_S128x1024_0_1),
    binary main_v40 main_v42 main_v43 addf ]

/-- Normalisation over 1024 columns, first half: the column mean, the variance (nineteen operations into
    `main_call2`'s buffers and the guard's three into the nested record's) and the mean laid along the rows. -/
abbrev opsBn0a : List (HloOp τ sig (Elt F)) :=
  [
    nullary main_cst_5 (constant S_ .f32 0x00000000#32),
    binary main_v43 main_cst_5 main_v44 (fun x v => Host.reduceAdd x v reducesTo_S128x1024_S1024_d0 h_S_),
    nullary main_cst_6 (constant S_ .f32 0x43000000#32),
    unary main_cst_6 main_v45 (broadcastInDim S1024 ![] bcast_S_S1024),
    binary main_v44 main_v45 main_v46 Host.divf,
    nullary main_c_7 (constantI S_ 32 0#32),
    TRef.nullary main_call2.cst (constant S_ .f32 0x00000000#32),
    TRef.binary (.of main_v43) main_call2.cst main_call2.v0 (fun x v => Host.reduceAdd x v reducesTo_S128x1024_S1024_d0 h_S_),
    TRef.unary main_call2.v0 main_call2.v1 (broadcastInDim S1x1024 ![1] bcast_S1024_S1x1024_1),
    TRef.nullary main_call2.cst_0 (constant S_ .f32 0x43000000#32),
    TRef.unary main_call2.cst_0 main_call2.v2 (broadcastInDim S1x1024 ![] bcast_S_S1x1024),
    TRef.binary main_call2.v1 main_call2.v2 main_call2.v3 Host.divf,
    TRef.unary main_call2.v3 main_call2.v4 (broadcastInDim S128x1024 ![0, 1] bcast_S1x1024_S128x1024_0_1),
    TRef.binary (.of main_v43) main_call2.v4 main_call2.v5 subf,
    TRef.binary main_call2.v5 main_call2.v5 main_call2.v6 mulf,
    TRef.unary (.of main_c_7) main_call2.v7 (sitofp .f32),
    TRef.nullary main_call2.cst_1 (constant S_ .f32 0x43000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S128x1024_S1024_d0 h_S_),
    TRef.unary main_call2.v8 main_call2.v10 (broadcastInDim S1024 ![] bcast_S_S1024),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S1024 ![] bcast_S_S1024),
    TRef.ternary main_call2.v12 main_call2.v11 main_call2.call0.v1 main_call2.call0.v2 (fun p a b => select (broadcastInDim S1024 ![] bcast_S_S1024 p) a b),
    unary main_v46 main_v48 (broadcastInDim S1x1024 ![1] bcast_S1024_S1x1024_1),
    unary main_v48 main_v49 (broadcastInDim S128x1024 ![0, 1] bcast_S1x1024_S128x1024_0_1) ]

/-- Second half: the centring, the scaling by the reciprocal root, the shift, and relu (`main_call3`'s buffers). -/
abbrev opsBn0b : List (HloOp τ sig (Elt F)) :=
  [
    binary main_v43 main_v49 main_v50 subf,
    unary main_arg13 main_v51 (broadcastInDim S1x1024 ![1] bcast_S1024_S1x1024_1),
    unary main_v51 main_v52 (broadcastInDim S128x1024 ![0, 1] bcast_S1x1024_S128x1024_0_1),
    binary main_v52 main_v50 main_v53 mulf,
    nullary main_cst_8 (constant S_ .f32 0x3727C5AC#32),
    unary main_cst_8 main_v54 (broadcastInDim S1024 ![] bcast_S_S1024),
    binary main_v47 main_v54 main_v55 addf,
    unary main_v55 main_v56 Host.rsqrt,
    unary main_v56 main_v57 (broadcastInDim S1x1024 ![1] bcast_S1024_S1x1024_1),
    unary main_v57 main_v58 (broadcastInDim S128x1024 ![0, 1] bcast_S1x1024_S128x1024_0_1),
    binary main_v53 main_v58 main_v59 mulf,
    unary main_arg14 main_v60 (broadcastInDim S1x1024 ![1] bcast_S1024_S1x1024_1),
    unary main_v60 main_v61 (broadcastInDim S128x1024 ![0, 1] bcast_S1x1024_S128x1024_0_1),
    binary main_v59 main_v61 main_v62 addf,
    TRef.nullary main_call3.cst (constant S_ .f32 0x00000000#32),
    TRef.unary main_call3.cst main_call3.v0 (broadcastInDim S128x1024 ![] bcast_S_S128x1024),
    TRef.binary (.of main_v62) main_call3.v0 main_call3.v1 maximumf ]

/-- The second affine map. -/
abbrev opsLin1 : List (HloOp τ sig (Elt F)) :=
  [
    binary main_v63 main_arg15 main_v64 (fun l r => Host.dotGeneral dot_S128x1024_S1024x512_S128x512_1_0_0_1_n_n none l r),
    unary main_arg16 main_v65 (broadcastInDim S1x512 ![1] bcast_S512_S1x512_1),
    unary main_v65 main_v66 (broadcastInDim S128x512 ![0, 1] bcast_S1x512_S128x512_0_1),
    binary main_v64 main_v66 main_v67 addf ]

/-- Normalisation over 512 columns (`main_call4`'s buffers, the guard's nested record, `main_call5`'s). -/
abbrev opsBn1 : List (HloOp τ sig (Elt F)) :=
  [
    nullary main_cst_9 (constant S_ .f32 0x00000000#32),
    binary main_v67 main_cst_9 main_v68 (fun x v => Host.reduceAdd x v reducesTo_S128x512_S512_d0 h_S_),
    nullary main_cst_10 (constant S_ .f32 0x43000000#32),
    unary main_cst_10 main_v69 (broadcastInDim S512 ![] bcast_S_S512),
    binary main_v68 main_v69 main_v70 Host.divf,
    nullary main_c_11 (constantI S_ 32 0#32),
    TRef.nullary main_call4.cst (constant S_ .f32 0x00000000#32),
    TRef.binary (.of main_v67) main_call4.cst main_call4.v0 (fun x v => Host.reduceAdd x v reducesTo_S128x512_S512_d0 h_S_),
    TRef.unary main_call4.v0 main_call4.v1 (broadcastInDim S1x512 ![1] bcast_S512_S1x512_1),
    TRef.nullary main_call4.cst_0 (constant S_ .f32 0x43000000#32),
    TRef.unary main_call4.cst_0 main_call4.v2 (broadcastInDim S1x512 ![] bcast_S_S1x512),
    TRef.binary main_call4.v1 main_call4.v2 main_call4.v3 Host.divf,
    TRef.unary main_call4.v3 main_call4.v4 (broadcastInDim S128x512 ![0, 1] bcast_S1x512_S128x512_0_1),
    TRef.binary (.of main_v67) main_call4.v4 main_call4.v5 subf,
    TRef.binary main_call4.v5 main_call4.v5 main_call4.v6 mulf,
    TRef.unary (.of main_c_11) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S128x512_S512_d0 h_S_),
    TRef.unary main_call4.v8 main_call4.v10 (broadcastInDim S512 ![] bcast_S_S512),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S512 ![] bcast_S_S512),
    TRef.ternary main_call4.v12 main_call4.v11 main_call4.call0.v1 main_call4.call0.v2 (fun p a b => select (broadcastInDim S512 ![] bcast_S_S512 p) a b),
    unary main_v70 main_v72 (broadcastInDim S1x512 ![1] bcast_S512_S1x512_1),
    unary main_v72 main_v73 (broadcastInDim S128x512 ![0, 1] bcast_S1x512_S128x512_0_1),
    binary main_v67 main_v73 main_v74 subf,
    unary main_arg17 main_v75 (broadcastInDim S1x512 ![1] bcast_S512_S1x512_1),
    unary main_v75 main_v76 (broadcastInDim S128x512 ![0, 1] bcast_S1x512_S128x512_0_1),
    binary main_v76 main_v74 main_v77 mulf,
    nullary main_cst_12 (constant S_ .f32 0x3727C5AC#32),
    unary main_cst_12 main_v78 (broadcastInDim S512 ![] bcast_S_S512),
    binary main_v71 main_v78 main_v79 addf,
    unary main_v79 main_v80 Host.rsqrt,
    unary main_v80 main_v81 (broadcastInDim S1x512 ![1] bcast_S512_S1x512_1),
    unary main_v81 main_v82 (broadcastInDim S128x512 ![0, 1] bcast_S1x512_S128x512_0_1),
    binary main_v77 main_v82 main_v83 mulf,
    unary main_arg18 main_v84 (broadcastInDim S1x512 ![1] bcast_S512_S1x512_1),
    unary main_v84 main_v85 (broadcastInDim S128x512 ![0, 1] bcast_S1x512_S128x512_0_1),
    binary main_v83 main_v85 main_v86 addf,
    TRef.nullary main_call5.cst (constant S_ .f32 0x00000000#32),
    TRef.unary main_call5.cst main_call5.v0 (broadcastInDim S128x512 ![] bcast_S_S128x512),
    TRef.binary (.of main_v86) main_call5.v0 main_call5.v1 maximumf ]

/-- The last affine map. -/
abbrev opsLin2 : List (HloOp τ sig (Elt F)) :=
  [
    binary main_v87 main_arg19 main_v88 (fun l r => Host.dotGeneral dot_S128x512_S512x100_S128x100_1_0_0_1_n_n none l r),
    unary main_arg20 main_v89 (broadcastInDim S1x100 ![1] bcast_S100_S1x100_1),
    unary main_v89 main_v90 (broadcastInDim S128x100 ![0, 1] bcast_S1x100_S128x100_0_1),
    binary main_v88 main_v90 main_v91 addf ]

/-- @main's two windows: statements 1 … 60 are the first 85 operations (three calls written out), statements
    61 … 108 the other 72. -/
abbrev ops0 : List (HloOp τ sig (Elt F)) := opsL1 ++ opsL2 ++ opsPool ++ opsBn0a
abbrev ops1 : List (HloOp τ sig (Elt F)) := opsBn0b ++ opsLin1 ++ opsBn1 ++ opsLin2

/-- @main's 157 operations in order, each call's body written out at the call over that call's buffers. -/
abbrev ops : List (HloOp τ sig (Elt F)) := ops0 ++ ops1

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## No segment writes an argument

The arguments are the references of index below 21 and every operation writes a buffer of index 21 or more, so each
operation's result at an argument's reference is what was there. -/

theorem argsL1 (W : Valuation τ sig (Elt F)) (r : Ref sig .tc) (hr : r.idx.val < 21) :
    after opsL1 W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsL2 (W : Valuation τ sig (Elt F)) (r : Ref sig .tc) (hr : r.idx.val < 21) :
    after opsL2 W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsPool (W : Valuation τ sig (Elt F)) (r : Ref sig .tc) (hr : r.idx.val < 21) :
    after opsPool W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsBn0 (W : Valuation τ sig (Elt F)) (r : Ref sig .tc) (hr : r.idx.val < 21) :
    after opsBn0b (after opsBn0a W) (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsLin1 (W : Valuation τ sig (Elt F)) (r : Ref sig .tc) (hr : r.idx.val < 21) :
    after opsLin1 W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsBn1 (W : Valuation τ sig (Elt F)) (r : Ref sig .tc) (hr : r.idx.val < 21) :
    after opsBn1 W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

theorem argsLin2 (W : Valuation τ sig (Elt F)) (r : Ref sig .tc) (hr : r.idx.val < 21) :
    after opsLin2 W (r : DevRef τ sig) = W (r : DevRef τ sig) := by
  have hne : ∀ y : Ref sig .tc, 21 ≤ y.idx.val → r ≠ y := fun y hy e => by subst e; omega
  simp (disch := (apply hne; decide)) only [after_cons, after_nil, nullary_result_ne', unary_result_ne',
    binary_result_ne', ternary_result_ne']

/-! ## Each segment's result is its stage

Each operation's result is read at its own buffer and passed over at every other; what is left is the operations'
functions composed as the stage composes them. The sums, the gather and the scatter stay folded: the equations never
look inside them. -/

attribute [local irreducible] Host.reduceAdd Host.gather Host.scatterAdd Host.divf Host.rsqrt concatenate

theorem valL1 (W : Valuation τ sig (Elt F)) :
    after opsL1 W (main_v15 : DevRef τ sig)
      = Spec.lay1 (W (main_arg0 : DevRef τ sig))
          (Spec.agg6 (W (main_arg0 : DevRef τ sig)) (W (main_arg2 : DevRef τ sig)) (W (main_arg3 : DevRef τ sig)))
          (W (main_arg5 : DevRef τ sig)) (W (main_arg6 : DevRef τ sig)) := by
  after_results_simp
  rfl

theorem valL2 (W : Valuation τ sig (Elt F)) :
    after opsL2 W (main_v31 : DevRef τ sig)
      = Spec.lay2 (W (main_v15 : DevRef τ sig))
          (Spec.agg128 (W (main_v15 : DevRef τ sig)) (W (main_arg2 : DevRef τ sig)) (W (main_arg3 : DevRef τ sig)))
          (W (main_arg7 : DevRef τ sig)) (W (main_arg8 : DevRef τ sig)) := by
  after_results_simp
  rfl

theorem valPool (W : Valuation τ sig (Elt F)) :
    after opsPool W (main_v43 : DevRef τ sig)
      = Spec.lin0 (Spec.cat (Spec.pool (W (main_v31 : DevRef τ sig)) (W (main_arg4 : DevRef τ sig)))
            (Spec.proj (W (main_arg1 : DevRef τ sig)) (W (main_arg9 : DevRef τ sig)) (W (main_arg10 : DevRef τ sig))))
          (W (main_arg11 : DevRef τ sig)) (W (main_arg12 : DevRef τ sig)) := by
  after_results_simp
  rfl

theorem valBn0 (W : Valuation τ sig (Elt F)) :
    after opsBn0b (after opsBn0a W) (main_v63 : DevRef τ sig)
      = Spec.bnrelu0 (W (main_v43 : DevRef τ sig)) (W (main_arg13 : DevRef τ sig)) (W (main_arg14 : DevRef τ sig)) := by
  after_results_simp
  rfl

theorem valLin1 (W : Valuation τ sig (Elt F)) :
    after opsLin1 W (main_v67 : DevRef τ sig)
      = Spec.lin1 (W (main_v63 : DevRef τ sig)) (W (main_arg15 : DevRef τ sig)) (W (main_arg16 : DevRef τ sig)) := by
  after_results_simp
  rfl

theorem valBn1 (W : Valuation τ sig (Elt F)) :
    after opsBn1 W (main_v87 : DevRef τ sig)
      = Spec.bnrelu1 (W (main_v67 : DevRef τ sig)) (W (main_arg17 : DevRef τ sig)) (W (main_arg18 : DevRef τ sig)) := by
  after_results_simp
  rfl

theorem valLin2 (W : Valuation τ sig (Elt F)) :
    after opsLin2 W (main_v91 : DevRef τ sig)
      = Spec.lin2 (W (main_v87 : DevRef τ sig)) (W (main_arg19 : DevRef τ sig)) (W (main_arg20 : DevRef τ sig)) := by
  after_results_simp
  rfl

/-! ## The segments in a row -/

section Row

variable (V : Valuation τ sig (Elt F))

/-- The contents after the first k segments. -/
abbrev P1 : Valuation τ sig (Elt F) := after opsL1 V
abbrev P2 : Valuation τ sig (Elt F) := after opsL2 (P1 V)
abbrev P3 : Valuation τ sig (Elt F) := after opsPool (P2 V)
abbrev P4 : Valuation τ sig (Elt F) := after opsBn0b (after opsBn0a (P3 V))
abbrev P5 : Valuation τ sig (Elt F) := after opsLin1 (P4 V)
abbrev P6 : Valuation τ sig (Elt F) := after opsBn1 (P5 V)
abbrev P7 : Valuation τ sig (Elt F) := after opsLin2 (P6 V)

theorem after_ops : after ops V = P7 V := by
  simp only [ops, ops0, ops1, after_app]

variable (r : Ref sig .tc) (hr : r.idx.val < 21)
include hr

theorem arg1 : P1 V (r : DevRef τ sig) = V (r : DevRef τ sig) := argsL1 V r hr
theorem arg2 : P2 V (r : DevRef τ sig) = V (r : DevRef τ sig) := (argsL2 _ r hr).trans (arg1 V r hr)
theorem arg3 : P3 V (r : DevRef τ sig) = V (r : DevRef τ sig) := (argsPool _ r hr).trans (arg2 V r hr)
theorem arg4 : P4 V (r : DevRef τ sig) = V (r : DevRef τ sig) := (argsBn0 _ r hr).trans (arg3 V r hr)
theorem arg5 : P5 V (r : DevRef τ sig) = V (r : DevRef τ sig) := (argsLin1 _ r hr).trans (arg4 V r hr)
theorem arg6 : P6 V (r : DevRef τ sig) = V (r : DevRef τ sig) := (argsBn1 _ r hr).trans (arg5 V r hr)
theorem arg7 : P7 V (r : DevRef τ sig) = V (r : DevRef τ sig) := (argsLin2 _ r hr).trans (arg6 V r hr)

/-- No operation writes an argument. -/
theorem args_all : after ops V (r : DevRef τ sig) = V (r : DevRef τ sig) := by
  rw [after_ops]; exact arg7 V r hr

omit hr r

/-- The stages of the arguments, as the segments produce them. -/
abbrev nodesOf : Spec.FC F S100000x512 :=
  Spec.nodes (V (main_arg0 : DevRef τ sig)) (V (main_arg2 : DevRef τ sig)) (V (main_arg3 : DevRef τ sig))
    (V (main_arg5 : DevRef τ sig)) (V (main_arg6 : DevRef τ sig)) (V (main_arg7 : DevRef τ sig)) (V (main_arg8 : DevRef τ sig))
abbrev z0Of : Spec.FC F S128x1024 :=
  Spec.lin0 (Spec.cat (Spec.pool (nodesOf V) (V (main_arg4 : DevRef τ sig)))
      (Spec.proj (V (main_arg1 : DevRef τ sig)) (V (main_arg9 : DevRef τ sig)) (V (main_arg10 : DevRef τ sig))))
    (V (main_arg11 : DevRef τ sig)) (V (main_arg12 : DevRef τ sig))
abbrev a0Of : Spec.FC F S128x1024 := Spec.bnrelu0 (z0Of V) (V (main_arg13 : DevRef τ sig)) (V (main_arg14 : DevRef τ sig))
abbrev z1Of : Spec.FC F S128x512 := Spec.lin1 (a0Of V) (V (main_arg15 : DevRef τ sig)) (V (main_arg16 : DevRef τ sig))
abbrev a1Of : Spec.FC F S128x512 := Spec.bnrelu1 (z1Of V) (V (main_arg17 : DevRef τ sig)) (V (main_arg18 : DevRef τ sig))

theorem val1 : P1 V (main_v15 : DevRef τ sig)
    = Spec.lay1 (V (main_arg0 : DevRef τ sig))
        (Spec.agg6 (V (main_arg0 : DevRef τ sig)) (V (main_arg2 : DevRef τ sig)) (V (main_arg3 : DevRef τ sig)))
        (V (main_arg5 : DevRef τ sig)) (V (main_arg6 : DevRef τ sig)) := valL1 V

theorem val2 : P2 V (main_v31 : DevRef τ sig) = nodesOf V :=
  (valL2 (P1 V)).trans (by
    rw [val1 V, arg1 V main_arg2 (by decide), arg1 V main_arg3 (by decide), arg1 V main_arg7 (by decide),
      arg1 V main_arg8 (by decide)]
    rfl)

theorem val3 : P3 V (main_v43 : DevRef τ sig) = z0Of V :=
  (valPool (P2 V)).trans (by
    rw [val2 V, arg2 V main_arg4 (by decide), arg2 V main_arg1 (by decide), arg2 V main_arg9 (by decide),
      arg2 V main_arg10 (by decide), arg2 V main_arg11 (by decide), arg2 V main_arg12 (by decide)])

theorem val4 : P4 V (main_v63 : DevRef τ sig) = a0Of V :=
  (valBn0 (P3 V)).trans (by rw [val3 V, arg3 V main_arg13 (by decide), arg3 V main_arg14 (by decide)])

theorem val5 : P5 V (main_v67 : DevRef τ sig) = z1Of V :=
  (valLin1 (P4 V)).trans (by rw [val4 V, arg4 V main_arg15 (by decide), arg4 V main_arg16 (by decide)])

theorem val6 : P6 V (main_v87 : DevRef τ sig) = a1Of V :=
  (valBn1 (P5 V)).trans (by rw [val5 V, arg5 V main_arg17 (by decide), arg5 V main_arg18 (by decide)])

/-- The fold at the result buffer is `Spec.out` of the arguments. -/
theorem out_eq :
    after ops V (main_v91 : DevRef τ sig)
      = Spec.out (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) (V (main_arg17 : DevRef τ sig))
          (V (main_arg18 : DevRef τ sig)) (V (main_arg19 : DevRef τ sig)) (V (main_arg20 : DevRef τ sig)) := by
  rw [after_ops]
  refine (valLin2 (P6 V)).trans ?_
  rw [val6 V, arg6 V main_arg19 (by decide), arg6 V main_arg20 (by decide)]
  rfl

end Row

/-! ## @main is the straight line -/

set_option maxRecDepth 16384 in
set_option maxHeartbeats 4000000 in
/-- The first window is its 85 operations in order: the three functions' definitions unfold at their calls, and
    sequencing computes. -/
theorem main_part0_eq (c : Dev nD) : main_part0 (F := F) c = seq ops0 := rfl

set_option maxRecDepth 16384 in
set_option maxHeartbeats 4000000 in
/-- The second window is the other 72. -/
theorem main_part1_eq (c : Dev nD) : main_part1 (F := F) c = seq ops1 := rfl

/-- @main runs the two windows in order, and a line run after a line is their concatenation run as one. -/
theorem main_eq (c : Dev nD) : main (F := F) c = seq ops := by
  show main (F := F) c = seq (ops0 ++ ops1)
  rw [seq_append, ← main_part0_eq c, ← main_part1_eq c]
  rfl

/-- The signature scopes no TensorCore buffer and no semaphore: every buffer is a tensor value. -/
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {p : HloOp τ sig (Elt F) → Prop} {l₁ l₂ : List (HloOp τ sig (Elt F))} (h₁ : l₁.Forall p)
    (h₂ : l₂.Forall p) : (l₁ ++ l₂).Forall p :=
  List.forall_iff_forall_mem.mpr fun op h =>
    (List.mem_append.mp h).elim (List.forall_iff_forall_mem.mp h₁ op) (List.forall_iff_forall_mem.mp h₂ op)

/-! Every operation touches TensorCore references only: segment by segment (one fact per operation, in order), then
for the whole line. -/

theorem subL1 : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub ..⟩

theorem subL2 : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., binary_bufs_sub .., binary_bufs_sub .., unary_bufs_sub .., unary_bufs_sub .., binary_bufs_sub ..,
    nullary_bufs_sub .., unary_bufs_sub .., binary_bufs_sub ..⟩

theorem subPool : (opsPool : List (HloOp τ sig (Elt F))).Forall fun op => op.bufs ⊆ tcRefs τ sig :=
  ⟨nullary_bufs_sub .., unary_bufs_sub .., unary_bufs_sub .., ternary_bufs_sub .., binary_bufs_sub .., unary_bufs_sub ..,
    unary_bufs_sub .., binary_bufs_sub .., binary_bufs_sub .., binary_bufs_sub .., unary_bufs_sub .., unary_bufs_sub ..,
    binary_bufs_sub ..⟩

theorem subBn0a : (opsBn0a : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub .., unary_bufs_sub ..⟩

theorem subBn0b : (opsBn0b : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., binary_bufs_sub ..⟩

theorem subLin1 : (opsLin1 : List (HloOp τ sig (Elt F))).Forall fun op => op.bufs ⊆ tcRefs τ sig :=
  ⟨binary_bufs_sub .., unary_bufs_sub .., unary_bufs_sub .., binary_bufs_sub ..⟩

theorem subBn1 : (opsBn1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..,
    nullary_bufs_sub .., unary_bufs_sub .., binary_bufs_sub ..⟩

theorem subLin2 : (opsLin2 : List (HloOp τ sig (Elt F))).Forall fun op => op.bufs ⊆ tcRefs τ sig :=
  ⟨binary_bufs_sub .., unary_bufs_sub .., unary_bufs_sub .., binary_bufs_sub ..⟩

theorem ops_sub : (ops : List (HloOp τ sig (Elt F))).Forall fun op => op.bufs ⊆ tcRefs τ sig :=
  forall_app (forall_app (forall_app (forall_app subL1 subL2) subPool) subBn0a)
    (forall_app (forall_app (forall_app subBn0b subLin1) subBn1) subLin2)

/-- From any memory with zero counters every weakly fair execution of the reference terminates, nothing faulting, with the
    result at `Spec.out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  exact (θ_run defs _ _).mono (fun _ h c => ⟨(h c main_v91).trans (out_eq _),
      (h c main_arg0).trans (args_all _ main_arg0 (by decide)),
      (h c main_arg1).trans (args_all _ main_arg1 (by decide)),
      (h c main_arg2).trans (args_all _ main_arg2 (by decide)),
      (h c main_arg3).trans (args_all _ main_arg3 (by decide)),
      (h c main_arg4).trans (args_all _ main_arg4 (by decide)),
      (h c main_arg5).trans (args_all _ main_arg5 (by decide)),
      (h c main_arg6).trans (args_all _ main_arg6 (by decide)),
      (h c main_arg7).trans (args_all _ main_arg7 (by decide)),
      (h c main_arg8).trans (args_all _ main_arg8 (by decide)),
      (h c main_arg9).trans (args_all _ main_arg9 (by decide)),
      (h c main_arg10).trans (args_all _ main_arg10 (by decide)),
      (h c main_arg11).trans (args_all _ main_arg11 (by decide)),
      (h c main_arg12).trans (args_all _ main_arg12 (by decide)),
      (h c main_arg13).trans (args_all _ main_arg13 (by decide)),
      (h c main_arg14).trans (args_all _ main_arg14 (by decide)),
      (h c main_arg15).trans (args_all _ main_arg15 (by decide)),
      (h c main_arg16).trans (args_all _ main_arg16 (by decide)),
      (h c main_arg17).trans (args_all _ main_arg17 (by decide)),
      (h c main_arg18).trans (args_all _ main_arg18 (by decide)),
      (h c main_arg19).trans (args_all _ main_arg19 (by decide)),
      (h c main_arg20).trans (args_all _ main_arg20 (by decide))⟩)
    (run_seq scopedRefs_eq scopedSems_eq defs main (fun _ => ops) main_eq (fun _ => ops_sub) m ρ)

end Cert.ReferenceIdeal.RefRun

end
-- ==== Proof.lean ====
/-
  The certificate: the two kernel programs' frames are the generated ones; the reference's frame is its run with the result
  dropped; the idealization rewrote nothing; and at the ideal values both programs end at ONE function of the argument
  arrays, `Spec.out`: two graph-convolution layers (neighbour sums by gather and scatter-add, then relu ((h + neigh) · W + b)),
  a segment sum into graphs, and three affine maps with batch normalisation over the graphs and relu between them. The kernel
  program computes the layer updates block by block and the pooled block in one launch (KValue.lean over Gin0, Gin1, Mlp);
  the reference computes them on whole arrays (RefRun.lean).
-/
import proofs.«403661_j28097676051004_1_alg».proof.Defs
import proofs.«403661_j28097676051004_1_alg».proof.Proof.Gen.Kernel
import proofs.«403661_j28097676051004_1_alg».proof.Proof.Gen.Kernel.Frame
import proofs.«403661_j28097676051004_1_alg».proof.Proof.Gen.KernelIdeal
import proofs.«403661_j28097676051004_1_alg».proof.Proof.Gen.KernelIdeal.Frame
import proofs.«403661_j28097676051004_1_alg».proof.Proof.Gen.ReferenceIdeal
import proofs.«403661_j28097676051004_1_alg».proof.Proof.Gen.Pre_finite_inputs
import proofs.«403661_j28097676051004_1_alg».proof.Proof.Spec
import proofs.«403661_j28097676051004_1_alg».proof.Proof.KRun
import proofs.«403661_j28097676051004_1_alg».proof.Proof.KValue
import proofs.«403661_j28097676051004_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at `Spec.out` of arguments that agree. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run Cert.KernelIdeal.defs _ _).mono
      (fun _ h c => ⟨(h c).1.trans (Cert.KernelIdeal.KValue.result_eq m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20⟩ := hagree c
    show Cert.ReferenceIdeal.Spec.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) = _
    rw [h0, h1, h2, h3, h4, h5, h6, h7, h8, h9, h10, h11, h12, h13, h14, h15, h16, h17, h18, h19, h20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
